-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S5000x128 : Shape := ⟨2, ![5000, 128]⟩
abbrev S850000x128 : Shape := ⟨2, ![850000, 128]⟩
abbrev S50000x1 : Shape := ⟨2, ![50000, 1]⟩
abbrev S64x128 : Shape := ⟨2, ![64, 128]⟩
abbrev S5000x1 : Shape := ⟨2, ![5000, 1]⟩
abbrev S5000x64 : Shape := ⟨2, ![5000, 64]⟩
abbrev S64x1 : Shape := ⟨2, ![64, 1]⟩

abbrev nBuf : Space → Nat
  | .hbm => 104
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S850000x1, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S50000x128, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x128, .f32⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x128, .f32⟩
  | .hbm, ⟨80, _⟩ => ⟨S850000x128, .f32⟩
  | .hbm, ⟨81, _⟩ => ⟨S_, .f32⟩
  | .hbm, ⟨82, _⟩ => ⟨S50000x128, .f32⟩
  | .hbm, ⟨83, _⟩ => ⟨S850000x1, .i32⟩
  | .hbm, ⟨84, _⟩ => ⟨S50000x128, .f32⟩
  | .hbm, ⟨85, _⟩ => ⟨S50000x128, .f32⟩
  | .hbm, ⟨86, _⟩ => ⟨S_, .i32⟩
  | .hbm, ⟨87, _⟩ => ⟨S850000, .i32⟩
  | .hbm, ⟨88, _⟩ => ⟨S850000, .i1⟩
  | .hbm, ⟨89, _⟩ => ⟨S_, .i32⟩
  | .hbm, ⟨90, _⟩ => ⟨S850000, .i32⟩
  | .hbm, ⟨91, _⟩ => ⟨S850000, .i32⟩
  | .hbm, ⟨92, _⟩ => ⟨S850000, .i32⟩
  | .hbm, ⟨93, _⟩ => ⟨S850000x1, .i32⟩
  | .hbm, ⟨94, _⟩ => ⟨S850000x128, .f32⟩
  | .hbm, ⟨95, _⟩ => ⟨S850000x128, .f32⟩
  | .hbm, ⟨96, _⟩ => ⟨S850000x128, .f32⟩
  | .hbm, ⟨97, _⟩ => ⟨S_, .f32⟩
  | .hbm, ⟨98, _⟩ => ⟨S50000x128, .f32⟩
  | .hbm, ⟨99, _⟩ => ⟨S850000x1, .i32⟩
  | .hbm, ⟨100, _⟩ => ⟨S50000x128, .f32⟩
  | .hbm, ⟨101, _⟩ => ⟨S50000x128, .f32⟩
  | .hbm, ⟨102, _⟩ => ⟨S50000x1, .i32⟩
  | .hbm, ⟨103, _⟩ => ⟨S64x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .i32⟩
  | .local _ .vmem, ⟨25, _⟩ => ⟨S5000x1, .i32⟩
  | .local _ .vmem, ⟨26, _⟩ => ⟨S64x128, .f32⟩
  | .local _ .vmem, ⟨27, _⟩ => ⟨S64x128, .f32⟩
  | .local _ .vmem, ⟨28, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_c_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_scratch0 : Ref sig .tc := ⟨.vmem, 27, rfl⟩
abbrev cc4_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_14 : BitVec 32 := 0#32
  let v29 : BitVec 1 := Scalar.cmpi .ne v28 c0_i32_14
  v29

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000_S50000x1 : S50000.ShapeCasts S50000x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S5000x64_d1_w32 : S5000x64.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  natLt_1_32 : 1 < 32
  shapeCasts_S64x1_S64x1 : S64x1.ShapeCasts S64x1
  broadcasts_S64x1_S64x128 : S64x1.Broadcasts S64x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x64_S5000x128_S64x128_0_0_1_1_n_n_wf : DotDims.WF S5000x64 S5000x128 S64x128 [0] [0] [1] [1] [] []
  dot_S5000x64_S5000x1_S64x1_0_0_1_1_n_n_wf : DotDims.WF S5000x64 S5000x1 S64x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .i32 = 32 ∨ (Rect.block (s := S50000x1) S5000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v72) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v75) S64x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩

abbrev nBuf : Space → Nat
  | .hbm => 132
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S850000x1, .f32⟩
  | 50 => ⟨S50000x128, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x128, .f32⟩
  | 82 => ⟨S850000x128, .f32⟩
  | 83 => ⟨S850000x128, .f32⟩
  | 84 => ⟨S_, .f32⟩
  | 85 => ⟨S50000x128, .f32⟩
  | 86 => ⟨S850000x1, .i32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x128, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000x128, .f32⟩
  | 104 => ⟨S850000x128, .f32⟩
  | 105 => ⟨S850000x128, .f32⟩
  | 106 => ⟨S_, .f32⟩
  | 107 => ⟨S50000x128, .f32⟩
  | 108 => ⟨S850000x1, .i32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S_, .f32⟩
  | 117 => ⟨S64x128, .f32⟩
  | 118 => ⟨S50000x1, .i32⟩
  | 119 => ⟨S64x128, .f32⟩
  | 120 => ⟨S_, .f32⟩
  | 121 => ⟨S50000, .f32⟩
  | 122 => ⟨S_, .f32⟩
  | 123 => ⟨S64, .f32⟩
  | 124 => ⟨S50000x1, .i32⟩
  | 125 => ⟨S64, .f32⟩
  | 126 => ⟨S_, .f32⟩
  | 127 => ⟨S64, .f32⟩
  | _ => ⟨S50000x128, .f32⟩

abbrev hbmTy0_1 (i : Nat) : BufTy := match i % 128 with
  | 0 => ⟨S64, .f32⟩
  | 1 => ⟨S64x1, .f32⟩
  | 2 => ⟨S64x128, .f32⟩
  | 3 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call2_cst : Ref sig .tc := ⟨.hbm, 91, rfl⟩
abbrev main_call2_v0 : Ref sig .tc := ⟨.hbm, 92, rfl⟩
abbrev main_v64 : Ref sig .tc := ⟨.hbm, 93, rfl⟩
abbrev main_v65 : Ref sig .tc := ⟨.hbm, 94, rfl⟩
abbrev main_c_12 : Ref sig .tc := ⟨.hbm, 95, rfl⟩
abbrev main_v66 : Ref sig .tc := ⟨.hbm, 96, rfl⟩
abbrev main_v67 : Ref sig .tc := ⟨.hbm, 97, rfl⟩
abbrev main_c_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_call3_cst : Ref sig .tc := ⟨.hbm, 113, rfl⟩
abbrev main_call3_v0 : Ref sig .tc := ⟨.hbm, 114, rfl⟩
abbrev main_v81 : Ref sig .tc := ⟨.hbm, 115, rfl⟩
abbrev main_cst_15 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_16 : Ref sig .tc := ⟨.hbm, 120, rfl⟩
abbrev main_v85 : Ref sig .tc := ⟨.hbm, 121, rfl⟩
abbrev main_cst_17 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_18 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.Kernel.Region0.lean ====
/-
  Region 0 of @main, the first projection: at each of the ten grid points the body multiplies a block of 5000 rows of
  the node features by the whole 128 x 128 weight matrix and stores the product whole. Stated at a parameter `V`, the
  contents of the unscoped buffers when the region is entered: each window's block at a point, what the body leaves in
  the output's staging buffer as a function of the two input blocks, the pipeline's proof data, and the body
  obligation at every point.
-/
import proofs.«418164_j56556129354064_1_alg».proof.Proof.Gen.Kernel.Launch
import proofs.«418164_j56556129354064_1_alg».proof.Proof.Gen.Kernel.Skeleton
import proofs.«418164_j56556129354064_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one rectangle of each access: the whole staging buffer. -/
abbrev rX0 : Rect S5000x128 := Rect.unit (s := S5000x128) ![0, 0] S5000x128.size inb_S5000x128_S5000x128_0_0
abbrev rW0 : Rect S128x128 := Rect.unit (s := S128x128) ![0, 0] S128x128.size inb_S128x128_S128x128_0_0

/-- What the body leaves in the output's staging buffer: the product of the row block and the weights, stored whole. -/
def out0 (x : Vec F S5000x128 .f32) (w : Vec F S128x128 .f32) : Vec F S5000x128 .f32 :=
  View.canon [⟨rX0, k0_pay1 (View.ld x rX0) (View.ld w rW0)⟩]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

/-- An input window's current staging buffer holds its block of the array at every point, whether the point
    fetched it or the block index has not moved since the fetch (the weights: fetched once). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]) t d).trans
    (by unfold Dat.fetched Dat.blockOf iblk0; rw [A_eq0]; try rfl)

/-- The single store covers the output's staging buffer. -/
theorem cover0 (p : Vec F S5000x128 .f32) (y : S5000x128.Idx) :
    ∃ pc ∈ ([⟨rX0, p⟩] : List (View.Piece (Elt F) S5000x128 .f32)), y ∈ pc.1.set :=
  View.cover_of_tiled [⟨rX0, p⟩] S5000x128.size (by rfl) y

set_option maxHeartbeats 1000000 in
/-- The body on whole staging memrefs: from the two inputs at their contents and the output at anything it runs to
    its return, the inputs untouched and the output at `out0` of them. -/
theorem sound_kernel0 (c : Dev nD) (E : Set ℕ) (i : grid0.Coords)
    (a1 : Memref sig .tc .vmem S5000x128 .f32) (h1 : a1.IsWhole) (a2 : Memref sig .tc .vmem S128x128 .f32) (h2 : a2.IsWhole)
    (a3 : Memref sig .tc .vmem S5000x128 .f32) (h3 : a3.IsWhole)
    (x : Vec F S5000x128 .f32) (w : Vec F S128x128 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (out0 x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The body obligation of region 0 at every point: the inputs' buffers hold their blocks, so the run above applies;
    the invariant and what the core owes pass through unread. -/
theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)))
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Hand

end
-- ==== Proof.Kernel.Region1.lean ====
/-
  Region 1 of @main, the second layer's projection: at each of the ten grid points the body adds the bias row to a
  block of 5000 rows of the aggregated features, clamps at zero from below, multiplies by the whole 128 x 128 weight
  matrix and stores the product whole. Stated at a parameter `V`, the contents of the unscoped buffers when the region
  is entered: each window's block at a point, what the body leaves in the output's staging buffer as a function of the
  three input blocks, the pipeline's proof data, and the body obligation at every point.
-/
import proofs.«418164_j56556129354064_1_alg».proof.Proof.Gen.Kernel.Launch
import proofs.«418164_j56556129354064_1_alg».proof.Proof.Gen.Kernel.Skeleton
import proofs.«418164_j56556129354064_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The one rectangle of each access: the whole staging buffer. -/
abbrev rX1 : Rect S5000x128 := Rect.unit (s := S5000x128) ![0, 0] S5000x128.size inb_S5000x128_S5000x128_0_0
abbrev rB1 : Rect S1x128 := Rect.unit (s := S1x128) ![0, 0] S1x128.size inb_S1x128_S1x128_0_0
abbrev rW1 : Rect S128x128 := Rect.unit (s := S128x128) ![0, 0] S128x128.size inb_S128x128_S128x128_0_0

/-- What the body leaves in the output's staging buffer: the clamped, biased row block times the weights, stored whole. -/
def out1 (x : Vec F S5000x128 .f32) (b : Vec F S1x128 .f32) (w : Vec F S128x128 .f32) : Vec F S5000x128 .f32 :=
  View.canon [⟨rX1, k1_pay1 (View.ld x rX1) (View.ld b rB1) (View.ld w rW1)⟩]

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

/-- An input window's current staging buffer holds its block of the array at every point, whether the point
    fetched it or the block index has not moved since the fetch (the bias row and the weights: fetched once). -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]) t d).trans
    (by unfold Dat.fetched Dat.blockOf iblk1; rw [A_eq1]; try rfl)

/-- The single store covers the output's staging buffer. -/
theorem cover1 (p : Vec F S5000x128 .f32) (y : S5000x128.Idx) :
    ∃ pc ∈ ([⟨rX1, p⟩] : List (View.Piece (Elt F) S5000x128 .f32)), y ∈ pc.1.set :=
  View.cover_of_tiled [⟨rX1, p⟩] S5000x128.size (by rfl) y

set_option maxHeartbeats 1000000 in
/-- The body on whole staging memrefs: from the three inputs at their contents and the output at anything it runs to
    its return, the inputs untouched and the output at `out1` of them. -/
theorem sound_kernel1 (c : Dev nD) (E : Set ℕ) (i : grid1.Coords)
    (a1 : Memref sig .tc .vmem S5000x128 .f32) (h1 : a1.IsWhole) (a2 : Memref sig .tc .vmem S1x128 .f32) (h2 : a2.IsWhole)
    (a3 : Memref sig .tc .vmem S128x128 .f32) (h3 : a3.IsWhole) (a4 : Memref sig .tc .vmem S5000x128 .f32) (h4 : a4.IsWhole)
    (x : Vec F S5000x128 .f32) (b : Vec F S1x128 .f32) (w : Vec F S128x128 .f32) (K : PUnit → sProp 𝕄) :
    iprop(owns (c : Thread nD τ) a1 fullShare x ∗ owns (c : Thread nD τ) a2 fullShare b ∗ owns (c : Thread nD τ) a3 fullShare w
        ∗ (∃ d, owns (c : Thread nD τ) a4 fullShare d)
        ∗ (iprop(owns (c : Thread nD τ) a1 fullShare x ∗ owns (c : Thread nD τ) a2 fullShare b ∗ owns (c : Thread nD τ) a3 fullShare w
            ∗ owns (c : Thread nD τ) a4 fullShare (out1 x b w)) -∗ K ⟨⟩))
      ⊢ wp frame (wpE (defs₀ (F := F)) Variants.none c none) E (cc1__relu_bias_matmul_kernel i a1 h1 a2 h2 a3 h3 a4 h4) K := by
  simp only [cc1__relu_bias_matmul_kernel_eq_skeleton]; unfold cc1__relu_bias_matmul_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-- The body obligation of region 1 at every point: the inputs' buffers hold their blocks, so the run above applies;
    the invariant and what the core owes pass through unread. -/
theorem body_obligation1 (c : Dev nD) : BodyObligation (dat1 (F := F) V c) (defs₀ (F := F)) Variants.none () Set.univ := fun t => by
  rw [bigSep_W1, bigSep_W1]
  show iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t)))
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.Kernel.Hand

end
-- ==== Proof.Kernel.Region2.lean ====
/-
  Region 2 of @main, the third layer's projection: at each of the ten grid points the body adds the bias row to a
  block of 5000 rows of the aggregated features, clamps at zero from below, multiplies by the whole 128 x 128 weight
  matrix and stores the product whole. Stated at a parameter `V`, the contents of the unscoped buffers when the region
  is entered: each window's block at a point, what the body leaves in the output's staging buffer as a function of the
  three input blocks, the pipeline's proof data, and the body obligation at every point.
-/
import proofs.«418164_j56556129354064_1_alg».proof.Proof.Gen.Kernel.Launch
import proofs.«418164_j56556129354064_1_alg».proof.Proof.Gen.Kernel.Skeleton
import proofs.«418164_j56556129354064_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The one rectangle of each access: the whole staging buffer. -/
abbrev rX2 : Rect S5000x128 := Rect.unit (s := S5000x128) ![0, 0] S5000x128.size inb_S5000x128_S5000x128_0_0
abbrev rB2 : Rect S1x128 := Rect.unit (s := S1x128) ![0, 0] S1x128.size inb_S1x128_S1x128_0_0
abbrev rW2 : Rect S128x128 := Rect.unit (s := S128x128) ![0, 0] S128x128.size inb_S128x128_S128x128_0_0

/-- What the body leaves in the output's staging buffer: the clamped, biased row block times the weights, stored whole. -/
def out2 (x : Vec F S5000x128 .f32) (b : Vec F S1x128 .f32) (w : Vec F S128x128 .f32) : Vec F S5000x128 .f32 :=
  View.canon [⟨rX2, k2_pay1 (View.ld x rX2) (View.ld b rB2) (View.ld w rW2)⟩]

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

/-- An input window's current staging buffer holds its block of the array at every point, whether the point
    fetched it or the block index has not moved since the fetch (the bias row and the weights: fetched once). -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]) t d).trans
    (by unfold Dat.fetched Dat.blockOf iblk2; rw [A_eq2]; try rfl)

/-- The single store covers the output's staging buffer. -/
theorem cover2 (p : Vec F S5000x128 .f32) (y : S5000x128.Idx) :
    ∃ pc ∈ ([⟨rX2, p⟩] : List (View.Piece (Elt F) S5000x128 .f32)), y ∈ pc.1.set :=
  View.cover_of_tiled [⟨rX2, p⟩] S5000x128.size (by rfl) y

set_option maxHeartbeats 1000000 in
/-- The body on whole staging memrefs: from the three inputs at their contents and the output at anything it runs to
    its return, the inputs untouched and the output at `out2` of them. -/
theorem sound_kernel2 (c : Dev nD) (E : Set ℕ) (i : grid2.Coords)
    (a1 : Memref sig .tc .vmem S5000x128 .f32) (h1 : a1.IsWhole) (a2 : Memref sig .tc .vmem S1x128 .f32) (h2 : a2.IsWhole)
    (a3 : Memref sig .tc .vmem S128x128 .f32) (h3 : a3.IsWhole) (a4 : Memref sig .tc .vmem S5000x128 .f32) (h4 : a4.IsWhole)
    (x : Vec F S5000x128 .f32) (b : Vec F S1x128 .f32) (w : Vec F S128x128 .f32) (K : PUnit → sProp 𝕄) :
    iprop(owns (c : Thread nD τ) a1 fullShare x ∗ owns (c : Thread nD τ) a2 fullShare b ∗ owns (c : Thread nD τ) a3 fullShare w
        ∗ (∃ d, owns (c : Thread nD τ) a4 fullShare d)
        ∗ (iprop(owns (c : Thread nD τ) a1 fullShare x ∗ owns (c : Thread nD τ) a2 fullShare b ∗ owns (c : Thread nD τ) a3 fullShare w
            ∗ owns (c : Thread nD τ) a4 fullShare (out2 x b w)) -∗ K ⟨⟩))
      ⊢ wp frame (wpE (defs₀ (F := F)) Variants.none c none) E (cc2__relu_bias_matmul_kernel i a1 h1 a2 h2 a3 h3 a4 h4) K := by
  simp only [cc2__relu_bias_matmul_kernel_eq_skeleton]; unfold cc2__relu_bias_matmul_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

/-- The body obligation of region 2 at every point: the inputs' buffers hold their blocks, so the run above applies;
    the invariant and what the core owes pass through unread. -/
theorem body_obligation2 (c : Dev nD) : BodyObligation (dat2 (F := F) V c) (defs₀ (F := F)) Variants.none () Set.univ := fun t => by
  rw [bigSep_W2, bigSep_W2]
  show iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d)))
    ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ owns (c : Thread nD τ) (st2_3 t) fullShare ((dat2 V c).after 3 t)))
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.Kernel.Hand

end
-- ==== Proof.Kernel.Region3.lean ====
/-
  Region 3 of @main, the last layer's epilogue: at each of the ten grid points the body adds the bias row to a block
  of 5000 rows of the aggregated features, clamps at zero from below and stores the block whole. Stated at a parameter
  `V`, the contents of the unscoped buffers when the region is entered: each window's block at a point, what the body
  leaves in the output's staging buffer as a function of the two input blocks, the pipeline's proof data, and the body
  obligation at every point.
-/
import proofs.«418164_j56556129354064_1_alg».proof.Proof.Gen.Kernel.Launch
import proofs.«418164_j56556129354064_1_alg».proof.Proof.Gen.Kernel.Skeleton
import proofs.«418164_j56556129354064_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The one rectangle of each access: the whole staging buffer. -/
abbrev rX3 : Rect S5000x128 := Rect.unit (s := S5000x128) ![0, 0] S5000x128.size inb_S5000x128_S5000x128_0_0
abbrev rB3 : Rect S1x128 := Rect.unit (s := S1x128) ![0, 0] S1x128.size inb_S1x128_S1x128_0_0

/-- What the body leaves in the output's staging buffer: the clamped, biased row block, stored whole. -/
def out3 (x : Vec F S5000x128 .f32) (b : Vec F S1x128 .f32) : Vec F S5000x128 .f32 :=
  View.canon [⟨rX3, k3_pay1 (View.ld x rX3) (View.ld b rB3)⟩]

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 (iblk3 V c 0 t) (iblk3 V c 1 t) := by dsimp only [dat3]

/-- An input window's current staging buffer holds its block of the array at every point, whether the point
    fetched it or the block index has not moved since the fetch (the bias row: fetched once). -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]) t d).trans
    (by unfold Dat.fetched Dat.blockOf iblk3; rw [A_eq3]; try rfl)

/-- The single store covers the output's staging buffer. -/
theorem cover3 (p : Vec F S5000x128 .f32) (y : S5000x128.Idx) :
    ∃ pc ∈ ([⟨rX3, p⟩] : List (View.Piece (Elt F) S5000x128 .f32)), y ∈ pc.1.set :=
  View.cover_of_tiled [⟨rX3, p⟩] S5000x128.size (by rfl) y

set_option maxHeartbeats 1000000 in
/-- The body on whole staging memrefs: from the two inputs at their contents and the output at anything it runs to
    its return, the inputs untouched and the output at `out3` of them. -/
theorem sound_kernel3 (c : Dev nD) (E : Set ℕ) (i : grid3.Coords)
    (a1 : Memref sig .tc .vmem S5000x128 .f32) (h1 : a1.IsWhole) (a2 : Memref sig .tc .vmem S1x128 .f32) (h2 : a2.IsWhole)
    (a3 : Memref sig .tc .vmem S5000x128 .f32) (h3 : a3.IsWhole)
    (x : Vec F S5000x128 .f32) (b : Vec F S1x128 .f32) (K : PUnit → sProp 𝕄) :
    iprop(owns (c : Thread nD τ) a1 fullShare x ∗ owns (c : Thread nD τ) a2 fullShare b ∗ (∃ d, owns (c : Thread nD τ) a3 fullShare d)
        ∗ (iprop(owns (c : Thread nD τ) a1 fullShare x ∗ owns (c : Thread nD τ) a2 fullShare b
            ∗ owns (c : Thread nD τ) a3 fullShare (out3 x b)) -∗ K ⟨⟩))
      ⊢ wp frame (wpE (defs₀ (F := F)) Variants.none c none) E (cc3__relu_bias_kernel i a1 h1 a2 h2 a3 h3) K := by
  simp only [cc3__relu_bias_kernel_eq_skeleton]; unfold cc3__relu_bias_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-- The body obligation of region 3 at every point: the inputs' buffers hold their blocks, so the run above applies;
    the invariant and what the core owes pass through unread. -/
theorem body_obligation3 (c : Dev nD) : BodyObligation (dat3 (F := F) V c) (defs₀ (F := F)) Variants.none () Set.univ := fun t => by
  rw [bigSep_W3, bigSep_W3]
  show iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d)))
    ⊢ wp frame (wpE (defs₀ (F := F)) Variants.none c none) Set.univ (bodyAt3 t) (fun _ =>
      iprop((dat3 V c).Φ t.succ ∗ (dat3 V c).owesAt () t.succ
        ∗ owns (c : Thread nD τ) (st3_0 t) fullShare ((dat3 V c).after 0 t)
        ∗ owns (c : Thread nD τ) (st3_1 t) fullShare ((dat3 V c).after 1 t)
        ∗ owns (c : Thread nD τ) (st3_2 t) fullShare ((dat3 V c).after 2 t)))
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Hand

end
-- ==== Proof.Kernel.Region4.lean ====
/-
  Region 4 of @main, the mean pool over graphs. The grid has ten points run in order; two 64 x 128 scratch buffers are
  carried from point to point, one accumulating per graph the sum of the node rows, the other the number of nodes
  (held in every column). At a point the body forms, from the block of 5000 graph ids, the 5000 x 64 table that is one
  where the row's id is the column and zero elsewhere, and adds to the first accumulator that table transposed times
  the block of 5000 node rows, and to the second the table transposed times a column of ones, spread over the columns.
  The first point clears both accumulators first. The last point stores sums / max(counts, 1) into the output's staging
  buffer, which the pipeline writes back there and nowhere else: at the other nine points the window is idle.
  Stated at a parameter `V`, the contents of the unscoped buffers when the region is entered.
-/
import proofs.«418164_j56556129354064_1_alg».proof.Proof.Gen.Kernel.Launch
import proofs.«418164_j56556129354064_1_alg».proof.Proof.Gen.Kernel.Skeleton
import proofs.«418164_j56556129354064_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The accumulation, as pure functions of the blocks -/

/-- The sums accumulator after point `n`, from the blocks the points up to `n` were handed: the first point starts
    from the cleared buffer, each later one from what the point before left. -/
def sAcc (hb : ℕ → Vec F S5000x128 .f32) (bb : ℕ → Vec F S5000x1 .i32) : ℕ → Vec F S64x128 .f32
  | 0 => k4_pay4 (bb 0) (hb 0) (k4_pay1 (F := F))
  | n + 1 => k4_pay4 (bb (n + 1)) (hb (n + 1)) (sAcc hb bb n)

/-- The counts accumulator after point `n`. -/
def cAcc (bb : ℕ → Vec F S5000x1 .i32) : ℕ → Vec F S64x128 .f32
  | 0 => k4_pay5 (bb 0) (k4_pay2 (F := F))
  | n + 1 => k4_pay5 (bb (n + 1)) (cAcc bb n)

/-- What the last point stores: the sums over the counts clamped at one from below. -/
def poolOut (hb : ℕ → Vec F S5000x128 .f32) (bb : ℕ → Vec F S5000x1 .i32) : Vec F S64x128 .f32 :=
  k4_pay6 (sAcc hb bb 9) (cAcc bb 9)

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem N4_pos : 0 < cfg4.N := by rw [show cfg4.N = 10 from N_4]; decide

/-- The node rows' block and the graph ids' block of the point numbered `n` (read modulo the ten points, so that the
    accumulation above is stated over total functions). -/
def hblk (c : Dev nD) (n : ℕ) : Vec F S5000x128 .f32 := iblk4 V c 0 ⟨n % cfg4.N, Nat.mod_lt _ N4_pos⟩
def bblk (c : Dev nD) (n : ℕ) : Vec F S5000x1 .i32 := iblk4 V c 1 ⟨n % cfg4.N, Nat.mod_lt _ N4_pos⟩

/-- The two scratch buffers, whole. -/
abbrev scS : Memref sig .tc .vmem S64x128 .f32 := Memref.whole cc4_scratch0
abbrev scC : Memref sig .tc .vmem S64x128 .f32 := Memref.whole cc4_scratch1

/-- The region's invariant before the point numbered `n`: before the first point every scoped buffer that is no
    staging buffer of this call at anything; afterwards the two accumulators at what the point before left, the other
    such buffers at anything; the generator register at some state throughout. -/
def PhiS (c : Dev nD) : ℕ → sProp 𝕄
  | 0 => Pipeline.ΦA spec4 c
  | n + 1 => iprop(owns (c : Thread nD τ) scS fullShare (sAcc (hblk V c) (bblk V c) n)
      ∗ owns (c : Thread nD τ) scC fullShare (cAcc (bblk V c) n)
      ∗ Pipeline.scopedRestBut (Ix := Unit) (Name := ℕ) (U := UR sig nD τ) (Lvl := ℕ) (Val := Elt F) spec4 c [cc4_scratch0, cc4_scratch1]
      ∗ ∃ r, prngReg c r)

/-- The proof data of pipeline 4 on core `c`. The output's contents are named only at the last point, the one point
    that is not idle for it. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => poolOut (hblk V c) (bblk V c)
  Φ t := PhiS V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = poolOut (hblk V c) (bblk V c) := by dsimp only [dat4]
theorem Phi4 (c : Dev nD) (t : Fin (cfg4.N + 1)) : (dat4 V c).Φ t = PhiS V c t.val := by dsimp only [dat4]

/-! ## The two conditions over the grid; where the output is idle -/

/-- The first conditional's test, from the grid coordinates. -/
abbrev cond4_1 (i : grid4.Coords) : Prop :=
  (Scalar.cmpi .ne (Scalar.extui (Scalar.cmpi .eq (BitVec.ofNat 32 (i 0).val) 0#32)) 0#32) = 1#1
/-- The second conditional's. -/
abbrev cond4_2 (i : grid4.Coords) : Prop := k4_cond2 i = 1#1

theorem hcond4_1 : ∀ t : Fin cfg4.N, cond4_1 (grid4.coords t) ↔ t.val = 0 :=
  (by decide +kernel : ∀ t : Fin grid4.N, cond4_1 (grid4.coords t) ↔ t.val = 0)
theorem hcond4_2 : ∀ t : Fin cfg4.N, cond4_2 (grid4.coords t) ↔ t.val = 9 :=
  (by decide +kernel : ∀ t : Fin grid4.N, cond4_2 (grid4.coords t) ↔ t.val = 9)

theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, ¬cond4_2 (grid4.coords t) → cfg4.idle 2 (grid4.coords t) = true := by decide +kernel
theorem noFlush4_2 : ∀ t : Fin cfg4.N, ¬cond4_2 (grid4.coords t) → (cfg4.win 2).flush t = false := by decide +kernel
theorem liveAt4_2 : ∀ t : Fin cfg4.N, cond4_2 (grid4.coords t) → cfg4.idle 2 (grid4.coords t) = false := by decide +kernel

/-! ## The invariant against the class's -/

theorem scratch_mem4 : ([cc4_scratch0, cc4_scratch1] : List (Ref sig .tc)).Forall fun b =>
    b.isScoped = true ∧ ∀ (w : Fin 3) (s : Fin (spec4 w).nbuf), ((spec4 w).stage s).view.ref ≠ b := by decide

/-- The class's invariant with the two accumulators taken out of the scoped rest as memrefs at some contents. -/
theorem PhiA4_eq (c : Dev nD) :
    (Pipeline.ΦA spec4 c : sProp 𝕄)
      = iprop((((∃ d, owns (c : Thread nD τ) (scS : Memref sig .tc .vmem S64x128 .f32) fullShare d)
          ∗ (∃ d, owns (c : Thread nD τ) (scC : Memref sig .tc .vmem S64x128 .f32) fullShare d))
          ∗ Pipeline.scopedRestBut (Ix := Unit) (Name := ℕ) (U := UR sig nD τ) (Lvl := ℕ) (Val := Elt F) spec4 c [cc4_scratch0, cc4_scratch1])
          ∗ ∃ r, prngReg c r) := by
  unfold Pipeline.ΦA
  rw [Pipeline.scopedRest_split_of_list spec4 c [cc4_scratch0, cc4_scratch1] scratch_mem4 (by decide)]
  simp only [scS, scC, owns_whole, bigSepL_cons_cons, bigSepL_singleton]
  try rfl

/-- The invariant at the region's two ends against the class's: entered from every scoped non-staging buffer at
    anything; left with the same, the accumulators' contents forgotten. -/
theorem hin4 (c : Dev nD) : Pipeline.ΦA spec4 c ⊢ (dat4 V c).Φ 0 := by
  rw [Phi4]
  exact Idealize.SL.BI.Entails.refl _
theorem hout4 (c : Dev nD) : (dat4 V c).Φ (Fin.last cfg4.N) ⊢ Pipeline.ΦA spec4 c := by
  rw [Phi4, Fin.val_last, show cfg4.N = 9 + 1 from N_4, PhiA4_eq]
  unfold PhiS
  iintro ⟨HS, HC, HR, Hg⟩
  isplitr [Hg]
  · isplitr [HR]
    · isplitl [HS]
      · iexists _; iexact HS
      · iexists _; iexact HC
    · iexact HR
  · iexact Hg

/-! ## The body on whole memrefs, case by case -/

/-- The offsets of every access of the body: the origin. -/
theorem hz4 : (![0, 0] : Fin 2 → ℕ) = fun _ => 0 := funext fun a => by fin_cases a <;> rfl

/-- The one rectangle of every access of an accumulator or of the output: the whole buffer. -/
abbrev rA4 : Rect S64x128 := Rect.unit (s := S64x128) ![0, 0] S64x128.size inb_S64x128_S64x128_0_0

theorem mem_rA4 (y : S64x128.Idx) : y ∈ rA4.set :=
  View.mem_set_unit_zero (S := S64x128) hz4 inb_S64x128_S64x128_0_0 y

/-- A store of a whole 64 x 128 buffer, last, leaves its payload, whatever the buffer held and whatever was stored
    before. -/
theorem read_store4 {κ : Kind} {sp : Space} (v : View sig κ sp S64x128 .f32) (f : v.ty.Contents (Elt F))
    (p : Vec F S64x128 .f32) (L : List (View.Piece (Elt F) S64x128 .f32)) :
    v.read (Elt F) (v.writes (Elt F) f ((⟨rA4, p⟩ : View.Piece (Elt F) S64x128 .f32) :: L)) = p := by
  have hc : ∀ y : S64x128.Idx, ∃ pc ∈ ((⟨rA4, p⟩ : View.Piece (Elt F) S64x128 .f32) :: L), y ∈ pc.1.set :=
    fun y => ⟨(⟨rA4, p⟩ : View.Piece (Elt F) S64x128 .f32), List.mem_cons_self, mem_rA4 y⟩
  rw [View.read_writes_eq_canon v f _ hc]
  exact View.canon_cons_unit_zero (S := S64x128) hz4 inb_S64x128_S64x128_0_0 p L

set_option maxHeartbeats 1000000 in
/-- At the first point: both accumulators cleared, then updated from the cleared contents read back; the output untouched. -/
theorem sound_kernel4_first (c : Dev nD) (E : Set ℕ) (i : grid4.Coords) (hc1 : cond4_1 i) (hc2 : ¬cond4_2 i)
    (a1 : Memref sig .tc .vmem S5000x128 .f32) (h1 : a1.IsWhole) (a2 : Memref sig .tc .vmem S5000x1 .i32) (h2 : a2.IsWhole)
    (a3 : Memref sig .tc .vmem S64x128 .f32) (h3 : a3.IsWhole) (a4 : Memref sig .tc .vmem S64x128 .f32) (h4 : a4.IsWhole)
    (a5 : Memref sig .tc .vmem S64x128 .f32) (h5 : a5.IsWhole)
    (x : Vec F S5000x128 .f32) (b : Vec F S5000x1 .i32) (o s n : Vec F S64x128 .f32) (K : PUnit → sProp 𝕄) :
    iprop(owns (c : Thread nD τ) a1 fullShare x ∗ owns (c : Thread nD τ) a2 fullShare b ∗ owns (c : Thread nD τ) a3 fullShare o
        ∗ (∃ d, owns (c : Thread nD τ) a4 fullShare d) ∗ (∃ d, owns (c : Thread nD τ) a5 fullShare d)
        ∗ (iprop(owns (c : Thread nD τ) a1 fullShare x ∗ owns (c : Thread nD τ) a2 fullShare b ∗ owns (c : Thread nD τ) a3 fullShare o
            ∗ owns (c : Thread nD τ) a4 fullShare (k4_pay4 b x (k4_pay1 (F := F))) ∗ owns (c : Thread nD τ) a5 fullShare (k4_pay5 b (k4_pay2 (F := F)))) -∗ K ⟨⟩))
      ⊢ wp frame (wpE (defs₀ (F := F)) Variants.none c none) E (cc4__pool_kernel i a1 h1 a2 h2 a3 h3 a4 h4 a5 h5) K := by
  simp only [cc4__pool_kernel_eq_skeleton]; unfold cc4__pool_kernel_skel
  dsimp only
  rw [dif_pos hc1, dif_neg hc2]
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_store4]
    sl_unfold_words
    simp only [View.readAt_eq_ld, View.readCov_unit_zero (S := S64x128) _ hz4, View.ld_unit_zero (S := S64x128) hz4,
      View.ld_unit_zero (S := S5000x128) hz4, View.ld_unit_zero (S := S5000x1) hz4]
  iexists _; isplitr
  swap; · iexact H5
  ipureintro
  rw [read_store4]
  sl_unfold_words
  simp only [View.readAt_eq_ld, View.readCov_unit_zero (S := S64x128) _ hz4, View.ld_unit_zero (S := S64x128) hz4,
      View.ld_unit_zero (S := S5000x128) hz4, View.ld_unit_zero (S := S5000x1) hz4]

set_option maxHeartbeats 1000000 in
/-- At a point that is neither first nor last: both accumulators updated from what they held, the output untouched. -/
theorem sound_kernel4_mid (c : Dev nD) (E : Set ℕ) (i : grid4.Coords) (hc1 : ¬cond4_1 i) (hc2 : ¬cond4_2 i)
    (a1 : Memref sig .tc .vmem S5000x128 .f32) (h1 : a1.IsWhole) (a2 : Memref sig .tc .vmem S5000x1 .i32) (h2 : a2.IsWhole)
    (a3 : Memref sig .tc .vmem S64x128 .f32) (h3 : a3.IsWhole) (a4 : Memref sig .tc .vmem S64x128 .f32) (h4 : a4.IsWhole)
    (a5 : Memref sig .tc .vmem S64x128 .f32) (h5 : a5.IsWhole)
    (x : Vec F S5000x128 .f32) (b : Vec F S5000x1 .i32) (o s n : Vec F S64x128 .f32) (K : PUnit → sProp 𝕄) :
    iprop(owns (c : Thread nD τ) a1 fullShare x ∗ owns (c : Thread nD τ) a2 fullShare b ∗ owns (c : Thread nD τ) a3 fullShare o
        ∗ owns (c : Thread nD τ) a4 fullShare s ∗ owns (c : Thread nD τ) a5 fullShare n
        ∗ (iprop(owns (c : Thread nD τ) a1 fullShare x ∗ owns (c : Thread nD τ) a2 fullShare b ∗ owns (c : Thread nD τ) a3 fullShare o
            ∗ owns (c : Thread nD τ) a4 fullShare (k4_pay4 b x s) ∗ owns (c : Thread nD τ) a5 fullShare (k4_pay5 b n)) -∗ K ⟨⟩))
      ⊢ wp frame (wpE (defs₀ (F := F)) Variants.none c none) E (cc4__pool_kernel i a1 h1 a2 h2 a3 h3 a4 h4 a5 h5) K := by
  simp only [cc4__pool_kernel_eq_skeleton]; unfold cc4__pool_kernel_skel
  dsimp only
  rw [dif_neg hc1, dif_neg hc2]
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [read_store4]
    simp only [View.readAt_eq_ld, View.readCov_unit_zero (S := S64x128) _ hz4, View.ld_unit_zero (S := S64x128) hz4,
      View.ld_unit_zero (S := S5000x128) hz4, View.ld_unit_zero (S := S5000x1) hz4]
  iexists _; isplitr
  swap; · iexact H5
  ipureintro
  sl_unfold_words
  rw [read_store4]
  simp only [View.readAt_eq_ld, View.readCov_unit_zero (S := S64x128) _ hz4, View.ld_unit_zero (S := S64x128) hz4,
      View.ld_unit_zero (S := S5000x128) hz4, View.ld_unit_zero (S := S5000x1) hz4]

set_option maxHeartbeats 1000000 in
/-- At the last point: both accumulators updated, then read back and their quotient stored into the output. -/
theorem sound_kernel4_last (c : Dev nD) (E : Set ℕ) (i : grid4.Coords) (hc1 : ¬cond4_1 i) (hc2 : cond4_2 i)
    (a1 : Memref sig .tc .vmem S5000x128 .f32) (h1 : a1.IsWhole) (a2 : Memref sig .tc .vmem S5000x1 .i32) (h2 : a2.IsWhole)
    (a3 : Memref sig .tc .vmem S64x128 .f32) (h3 : a3.IsWhole) (a4 : Memref sig .tc .vmem S64x128 .f32) (h4 : a4.IsWhole)
    (a5 : Memref sig .tc .vmem S64x128 .f32) (h5 : a5.IsWhole)
    (x : Vec F S5000x128 .f32) (b : Vec F S5000x1 .i32) (o s n : Vec F S64x128 .f32) (K : PUnit → sProp 𝕄) :
    iprop(owns (c : Thread nD τ) a1 fullShare x ∗ owns (c : Thread nD τ) a2 fullShare b ∗ (∃ d, owns (c : Thread nD τ) a3 fullShare d)
        ∗ owns (c : Thread nD τ) a4 fullShare s ∗ owns (c : Thread nD τ) a5 fullShare n
        ∗ (iprop(owns (c : Thread nD τ) a1 fullShare x ∗ owns (c : Thread nD τ) a2 fullShare b ∗ owns (c : Thread nD τ) a3 fullShare (k4_pay6 (k4_pay4 b x s) (k4_pay5 b n))
            ∗ owns (c : Thread nD τ) a4 fullShare (k4_pay4 b x s) ∗ owns (c : Thread nD τ) a5 fullShare (k4_pay5 b n)) -∗ K ⟨⟩))
      ⊢ wp frame (wpE (defs₀ (F := F)) Variants.none c none) E (cc4__pool_kernel i a1 h1 a2 h2 a3 h3 a4 h4 a5 h5) K := by
  simp only [cc4__pool_kernel_eq_skeleton]; unfold cc4__pool_kernel_skel
  dsimp only
  rw [dif_neg hc1, dif_pos hc2]
  unfold owns
  iintro ⟨⟨%f1, %hf1, H1⟩, ⟨%f2, %hf2, H2⟩, ⟨%d3, %f3, -, H3⟩, ⟨%f4, %hf4, H4⟩, ⟨%f5, %hf5, H5⟩, Hk⟩
  subst hf1; subst hf2; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_store4]
    sl_unfold_words
    simp only [View.readAt_eq_ld, View.readCov_unit_zero (S := S64x128) _ hz4, View.ld_unit_zero (S := S64x128) hz4,
      View.ld_unit_zero (S := S5000x128) hz4, View.ld_unit_zero (S := S5000x1) hz4]
  isplitl [H4]
  · iexists _; isplitr
    swap; · iexact H4
    ipureintro
    sl_unfold_words
    rw [read_store4]
    simp only [View.readAt_eq_ld, View.readCov_unit_zero (S := S64x128) _ hz4, View.ld_unit_zero (S := S64x128) hz4,
      View.ld_unit_zero (S := S5000x128) hz4, View.ld_unit_zero (S := S5000x1) hz4]
  iexists _; isplitr
  swap; · iexact H5
  ipureintro
  sl_unfold_words
  rw [read_store4]
  simp only [View.readAt_eq_ld, View.readCov_unit_zero (S := S64x128) _ hz4, View.ld_unit_zero (S := S64x128) hz4,
      View.ld_unit_zero (S := S5000x128) hz4, View.ld_unit_zero (S := S5000x1) hz4]

/-! ## The accumulation and the invariant, point by point -/

theorem sAcc_zero (hb : ℕ → Vec F S5000x128 .f32) (bb : ℕ → Vec F S5000x1 .i32) (n : ℕ) (hz : n = 0) :
    sAcc hb bb n = k4_pay4 (bb n) (hb n) (k4_pay1 (F := F)) := by subst hz; rfl
theorem sAcc_pos (hb : ℕ → Vec F S5000x128 .f32) (bb : ℕ → Vec F S5000x1 .i32) (n : ℕ) (hz : n ≠ 0) :
    sAcc hb bb n = k4_pay4 (bb n) (hb n) (sAcc hb bb (n - 1)) := by
  cases n with
  | zero => exact absurd rfl hz
  | succ n => rfl
theorem cAcc_zero (bb : ℕ → Vec F S5000x1 .i32) (n : ℕ) (hz : n = 0) :
    cAcc bb n = k4_pay5 (bb n) (k4_pay2 (F := F)) := by subst hz; rfl
theorem cAcc_pos (bb : ℕ → Vec F S5000x1 .i32) (n : ℕ) (hz : n ≠ 0) :
    cAcc bb n = k4_pay5 (bb n) (cAcc bb (n - 1)) := by
  cases n with
  | zero => exact absurd rfl hz
  | succ n => rfl

theorem PhiS_zero (c : Dev nD) (n : ℕ) (hz : n = 0) : PhiS V c n = Pipeline.ΦA spec4 c := by subst hz; rfl
theorem PhiS_succ (c : Dev nD) (n : ℕ) :
    PhiS V c (n + 1) = iprop(owns (c : Thread nD τ) scS fullShare (sAcc (hblk V c) (bblk V c) n)
      ∗ owns (c : Thread nD τ) scC fullShare (cAcc (bblk V c) n)
      ∗ Pipeline.scopedRestBut (Ix := Unit) (Name := ℕ) (U := UR sig nD τ) (Lvl := ℕ) (Val := Elt F) spec4 c [cc4_scratch0, cc4_scratch1]
      ∗ ∃ r, prngReg c r) := rfl
theorem PhiS_pos (c : Dev nD) (n : ℕ) (hz : n ≠ 0) :
    PhiS V c n = iprop(owns (c : Thread nD τ) scS fullShare (sAcc (hblk V c) (bblk V c) (n - 1))
      ∗ owns (c : Thread nD τ) scC fullShare (cAcc (bblk V c) (n - 1))
      ∗ Pipeline.scopedRestBut (Ix := Unit) (Name := ℕ) (U := UR sig nD τ) (Lvl := ℕ) (Val := Elt F) spec4 c [cc4_scratch0, cc4_scratch1]
      ∗ ∃ r, prngReg c r) := by
  cases n with
  | zero => exact absurd rfl hz
  | succ n => rfl

/-- The blocks of the point numbered by a grid point are that point's. -/
theorem hblk_eq (c : Dev nD) (t : Fin cfg4.N) : hblk V c t.val = iblk4 V c 0 t := by
  have e : (⟨t.val % cfg4.N, Nat.mod_lt _ N4_pos⟩ : Fin cfg4.N) = t := Fin.ext (Nat.mod_eq_of_lt t.isLt)
  unfold hblk; rw [e]
theorem bblk_eq (c : Dev nD) (t : Fin cfg4.N) : bblk V c t.val = iblk4 V c 1 t := by
  have e : (⟨t.val % cfg4.N, Nat.mod_lt _ N4_pos⟩ : Fin cfg4.N) = t := Fin.ext (Nat.mod_eq_of_lt t.isLt)
  unfold bblk; rw [e]

/-- An input window's current staging buffer holds its block of the array at every point (both are fetched at every
    point). -/
theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]) t d).trans
    (by unfold Dat.fetched Dat.blockOf iblk4; rw [A_eq4]; try rfl)

/-! ## The body obligation -/

set_option maxHeartbeats 4000000 in
/-- The body at any point: the inputs' buffers hold their blocks; the point is the first, the last, or neither, which
    decides the two conditionals; the invariant hands the body the accumulators at what the point before left (at
    anything at the first point) and takes them back at this point's contents; where the output is idle its buffer
    goes back as found, at the last point it holds the pooled means. -/
theorem sound_body4 (c : Dev nD) (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d)))
    ⊢ wp frame (wpE (defs₀ (F := F)) Variants.none c none) Set.univ (bodyAt4 t) (fun _ =>
      iprop((dat4 V c).Φ t.succ ∗ (dat4 V c).owesAt () t.succ
        ∗ (dat4 V c).leavesExact 0 t ∗ (dat4 V c).leavesExact 1 t ∗ (dat4 V c).leavesExact 2 t)) := by
  simp only [before4_0, before4_1]
  rw [show (dat4 V c).owesAt () t.succ = (dat4 V c).owesAt () t.castSucc from rfl]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [Phi4, Phi4, Fin.coe_castSucc, Fin.val_succ, PhiS_succ]
  have hN : t.val < 10 := lt_of_lt_of_eq t.isLt N_4
  by_cases h0 : t.val = 0
  · have hc1 : cond4_1 (grid4.coords t) := (hcond4_1 t).mpr h0
    have hc2 : ¬cond4_2 (grid4.coords t) := fun h => by have := (hcond4_2 t).mp h; omega
    rw [Dat.leavesExact_idle (dat4 V c) 2 t (idleAt4_2 t hc2) (noFlush4_2 t hc2)]
    rw [PhiS_zero V c _ h0, PhiA4_eq, sAcc_zero _ _ _ h0, cAcc_zero _ _ h0, hblk_eq, bblk_eq]
    iintro ⟨⟨⟨⟨HS, HC⟩, HR⟩, Hg⟩, Ho, ⟨%d0, H0⟩, ⟨%d1, H1⟩, ⟨%d2, H2⟩⟩
    iapply (sound_kernel4_first c Set.univ _ hc1 hc2 _ _ _ _ _ _ _ _ _ _ (iblk4 V c 0 t) (iblk4 V c 1 t) _ (k4_pay1 (F := F)) (k4_pay1 (F := F)) _)
    isplitl [H0]; · iexact H0
    isplitl [H1]; · iexact H1
    isplitl [H2]; · iexact H2
    isplitl [HS]; · iexact HS
    isplitl [HC]; · iexact HC
    iintro ⟨H0, H1, H2, HS, HC⟩
    isplitl [HS HC HR Hg]
    · isplitl [HS]; · iexact HS
      isplitl [HC]; · iexact HC
      isplitl [HR]; · iexact HR
      iexact Hg
    isplitl [Ho]; · iexact Ho
    isplitl [H0]; · iexact H0
    isplitl [H1]; · iexact H1
    iexists _; iexact H2
  · have hc1 : ¬cond4_1 (grid4.coords t) := fun h => h0 ((hcond4_1 t).mp h)
    rw [PhiS_pos V c _ h0, sAcc_pos _ _ _ h0, cAcc_pos _ _ h0, hblk_eq, bblk_eq]
    by_cases h9 : t.val = 9
    · have hc2 : cond4_2 (grid4.coords t) := (hcond4_2 t).mpr h9
      rw [show (dat4 V c).leavesExact 2 t = owns (c : Thread nD τ) (st4_2 t) fullShare ((dat4 V c).after 2 t) from by
        unfold Dat.leavesExact; rw [liveAt4_2 t hc2], after4_2]
      have hp : poolOut (hblk V c) (bblk V c)
          = k4_pay6 (k4_pay4 (iblk4 V c 1 t) (iblk4 V c 0 t) (sAcc (hblk V c) (bblk V c) (t.val - 1)))
              (k4_pay5 (iblk4 V c 1 t) (cAcc (bblk V c) (t.val - 1))) := by
        unfold poolOut; rw [← h9, sAcc_pos _ _ _ h0, cAcc_pos _ _ h0, hblk_eq, bblk_eq]
      rw [hp]
      iintro ⟨⟨HS, HC, HR, Hg⟩, Ho, ⟨%d0, H0⟩, ⟨%d1, H1⟩, ⟨%d2, H2⟩⟩
      iapply (sound_kernel4_last c Set.univ _ hc1 hc2 _ _ _ _ _ _ _ _ _ _ (iblk4 V c 0 t) (iblk4 V c 1 t) (k4_pay1 (F := F)) _ _ _)
      isplitl [H0]; · iexact H0
      isplitl [H1]; · iexact H1
      isplitl [H2]; · iexists _; iexact H2
      isplitl [HS]; · iexact HS
      isplitl [HC]; · iexact HC
      iintro ⟨H0, H1, H2, HS, HC⟩
      isplitl [HS HC HR Hg]
      · isplitl [HS]; · iexact HS
        isplitl [HC]; · iexact HC
        isplitl [HR]; · iexact HR
        iexact Hg
      isplitl [Ho]; · iexact Ho
      isplitl [H0]; · iexact H0
      isplitl [H1]; · iexact H1
      iexact H2
    · have hc2 : ¬cond4_2 (grid4.coords t) := fun h => h9 ((hcond4_2 t).mp h)
      rw [Dat.leavesExact_idle (dat4 V c) 2 t (idleAt4_2 t hc2) (noFlush4_2 t hc2)]
      iintro ⟨⟨HS, HC, HR, Hg⟩, Ho, ⟨%d0, H0⟩, ⟨%d1, H1⟩, ⟨%d2, H2⟩⟩
      iapply (sound_kernel4_mid c Set.univ _ hc1 hc2 _ _ _ _ _ _ _ _ _ _ (iblk4 V c 0 t) (iblk4 V c 1 t) _ _ _ _)
      isplitl [H0]; · iexact H0
      isplitl [H1]; · iexact H1
      isplitl [H2]; · iexact H2
      isplitl [HS]; · iexact HS
      isplitl [HC]; · iexact HC
      iintro ⟨H0, H1, H2, HS, HC⟩
      isplitl [HS HC HR Hg]
      · isplitl [HS]; · iexact HS
        isplitl [HC]; · iexact HC
        isplitl [HR]; · iexact HR
        iexact Hg
      isplitl [Ho]; · iexact Ho
      isplitl [H0]; · iexact H0
      isplitl [H1]; · iexact H1
      iexists _; iexact H2

/-- The body obligation of region 4 at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.Kernel.Fold.lean ====
/-
  The contents of core c's unscoped buffers at each boundary between two items of @main, as a fold from the launch
  memory: a stretch of host operations is applied to what the item before left; a region leaves its output's array at
  what its ten write-backs fold to and every other buffer as it found it. Each region's proof data is taken at the
  contents the region is entered from. The unknowns of the program's conditional frame (what each region leaves in
  the one buffer it may change) are instantiated with this fold's values, and the frame's own valuations are then
  this fold.
-/
import proofs.«418164_j56556129354064_1_alg».proof.Proof.Gen.Kernel.Launch
import proofs.«418164_j56556129354064_1_alg».proof.Proof.Gen.Kernel.Skeleton
import proofs.«418164_j56556129354064_1_alg».proof.Proof.Gen.Kernel.Points
import proofs.«418164_j56556129354064_1_alg».proof.Proof.Gen.Kernel.Regions
import proofs.«418164_j56556129354064_1_alg».proof.Proof.Kernel.Region0
import proofs.«418164_j56556129354064_1_alg».proof.Proof.Kernel.Region1
import proofs.«418164_j56556129354064_1_alg».proof.Proof.Kernel.Region2
import proofs.«418164_j56556129354064_1_alg».proof.Proof.Kernel.Region3
import proofs.«418164_j56556129354064_1_alg».proof.Proof.Kernel.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation of core c's buffers read at the TensorCore's own references: the form a region's proof data takes. -/
abbrev tcOf (W : Dev nD → Valuation τ sig (Elt F)) : (c : Dev nD) → (b : Ref sig .tc) → Buf (Elt F) ((c : Thread nD τ).loc b) :=
  fun c b => W c b

/-- Entering region 0: the launch memory through the three first stretches of host operations. -/
abbrev W3 : Dev nD → Valuation τ sig (Elt F) := fun c => Gen.V3 m c
/-- What region 0 leaves in its output's array. -/
def res0 (c : Dev nD) : Buf (Elt F) ((c : Thread nD τ).loc main_v34) := (dat0 (tcOf (W3 m)) c).arrAt 2 cfg0.N
/-- Leaving region 0. -/
def W4 (c : Dev nD) : Valuation τ sig (Elt F) := Function.update (W3 m c) main_v34 (res0 m c)
/-- Entering region 1. -/
def W5 (c : Dev nD) : Valuation τ sig (Elt F) := StableHlo.after hostOps1 (W4 m c)
def res1 (c : Dev nD) : Buf (Elt F) ((c : Thread nD τ).loc main_v47) := (dat1 (tcOf (W5 m)) c).arrAt 3 cfg1.N
def W6 (c : Dev nD) : Valuation τ sig (Elt F) := Function.update (W5 m c) main_v47 (res1 m c)
/-- Entering region 2. -/
def W7 (c : Dev nD) : Valuation τ sig (Elt F) := StableHlo.after hostOps2 (W6 m c)
def res2 (c : Dev nD) : Buf (Elt F) ((c : Thread nD τ).loc main_v60) := (dat2 (tcOf (W7 m)) c).arrAt 3 cfg2.N
def W8 (c : Dev nD) : Valuation τ sig (Elt F) := Function.update (W7 m c) main_v60 (res2 m c)
/-- Entering region 3. -/
def W9 (c : Dev nD) : Valuation τ sig (Elt F) := StableHlo.after hostOps3 (W8 m c)
def res3 (c : Dev nD) : Buf (Elt F) ((c : Thread nD τ).loc main_v73) := (dat3 (tcOf (W9 m)) c).arrAt 2 cfg3.N
def W10 (c : Dev nD) : Valuation τ sig (Elt F) := Function.update (W9 m c) main_v73 (res3 m c)
/-- Entering region 4. -/
def W11 (c : Dev nD) : Valuation τ sig (Elt F) := StableHlo.after hostOps4 (W10 m c)
def res4 (c : Dev nD) : Buf (Elt F) ((c : Thread nD τ).loc main_v75) := (dat4 (tcOf (W11 m)) c).arrAt 2 cfg4.N
/-- At @main's return. -/
def W12 (c : Dev nD) : Valuation τ sig (Elt F) := Function.update (W11 m c) main_v75 (res4 m c)

/-- What the regions leave, for the program's conditional frame: after each region, this fold's contents. -/
def outs : Gen.Outs (F := F) := fun J r c =>
  match J with
  | 4 => W4 m c r
  | 6 => W6 m c r
  | 8 => W8 m c r
  | 10 => W10 m c r
  | 12 => W12 m c r
  | _ => W3 m c r

/-! ## The conditional frame's valuations are this fold -/

theorem V4_eq (c : Dev nD) : Gen.V4 m (outs m) c = W4 m c := by
  show Function.update (Gen.V3 m c) main_v34 (W4 m c main_v34) = W4 m c
  unfold W4; rw [Function.update_self]
theorem V5_eq (c : Dev nD) : Gen.V5 m (outs m) c = W5 m c := by
  show StableHlo.after hostOps1 (Gen.V4 m (outs m) c) = W5 m c
  rw [V4_eq]; rfl
theorem V6_eq (c : Dev nD) : Gen.V6 m (outs m) c = W6 m c := by
  show Function.update (Gen.V5 m (outs m) c) main_v47 (W6 m c main_v47) = W6 m c
  rw [V5_eq]; unfold W6; rw [Function.update_self]
theorem V7_eq (c : Dev nD) : Gen.V7 m (outs m) c = W7 m c := by
  show StableHlo.after hostOps2 (Gen.V6 m (outs m) c) = W7 m c
  rw [V6_eq]; rfl
theorem V8_eq (c : Dev nD) : Gen.V8 m (outs m) c = W8 m c := by
  show Function.update (Gen.V7 m (outs m) c) main_v60 (W8 m c main_v60) = W8 m c
  rw [V7_eq]; unfold W8; rw [Function.update_self]
theorem V9_eq (c : Dev nD) : Gen.V9 m (outs m) c = W9 m c := by
  show StableHlo.after hostOps3 (Gen.V8 m (outs m) c) = W9 m c
  rw [V8_eq]; rfl
theorem V10_eq (c : Dev nD) : Gen.V10 m (outs m) c = W10 m c := by
  show Function.update (Gen.V9 m (outs m) c) main_v73 (W10 m c main_v73) = W10 m c
  rw [V9_eq]; unfold W10; rw [Function.update_self]
theorem V11_eq (c : Dev nD) : Gen.V11 m (outs m) c = W11 m c := by
  show StableHlo.after hostOps4 (Gen.V10 m (outs m) c) = W11 m c
  rw [V10_eq]; rfl
theorem V12_eq (c : Dev nD) : Gen.V12 m (outs m) c = W12 m c := by
  show Function.update (Gen.V11 m (outs m) c) main_v75 (W12 m c main_v75) = W12 m c
  rw [V11_eq]; unfold W12; rw [Function.update_self]

/-! ## Every pipeline's proof data, each at its region's entry contents -/

/-- A literal match on the pipeline's index, so that the launch's pinned configuration at a numeral reduces to the
    printed one. -/
def pdats : (p : Fin 5) → (c : Dev nD) → Dat τ (Elt F) Unit ℕ (UR sig nD τ) ℕ (Pipeline.pin (pcfgs (F := F)) Gen.adm p) c
  | ⟨0, _⟩ => fun c => dat0 (tcOf (W3 m)) c
  | ⟨1, _⟩ => fun c => dat1 (tcOf (W5 m)) c
  | ⟨2, _⟩ => fun c => dat2 (tcOf (W7 m)) c
  | ⟨3, _⟩ => fun c => dat3 (tcOf (W9 m)) c
  | ⟨4, _⟩ => fun c => dat4 (tcOf (W11 m)) c

/-- What rides beside the buffers through every item: the generator register at some state and the core owing nothing. -/
abbrev Rr (c : Dev nD) : sProp 𝕄 := iprop((∃ r, prngReg c r) ∗ ∃ W, owes (c : Thread nD τ) (0 : CellTallies nD τ sig Unit) W)

/-- No core owes another anything: no level is assigned. -/
abbrev Lz : GSem nD τ sig → Finset Unit := fun _ => ∅
abbrev lvz : GSem nD τ sig → Unit → ℕ := fun _ _ => 0

end Cert.Kernel.Hand

end
-- ==== Proof.Kernel.Reg0.lean ====
/-
  Region 0 of @main as a segment of the launch: entered from every unscoped buffer at the contents the fold gives
  before it, left at the contents the fold gives after it.
-/
import proofs.«418164_j56556129354064_1_alg».proof.Proof.Gen.Kernel.Launch
import proofs.«418164_j56556129354064_1_alg».proof.Proof.Gen.Kernel.Skeleton
import proofs.«418164_j56556129354064_1_alg».proof.Proof.Gen.Kernel.Points
import proofs.«418164_j56556129354064_1_alg».proof.Proof.Gen.Kernel.Regions
import proofs.«418164_j56556129354064_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Region 0 -/

/-- Leaving region 0, a buffer other than its output's array holds what it held on entry. -/
theorem W4_of (c : Dev nD) (r : Ref sig .tc) (h : r ∉ ([main_v34] : List (Ref sig .tc))) : W4 m c r = W3 m c r :=
  (congrFun (V4_eq m c).symm _).trans ((Gen.V4_of m (outs m) c r h).trans (rfl))

/-- Each of region 0's arrays, after the region, holds what the fold says. -/
theorem hF0 (c : Dev nD) (w : Fin cfg0.W) :
    (dat0 (tcOf (W3 m)) c).arrAt w cfg0.N = tcOf (W4 m) c (Pipeline.arrRef spec0 w) :=
  match w with
    | ⟨0, _⟩ => (((dat0 (tcOf (W3 m)) c).arrAt_in 0 rfl _).trans (A_eq0 (tcOf (W3 m)) c 0)).trans (W4_of m c main_arg0 (by decide)).symm
    | ⟨1, _⟩ => (((dat0 (tcOf (W3 m)) c).arrAt_in 1 rfl _).trans (A_eq0 (tcOf (W3 m)) c 1)).trans (W4_of m c main_arg3 (by decide)).symm
    | ⟨2, _⟩ => by unfold W4; exact (Function.update_self (Proc.devRef .tc main_v34 : DevRef τ sig) (res0 m c) (W3 m c)).symm

theorem hrest0 (c : Dev nD) : ∀ b, b ∉ Finset.univ.image (Pipeline.arrRef spec0) → tcOf (W4 m) c b = tcOf (W3 m) c b :=
  fun b hb => W4_of m c b fun hmem => hb (by
    rw [List.mem_singleton] at hmem; subst hmem
    exact Finset.mem_image.mpr ⟨2, Finset.mem_univ _, rfl⟩)

set_option backward.isDefEq.respectTransparency.types false in
/-- Region 0 over the thread state "every unscoped buffer at the fold's contents, the generator register at some
    state, nothing owed": its arrays are split out of the unscoped buffers on entry and put back at the exit contents;
    the generator register goes into the region's invariant and comes back; the kernel has no semaphore of its own. -/
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (tcOf (W3 m)) c).loose
  hwaits := Pipeline.hwaits_of_owed_zero _ _ _ _ Lz lvz 0 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec0 c (tcOf (W3 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (tcOf (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (tcOf (W3 m) c) (tcOf (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Reg1.lean ====
/-
  Region 1 of @main as a segment of the launch: entered from every unscoped buffer at the contents the fold gives
  before it, left at the contents the fold gives after it.
-/
import proofs.«418164_j56556129354064_1_alg».proof.Proof.Gen.Kernel.Launch
import proofs.«418164_j56556129354064_1_alg».proof.Proof.Gen.Kernel.Skeleton
import proofs.«418164_j56556129354064_1_alg».proof.Proof.Gen.Kernel.Points
import proofs.«418164_j56556129354064_1_alg».proof.Proof.Gen.Kernel.Regions
import proofs.«418164_j56556129354064_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Region 1 -/

/-- Leaving region 1, a buffer other than its output's array holds what it held on entry. -/
theorem W6_of (c : Dev nD) (r : Ref sig .tc) (h : r ∉ ([main_v47] : List (Ref sig .tc))) : W6 m c r = W5 m c r :=
  (congrFun (V6_eq m c).symm _).trans ((Gen.V6_of m (outs m) c r h).trans (congrFun (V5_eq m c) _))

/-- Each of region 1's arrays, after the region, holds what the fold says. -/
theorem hF1 (c : Dev nD) (w : Fin cfg1.W) :
    (dat1 (tcOf (W5 m)) c).arrAt w cfg1.N = tcOf (W6 m) c (Pipeline.arrRef spec1 w) :=
  match w with
    | ⟨0, _⟩ => (((dat1 (tcOf (W5 m)) c).arrAt_in 0 rfl _).trans (A_eq1 (tcOf (W5 m)) c 0)).trans (W6_of m c main_v46 (by decide)).symm
    | ⟨1, _⟩ => (((dat1 (tcOf (W5 m)) c).arrAt_in 1 rfl _).trans (A_eq1 (tcOf (W5 m)) c 1)).trans (W6_of m c main_v31 (by decide)).symm
    | ⟨2, _⟩ => (((dat1 (tcOf (W5 m)) c).arrAt_in 2 rfl _).trans (A_eq1 (tcOf (W5 m)) c 2)).trans (W6_of m c main_arg5 (by decide)).symm
    | ⟨3, _⟩ => by unfold W6; exact (Function.update_self (Proc.devRef .tc main_v47 : DevRef τ sig) (res1 m c) (W5 m c)).symm

theorem hrest1 (c : Dev nD) : ∀ b, b ∉ Finset.univ.image (Pipeline.arrRef spec1) → tcOf (W6 m) c b = tcOf (W5 m) c b :=
  fun b hb => W6_of m c b fun hmem => hb (by
    rw [List.mem_singleton] at hmem; subst hmem
    exact Finset.mem_image.mpr ⟨3, Finset.mem_univ _, rfl⟩)

set_option backward.isDefEq.respectTransparency.types false in
/-- Region 1 over the thread state "every unscoped buffer at the fold's contents, the generator register at some
    state, nothing owed": its arrays are split out of the unscoped buffers on entry and put back at the exit contents;
    the generator register goes into the region's invariant and comes back; the kernel has no semaphore of its own. -/
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (tcOf (W5 m)) c).loose
  hwaits := Pipeline.hwaits_of_owed_zero _ _ _ _ Lz lvz 1 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec1 c (tcOf (W5 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (tcOf (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (tcOf (W5 m) c) (tcOf (W6 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Reg2.lean ====
/-
  Region 2 of @main as a segment of the launch: entered from every unscoped buffer at the contents the fold gives
  before it, left at the contents the fold gives after it.
-/
import proofs.«418164_j56556129354064_1_alg».proof.Proof.Gen.Kernel.Launch
import proofs.«418164_j56556129354064_1_alg».proof.Proof.Gen.Kernel.Skeleton
import proofs.«418164_j56556129354064_1_alg».proof.Proof.Gen.Kernel.Points
import proofs.«418164_j56556129354064_1_alg».proof.Proof.Gen.Kernel.Regions
import proofs.«418164_j56556129354064_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Region 2 -/

/-- Leaving region 2, a buffer other than its output's array holds what it held on entry. -/
theorem W8_of (c : Dev nD) (r : Ref sig .tc) (h : r ∉ ([main_v60] : List (Ref sig .tc))) : W8 m c r = W7 m c r :=
  (congrFun (V8_eq m c).symm _).trans ((Gen.V8_of m (outs m) c r h).trans (congrFun (V7_eq m c) _))

/-- Each of region 2's arrays, after the region, holds what the fold says. -/
theorem hF2 (c : Dev nD) (w : Fin cfg2.W) :
    (dat2 (tcOf (W7 m)) c).arrAt w cfg2.N = tcOf (W8 m) c (Pipeline.arrRef spec2 w) :=
  match w with
    | ⟨0, _⟩ => (((dat2 (tcOf (W7 m)) c).arrAt_in 0 rfl _).trans (A_eq2 (tcOf (W7 m)) c 0)).trans (W8_of m c main_v59 (by decide)).symm
    | ⟨1, _⟩ => (((dat2 (tcOf (W7 m)) c).arrAt_in 1 rfl _).trans (A_eq2 (tcOf (W7 m)) c 1)).trans (W8_of m c main_v32 (by decide)).symm
    | ⟨2, _⟩ => (((dat2 (tcOf (W7 m)) c).arrAt_in 2 rfl _).trans (A_eq2 (tcOf (W7 m)) c 2)).trans (W8_of m c main_arg7 (by decide)).symm
    | ⟨3, _⟩ => by unfold W8; exact (Function.update_self (Proc.devRef .tc main_v60 : DevRef τ sig) (res2 m c) (W7 m c)).symm

theorem hrest2 (c : Dev nD) : ∀ b, b ∉ Finset.univ.image (Pipeline.arrRef spec2) → tcOf (W8 m) c b = tcOf (W7 m) c b :=
  fun b hb => W8_of m c b fun hmem => hb (by
    rw [List.mem_singleton] at hmem; subst hmem
    exact Finset.mem_image.mpr ⟨3, Finset.mem_univ _, rfl⟩)

set_option backward.isDefEq.respectTransparency.types false in
/-- Region 2 over the thread state "every unscoped buffer at the fold's contents, the generator register at some
    state, nothing owed": its arrays are split out of the unscoped buffers on entry and put back at the exit contents;
    the generator register goes into the region's invariant and comes back; the kernel has no semaphore of its own. -/
def reg2 : Pipeline.RegionSeg (pcfgs (F := F)) Gen.adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (tcOf (W7 m)) c).loose
  hwaits := Pipeline.hwaits_of_owed_zero _ _ _ _ Lz lvz 2 fun _ _ => rfl
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec2 c (tcOf (W7 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (tcOf (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (tcOf (W7 m) c) (tcOf (W8 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Reg3.lean ====
/-
  Region 3 of @main as a segment of the launch: entered from every unscoped buffer at the contents the fold gives
  before it, left at the contents the fold gives after it.
-/
import proofs.«418164_j56556129354064_1_alg».proof.Proof.Gen.Kernel.Launch
import proofs.«418164_j56556129354064_1_alg».proof.Proof.Gen.Kernel.Skeleton
import proofs.«418164_j56556129354064_1_alg».proof.Proof.Gen.Kernel.Points
import proofs.«418164_j56556129354064_1_alg».proof.Proof.Gen.Kernel.Regions
import proofs.«418164_j56556129354064_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Region 3 -/

/-- Leaving region 3, a buffer other than its output's array holds what it held on entry. -/
theorem W10_of (c : Dev nD) (r : Ref sig .tc) (h : r ∉ ([main_v73] : List (Ref sig .tc))) : W10 m c r = W9 m c r :=
  (congrFun (V10_eq m c).symm _).trans ((Gen.V10_of m (outs m) c r h).trans (congrFun (V9_eq m c) _))

/-- Each of region 3's arrays, after the region, holds what the fold says. -/
theorem hF3 (c : Dev nD) (w : Fin cfg3.W) :
    (dat3 (tcOf (W9 m)) c).arrAt w cfg3.N = tcOf (W10 m) c (Pipeline.arrRef spec3 w) :=
  match w with
    | ⟨0, _⟩ => (((dat3 (tcOf (W9 m)) c).arrAt_in 0 rfl _).trans (A_eq3 (tcOf (W9 m)) c 0)).trans (W10_of m c main_v72 (by decide)).symm
    | ⟨1, _⟩ => (((dat3 (tcOf (W9 m)) c).arrAt_in 1 rfl _).trans (A_eq3 (tcOf (W9 m)) c 1)).trans (W10_of m c main_v33 (by decide)).symm
    | ⟨2, _⟩ => by unfold W10; exact (Function.update_self (Proc.devRef .tc main_v73 : DevRef τ sig) (res3 m c) (W9 m c)).symm

theorem hrest3 (c : Dev nD) : ∀ b, b ∉ Finset.univ.image (Pipeline.arrRef spec3) → tcOf (W10 m) c b = tcOf (W9 m) c b :=
  fun b hb => W10_of m c b fun hmem => hb (by
    rw [List.mem_singleton] at hmem; subst hmem
    exact Finset.mem_image.mpr ⟨2, Finset.mem_univ _, rfl⟩)

set_option backward.isDefEq.respectTransparency.types false in
/-- Region 3 over the thread state "every unscoped buffer at the fold's contents, the generator register at some
    state, nothing owed": its arrays are split out of the unscoped buffers on entry and put back at the exit contents;
    the generator register goes into the region's invariant and comes back; the kernel has no semaphore of its own. -/
def reg3 : Pipeline.RegionSeg (pcfgs (F := F)) Gen.adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (tcOf (W9 m)) c).loose
  hwaits := Pipeline.hwaits_of_owed_zero _ _ _ _ Lz lvz 3 fun _ _ => rfl
  pre c := iprop(StableHlo.held (c : Thread nD τ) (Pipeline.ucRefs τ sig) (W9 m c) ∗ Rr c)
  post c := iprop(StableHlo.held (c : Thread nD τ) (Pipeline.ucRefs τ sig) (W10 m c) ∗ Rr c)
  X c := iprop(∃ r, prngReg c r)
  Y c := iprop(∃ r, prngReg c r)
  Z c := Pipeline.unscopedRest (Ix := Unit) (Name := ℕ) (U := UR sig nD τ) (Lvl := ℕ) spec3 c (tcOf (W9 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (tcOf (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (tcOf (W9 m) c) (tcOf (W10 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Reg4.lean ====
/-
  Region 4 of @main as a segment of the launch: entered from every unscoped buffer at the contents the fold gives
  before it, left at the contents the fold gives after it.
-/
import proofs.«418164_j56556129354064_1_alg».proof.Proof.Gen.Kernel.Launch
import proofs.«418164_j56556129354064_1_alg».proof.Proof.Gen.Kernel.Skeleton
import proofs.«418164_j56556129354064_1_alg».proof.Proof.Gen.Kernel.Points
import proofs.«418164_j56556129354064_1_alg».proof.Proof.Gen.Kernel.Regions
import proofs.«418164_j56556129354064_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Region 4 -/

/-- Leaving region 4, a buffer other than its output's array holds what it held on entry. -/
theorem W12_of (c : Dev nD) (r : Ref sig .tc) (h : r ∉ ([main_v75] : List (Ref sig .tc))) : W12 m c r = W11 m c r :=
  (congrFun (V12_eq m c).symm _).trans ((Gen.V12_of m (outs m) c r h).trans (congrFun (V11_eq m c) _))

/-- Each of region 4's arrays, after the region, holds what the fold says. -/
theorem hF4 (c : Dev nD) (w : Fin cfg4.W) :
    (dat4 (tcOf (W11 m)) c).arrAt w cfg4.N = tcOf (W12 m) c (Pipeline.arrRef spec4 w) :=
  match w with
    | ⟨0, _⟩ => (((dat4 (tcOf (W11 m)) c).arrAt_in 0 rfl _).trans (A_eq4 (tcOf (W11 m)) c 0)).trans (W12_of m c main_v73 (by decide)).symm
    | ⟨1, _⟩ => (((dat4 (tcOf (W11 m)) c).arrAt_in 1 rfl _).trans (A_eq4 (tcOf (W11 m)) c 1)).trans (W12_of m c main_v74 (by decide)).symm
    | ⟨2, _⟩ => by unfold W12; exact (Function.update_self (Proc.devRef .tc main_v75 : DevRef τ sig) (res4 m c) (W11 m c)).symm

theorem hrest4 (c : Dev nD) : ∀ b, b ∉ Finset.univ.image (Pipeline.arrRef spec4) → tcOf (W12 m) c b = tcOf (W11 m) c b :=
  fun b hb => W12_of m c b fun hmem => hb (by
    rw [List.mem_singleton] at hmem; subst hmem
    exact Finset.mem_image.mpr ⟨2, Finset.mem_univ _, rfl⟩)

set_option backward.isDefEq.respectTransparency.types false in
/-- Region 4 over the thread state "every unscoped buffer at the fold's contents, the generator register at some
    state, nothing owed": its arrays are split out of the unscoped buffers on entry and put back at the exit contents;
    the generator register goes into the region's invariant and comes back; the kernel has no semaphore of its own. -/
def reg4 : Pipeline.RegionSeg (pcfgs (F := F)) Gen.adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (tcOf (W11 m)) c).loose
  hwaits := Pipeline.hwaits_of_owed_zero _ _ _ _ Lz lvz 4 fun _ _ => rfl
  pre c := iprop(StableHlo.held (c : Thread nD τ) (Pipeline.ucRefs τ sig) (W11 m c) ∗ Rr c)
  post c := iprop(StableHlo.held (c : Thread nD τ) (Pipeline.ucRefs τ sig) (W12 m c) ∗ Rr c)
  X c := iprop(∃ r, prngReg c r)
  Y c := iprop(∃ r, prngReg c r)
  Z c := Pipeline.unscopedRest (Ix := Unit) (Name := ℕ) (U := UR sig nD τ) (Lvl := ℕ) spec4 c (tcOf (W11 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (tcOf (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA (Val := Elt F) (U := UR sig nD τ) spec4 c from ?_).trans (hin4 (tcOf (W11 m)) c)
    unfold Pipeline.ΦA
    iintro ⟨Hp, -, Hr⟩
    isplitl [Hr]; · iexact Hr
    iexact Hp
  hout c := by
    rw [Pipeline.ownSems0_none]
    refine (hout4 (tcOf (W11 m)) c).trans (show Pipeline.ΦA (Val := Elt F) (U := UR sig nD τ) spec4 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (tcOf (W11 m) c) (tcOf (W12 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Run.lean ====
/-
  The run of @main on the TensorCores: from any launch memory with zero counters every weakly fair execution
  terminates, nothing faulting, and at the return every unscoped buffer of every core holds what the fold of @main's
  items gives it: the result's array what region 4 leaves, each argument's array its launch contents.
-/
import proofs.«418164_j56556129354064_1_alg».proof.Proof.Gen.Kernel.Launch
import proofs.«418164_j56556129354064_1_alg».proof.Proof.Gen.Kernel.Skeleton
import proofs.«418164_j56556129354064_1_alg».proof.Proof.Gen.Kernel.Points
import proofs.«418164_j56556129354064_1_alg».proof.Proof.Gen.Kernel.Regions
import proofs.«418164_j56556129354064_1_alg».proof.Proof.Kernel.Fold
import proofs.«418164_j56556129354064_1_alg».proof.Proof.Kernel.Reg0
import proofs.«418164_j56556129354064_1_alg».proof.Proof.Kernel.Reg1
import proofs.«418164_j56556129354064_1_alg».proof.Proof.Kernel.Reg2
import proofs.«418164_j56556129354064_1_alg».proof.Proof.Kernel.Reg3
import proofs.«418164_j56556129354064_1_alg».proof.Proof.Kernel.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Two thread states that differ only in how the buffers' contents are spelt. -/
theorem held_into (c : Dev nD) {A B : Valuation τ sig (Elt F)} (h : A = B) :
    iprop(StableHlo.held (c : Thread nD τ) (Pipeline.ucRefs τ sig) A ∗ Rr (F := F) c)
      ⊢ iprop(StableHlo.held (c : Thread nD τ) (Pipeline.ucRefs τ sig) B ∗ Rr (F := F) c) := by
  subst h; exact .rfl

set_option backward.isDefEq.respectTransparency.types false in
/-- The launch over @main's twelve items: the seven stretches of host operations and the five regions, each entered
    from what the item before left; the last thread state read against the final memory. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W12 m c b) := by
  refine Pipeline.θ_run_regions_kit_dev (pcfgs (F := F)) Gen.adm (pdats m) () cellOf_inj emb₁ defs₀ Variants.none Lz lvz m ρ main
    (Gen.segs m (outs m) Variants.none Lz lvz (fun _ => Rr) () (pdats m) (reg0 m) (reg1 m) (reg2 m) (reg3 m) (reg4 m))
    (fun c Q => by
      rewrite [main_chain c, Seg.run_eq_chain,
        show ((Gen.segs m (outs m) Variants.none Lz lvz (fun _ => Rr) () (pdats m) (reg0 m) (reg1 m) (reg2 m) (reg3 m) (reg4 m)) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [Gen.segs, Seg.pipes_host, Seg.pipes_region, Seg.pipes_nil]; decide)
    (O₀ := 0) (hL := fun _ _ => rfl) (G := fun _ => iprop(emp))
    (u₀ := (initOf (Pipeline.cells cfgs cellOf_inj) (Pipeline.launchToks cfgs cellOf_inj)))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c))
    (Tₙ := fun c => iprop(StableHlo.held (c : Thread nD τ) (Pipeline.ucRefs τ sig) (W12 m c) ∗ ∃ r, prngReg c r))
    (hch := fun c => ⟨.rfl, .rfl, .rfl,
      .rfl, held_into c (V4_eq m c).symm,
      held_into c (V5_eq m c), held_into c (V6_eq m c).symm,
      held_into c (V7_eq m c), held_into c (V8_eq m c).symm,
      held_into c (V9_eq m c), held_into c (V10_eq m c).symm,
      held_into c (V11_eq m c),
      (by
        show iprop(StableHlo.held (c : Thread nD τ) (Pipeline.ucRefs τ sig) (W12 m c) ∗ Rr c)
          ⊢ iprop((StableHlo.held (c : Thread nD τ) (Pipeline.ucRefs τ sig) (W12 m c) ∗ ∃ r, prngReg c r)
              ∗ ∃ W, owes (c : Thread nD τ) (0 : CellTallies nD τ sig Unit) W)
        iintro ⟨Hh, Hp, HO⟩
        isplitl [Hh Hp]
        · isplitl [Hh]; · iexact Hh
          iexact Hp
        iexact HO)⟩)
    (hinit := by
      refine Pipeline.initEach Lz lvz fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun _ h => h)

/-! ## What the run says of the arguments and of the result -/

/-- At the return each argument's array holds its launch contents: no item of @main writes it. -/
theorem W12_arg0 (c : Dev nD) : W12 m c main_arg0 = m ((c : Thread nD τ).loc main_arg0) :=
  (congrFun (V12_eq m c).symm _).trans (Gen.V12_main_arg0 m (outs m) c)
theorem W12_arg1 (c : Dev nD) : W12 m c main_arg1 = m ((c : Thread nD τ).loc main_arg1) :=
  (congrFun (V12_eq m c).symm _).trans (Gen.V12_main_arg1 m (outs m) c)
theorem W12_arg2 (c : Dev nD) : W12 m c main_arg2 = m ((c : Thread nD τ).loc main_arg2) :=
  (congrFun (V12_eq m c).symm _).trans (Gen.V12_main_arg2 m (outs m) c)
theorem W12_arg3 (c : Dev nD) : W12 m c main_arg3 = m ((c : Thread nD τ).loc main_arg3) :=
  (congrFun (V12_eq m c).symm _).trans (Gen.V12_main_arg3 m (outs m) c)
theorem W12_arg4 (c : Dev nD) : W12 m c main_arg4 = m ((c : Thread nD τ).loc main_arg4) :=
  (congrFun (V12_eq m c).symm _).trans (Gen.V12_main_arg4 m (outs m) c)
theorem W12_arg5 (c : Dev nD) : W12 m c main_arg5 = m ((c : Thread nD τ).loc main_arg5) :=
  (congrFun (V12_eq m c).symm _).trans (Gen.V12_main_arg5 m (outs m) c)
theorem W12_arg6 (c : Dev nD) : W12 m c main_arg6 = m ((c : Thread nD τ).loc main_arg6) :=
  (congrFun (V12_eq m c).symm _).trans (Gen.V12_main_arg6 m (outs m) c)
theorem W12_arg7 (c : Dev nD) : W12 m c main_arg7 = m ((c : Thread nD τ).loc main_arg7) :=
  (congrFun (V12_eq m c).symm _).trans (Gen.V12_main_arg7 m (outs m) c)
theorem W12_arg8 (c : Dev nD) : W12 m c main_arg8 = m ((c : Thread nD τ).loc main_arg8) :=
  (congrFun (V12_eq m c).symm _).trans (Gen.V12_main_arg8 m (outs m) c)

/-- The frame: every weakly fair execution terminates, nothing faulting, each argument's array as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W12_arg0 m c),
      (h c _ (mem_uc main_arg1 (by decide))).trans (W12_arg1 m c),
      (h c _ (mem_uc main_arg2 (by decide))).trans (W12_arg2 m c),
      (h c _ (mem_uc main_arg3 (by decide))).trans (W12_arg3 m c),
      (h c _ (mem_uc main_arg4 (by decide))).trans (W12_arg4 m c),
      (h c _ (mem_uc main_arg5 (by decide))).trans (W12_arg5 m c),
      (h c _ (mem_uc main_arg6 (by decide))).trans (W12_arg6 m c),
      (h c _ (mem_uc main_arg7 (by decide))).trans (W12_arg7 m c),
      (h c _ (mem_uc main_arg8 (by decide))).trans (W12_arg8 m c)⟩) (run_all m ρ)

/-- The same run with the result's array named: what region 4 leaves. -/
theorem run_result : θ_run defs (onTc (τ := τ) (main (F := F))) ⟨m, fun _ => 0, ρ⟩ (fun r => ∀ c : Dev nD,
      r.2.mem ((c.tc : Thread nD τ).loc main_v75) = W12 m c main_v75
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v75 (by decide)),
      (h c _ (mem_uc main_arg0 (by decide))).trans (W12_arg0 m c),
      (h c _ (mem_uc main_arg1 (by decide))).trans (W12_arg1 m c),
      (h c _ (mem_uc main_arg2 (by decide))).trans (W12_arg2 m c),
      (h c _ (mem_uc main_arg3 (by decide))).trans (W12_arg3 m c),
      (h c _ (mem_uc main_arg4 (by decide))).trans (W12_arg4 m c),
      (h c _ (mem_uc main_arg5 (by decide))).trans (W12_arg5 m c),
      (h c _ (mem_uc main_arg6 (by decide))).trans (W12_arg6 m c),
      (h c _ (mem_uc main_arg7 (by decide))).trans (W12_arg7 m c),
      (h c _ (mem_uc main_arg8 (by decide))).trans (W12_arg8 m c)⟩) (run_all m ρ)

end Cert.Kernel.Hand

end
-- ==== Proof.KernelIdeal.Region0.lean ====
/-
  Region 0 of @main, the first projection: at each of the ten grid points the body multiplies a block of 5000 rows of
  the node features by the whole 128 x 128 weight matrix and stores the product whole. Stated at a parameter `V`, the
  contents of the unscoped buffers when the region is entered: each window's block at a point, what the body leaves in
  the output's staging buffer as a function of the two input blocks, the pipeline's proof data, and the body
  obligation at every point.
-/
import proofs.«418164_j56556129354064_1_alg».proof.Proof.Gen.KernelIdeal.Launch
import proofs.«418164_j56556129354064_1_alg».proof.Proof.Gen.KernelIdeal.Skeleton
import proofs.«418164_j56556129354064_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one rectangle of each access: the whole staging buffer. -/
abbrev rX0 : Rect S5000x128 := Rect.unit (s := S5000x128) ![0, 0] S5000x128.size inb_S5000x128_S5000x128_0_0
abbrev rW0 : Rect S128x128 := Rect.unit (s := S128x128) ![0, 0] S128x128.size inb_S128x128_S128x128_0_0

/-- What the body leaves in the output's staging buffer: the product of the row block and the weights, stored whole. -/
def out0 (x : Vec F S5000x128 .f32) (w : Vec F S128x128 .f32) : Vec F S5000x128 .f32 :=
  View.canon [⟨rX0, k0_pay1 (View.ld x rX0) (View.ld w rW0)⟩]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

/-- An input window's current staging buffer holds its block of the array at every point, whether the point
    fetched it or the block index has not moved since the fetch (the weights: fetched once). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]) t d).trans
    (by unfold Dat.fetched Dat.blockOf iblk0; rw [A_eq0]; try rfl)

/-- The single store covers the output's staging buffer. -/
theorem cover0 (p : Vec F S5000x128 .f32) (y : S5000x128.Idx) :
    ∃ pc ∈ ([⟨rX0, p⟩] : List (View.Piece (Elt F) S5000x128 .f32)), y ∈ pc.1.set :=
  View.cover_of_tiled [⟨rX0, p⟩] S5000x128.size (by rfl) y

set_option maxHeartbeats 1000000 in
/-- The body on whole staging memrefs: from the two inputs at their contents and the output at anything it runs to
    its return, the inputs untouched and the output at `out0` of them. -/
theorem sound_kernel0 (c : Dev nD) (E : Set ℕ) (i : grid0.Coords)
    (a1 : Memref sig .tc .vmem S5000x128 .f32) (h1 : a1.IsWhole) (a2 : Memref sig .tc .vmem S128x128 .f32) (h2 : a2.IsWhole)
    (a3 : Memref sig .tc .vmem S5000x128 .f32) (h3 : a3.IsWhole)
    (x : Vec F S5000x128 .f32) (w : Vec F S128x128 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (out0 x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The body obligation of region 0 at every point: the inputs' buffers hold their blocks, so the run above applies;
    the invariant and what the core owes pass through unread. -/
theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)))
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand

end
-- ==== Proof.KernelIdeal.Region1.lean ====
/-
  Region 1 of @main, the second layer's projection: at each of the ten grid points the body adds the bias row to a
  block of 5000 rows of the aggregated features, clamps at zero from below, multiplies by the whole 128 x 128 weight
  matrix and stores the product whole. Stated at a parameter `V`, the contents of the unscoped buffers when the region
  is entered: each window's block at a point, what the body leaves in the output's staging buffer as a function of the
  three input blocks, the pipeline's proof data, and the body obligation at every point.
-/
import proofs.«418164_j56556129354064_1_alg».proof.Proof.Gen.KernelIdeal.Launch
import proofs.«418164_j56556129354064_1_alg».proof.Proof.Gen.KernelIdeal.Skeleton
import proofs.«418164_j56556129354064_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The one rectangle of each access: the whole staging buffer. -/
abbrev rX1 : Rect S5000x128 := Rect.unit (s := S5000x128) ![0, 0] S5000x128.size inb_S5000x128_S5000x128_0_0
abbrev rB1 : Rect S1x128 := Rect.unit (s := S1x128) ![0, 0] S1x128.size inb_S1x128_S1x128_0_0
abbrev rW1 : Rect S128x128 := Rect.unit (s := S128x128) ![0, 0] S128x128.size inb_S128x128_S128x128_0_0

/-- What the body leaves in the output's staging buffer: the clamped, biased row block times the weights, stored whole. -/
def out1 (x : Vec F S5000x128 .f32) (b : Vec F S1x128 .f32) (w : Vec F S128x128 .f32) : Vec F S5000x128 .f32 :=
  View.canon [⟨rX1, k1_pay1 (View.ld x rX1) (View.ld b rB1) (View.ld w rW1)⟩]

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

/-- An input window's current staging buffer holds its block of the array at every point, whether the point
    fetched it or the block index has not moved since the fetch (the bias row and the weights: fetched once). -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]) t d).trans
    (by unfold Dat.fetched Dat.blockOf iblk1; rw [A_eq1]; try rfl)

/-- The single store covers the output's staging buffer. -/
theorem cover1 (p : Vec F S5000x128 .f32) (y : S5000x128.Idx) :
    ∃ pc ∈ ([⟨rX1, p⟩] : List (View.Piece (Elt F) S5000x128 .f32)), y ∈ pc.1.set :=
  View.cover_of_tiled [⟨rX1, p⟩] S5000x128.size (by rfl) y

set_option maxHeartbeats 1000000 in
/-- The body on whole staging memrefs: from the three inputs at their contents and the output at anything it runs to
    its return, the inputs untouched and the output at `out1` of them. -/
theorem sound_kernel1 (c : Dev nD) (E : Set ℕ) (i : grid1.Coords)
    (a1 : Memref sig .tc .vmem S5000x128 .f32) (h1 : a1.IsWhole) (a2 : Memref sig .tc .vmem S1x128 .f32) (h2 : a2.IsWhole)
    (a3 : Memref sig .tc .vmem S128x128 .f32) (h3 : a3.IsWhole) (a4 : Memref sig .tc .vmem S5000x128 .f32) (h4 : a4.IsWhole)
    (x : Vec F S5000x128 .f32) (b : Vec F S1x128 .f32) (w : Vec F S128x128 .f32) (K : PUnit → sProp 𝕄) :
    iprop(owns (c : Thread nD τ) a1 fullShare x ∗ owns (c : Thread nD τ) a2 fullShare b ∗ owns (c : Thread nD τ) a3 fullShare w
        ∗ (∃ d, owns (c : Thread nD τ) a4 fullShare d)
        ∗ (iprop(owns (c : Thread nD τ) a1 fullShare x ∗ owns (c : Thread nD τ) a2 fullShare b ∗ owns (c : Thread nD τ) a3 fullShare w
            ∗ owns (c : Thread nD τ) a4 fullShare (out1 x b w)) -∗ K ⟨⟩))
      ⊢ wp frame (wpE (defs₀ (F := F)) Variants.none c none) E (cc1__relu_bias_matmul_kernel i a1 h1 a2 h2 a3 h3 a4 h4) K := by
  simp only [cc1__relu_bias_matmul_kernel_eq_skeleton]; unfold cc1__relu_bias_matmul_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-- The body obligation of region 1 at every point: the inputs' buffers hold their blocks, so the run above applies;
    the invariant and what the core owes pass through unread. -/
theorem body_obligation1 (c : Dev nD) : BodyObligation (dat1 (F := F) V c) (defs₀ (F := F)) Variants.none () Set.univ := fun t => by
  rw [bigSep_W1, bigSep_W1]
  show iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t)))
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.KernelIdeal.Hand

end
-- ==== Proof.KernelIdeal.Region2.lean ====
/-
  Region 2 of @main, the third layer's projection: at each of the ten grid points the body adds the bias row to a
  block of 5000 rows of the aggregated features, clamps at zero from below, multiplies by the whole 128 x 128 weight
  matrix and stores the product whole. Stated at a parameter `V`, the contents of the unscoped buffers when the region
  is entered: each window's block at a point, what the body leaves in the output's staging buffer as a function of the
  three input blocks, the pipeline's proof data, and the body obligation at every point.
-/
import proofs.«418164_j56556129354064_1_alg».proof.Proof.Gen.KernelIdeal.Launch
import proofs.«418164_j56556129354064_1_alg».proof.Proof.Gen.KernelIdeal.Skeleton
import proofs.«418164_j56556129354064_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The one rectangle of each access: the whole staging buffer. -/
abbrev rX2 : Rect S5000x128 := Rect.unit (s := S5000x128) ![0, 0] S5000x128.size inb_S5000x128_S5000x128_0_0
abbrev rB2 : Rect S1x128 := Rect.unit (s := S1x128) ![0, 0] S1x128.size inb_S1x128_S1x128_0_0
abbrev rW2 : Rect S128x128 := Rect.unit (s := S128x128) ![0, 0] S128x128.size inb_S128x128_S128x128_0_0

/-- What the body leaves in the output's staging buffer: the clamped, biased row block times the weights, stored whole. -/
def out2 (x : Vec F S5000x128 .f32) (b : Vec F S1x128 .f32) (w : Vec F S128x128 .f32) : Vec F S5000x128 .f32 :=
  View.canon [⟨rX2, k2_pay1 (View.ld x rX2) (View.ld b rB2) (View.ld w rW2)⟩]

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

/-- An input window's current staging buffer holds its block of the array at every point, whether the point
    fetched it or the block index has not moved since the fetch (the bias row and the weights: fetched once). -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]) t d).trans
    (by unfold Dat.fetched Dat.blockOf iblk2; rw [A_eq2]; try rfl)

/-- The single store covers the output's staging buffer. -/
theorem cover2 (p : Vec F S5000x128 .f32) (y : S5000x128.Idx) :
    ∃ pc ∈ ([⟨rX2, p⟩] : List (View.Piece (Elt F) S5000x128 .f32)), y ∈ pc.1.set :=
  View.cover_of_tiled [⟨rX2, p⟩] S5000x128.size (by rfl) y

set_option maxHeartbeats 1000000 in
/-- The body on whole staging memrefs: from the three inputs at their contents and the output at anything it runs to
    its return, the inputs untouched and the output at `out2` of them. -/
theorem sound_kernel2 (c : Dev nD) (E : Set ℕ) (i : grid2.Coords)
    (a1 : Memref sig .tc .vmem S5000x128 .f32) (h1 : a1.IsWhole) (a2 : Memref sig .tc .vmem S1x128 .f32) (h2 : a2.IsWhole)
    (a3 : Memref sig .tc .vmem S128x128 .f32) (h3 : a3.IsWhole) (a4 : Memref sig .tc .vmem S5000x128 .f32) (h4 : a4.IsWhole)
    (x : Vec F S5000x128 .f32) (b : Vec F S1x128 .f32) (w : Vec F S128x128 .f32) (K : PUnit → sProp 𝕄) :
    iprop(owns (c : Thread nD τ) a1 fullShare x ∗ owns (c : Thread nD τ) a2 fullShare b ∗ owns (c : Thread nD τ) a3 fullShare w
        ∗ (∃ d, owns (c : Thread nD τ) a4 fullShare d)
        ∗ (iprop(owns (c : Thread nD τ) a1 fullShare x ∗ owns (c : Thread nD τ) a2 fullShare b ∗ owns (c : Thread nD τ) a3 fullShare w
            ∗ owns (c : Thread nD τ) a4 fullShare (out2 x b w)) -∗ K ⟨⟩))
      ⊢ wp frame (wpE (defs₀ (F := F)) Variants.none c none) E (cc2__relu_bias_matmul_kernel i a1 h1 a2 h2 a3 h3 a4 h4) K := by
  simp only [cc2__relu_bias_matmul_kernel_eq_skeleton]; unfold cc2__relu_bias_matmul_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

/-- The body obligation of region 2 at every point: the inputs' buffers hold their blocks, so the run above applies;
    the invariant and what the core owes pass through unread. -/
theorem body_obligation2 (c : Dev nD) : BodyObligation (dat2 (F := F) V c) (defs₀ (F := F)) Variants.none () Set.univ := fun t => by
  rw [bigSep_W2, bigSep_W2]
  show iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d)))
    ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ owns (c : Thread nD τ) (st2_3 t) fullShare ((dat2 V c).after 3 t)))
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.KernelIdeal.Hand

end
-- ==== Proof.KernelIdeal.Region3.lean ====
/-
  Region 3 of @main, the last layer's epilogue: at each of the ten grid points the body adds the bias row to a block
  of 5000 rows of the aggregated features, clamps at zero from below and stores the block whole. Stated at a parameter
  `V`, the contents of the unscoped buffers when the region is entered: each window's block at a point, what the body
  leaves in the output's staging buffer as a function of the two input blocks, the pipeline's proof data, and the body
  obligation at every point.
-/
import proofs.«418164_j56556129354064_1_alg».proof.Proof.Gen.KernelIdeal.Launch
import proofs.«418164_j56556129354064_1_alg».proof.Proof.Gen.KernelIdeal.Skeleton
import proofs.«418164_j56556129354064_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The one rectangle of each access: the whole staging buffer. -/
abbrev rX3 : Rect S5000x128 := Rect.unit (s := S5000x128) ![0, 0] S5000x128.size inb_S5000x128_S5000x128_0_0
abbrev rB3 : Rect S1x128 := Rect.unit (s := S1x128) ![0, 0] S1x128.size inb_S1x128_S1x128_0_0

/-- What the body leaves in the output's staging buffer: the clamped, biased row block, stored whole. -/
def out3 (x : Vec F S5000x128 .f32) (b : Vec F S1x128 .f32) : Vec F S5000x128 .f32 :=
  View.canon [⟨rX3, k3_pay1 (View.ld x rX3) (View.ld b rB3)⟩]

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 (iblk3 V c 0 t) (iblk3 V c 1 t) := by dsimp only [dat3]

/-- An input window's current staging buffer holds its block of the array at every point, whether the point
    fetched it or the block index has not moved since the fetch (the bias row: fetched once). -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]) t d).trans
    (by unfold Dat.fetched Dat.blockOf iblk3; rw [A_eq3]; try rfl)

/-- The single store covers the output's staging buffer. -/
theorem cover3 (p : Vec F S5000x128 .f32) (y : S5000x128.Idx) :
    ∃ pc ∈ ([⟨rX3, p⟩] : List (View.Piece (Elt F) S5000x128 .f32)), y ∈ pc.1.set :=
  View.cover_of_tiled [⟨rX3, p⟩] S5000x128.size (by rfl) y

set_option maxHeartbeats 1000000 in
/-- The body on whole staging memrefs: from the two inputs at their contents and the output at anything it runs to
    its return, the inputs untouched and the output at `out3` of them. -/
theorem sound_kernel3 (c : Dev nD) (E : Set ℕ) (i : grid3.Coords)
    (a1 : Memref sig .tc .vmem S5000x128 .f32) (h1 : a1.IsWhole) (a2 : Memref sig .tc .vmem S1x128 .f32) (h2 : a2.IsWhole)
    (a3 : Memref sig .tc .vmem S5000x128 .f32) (h3 : a3.IsWhole)
    (x : Vec F S5000x128 .f32) (b : Vec F S1x128 .f32) (K : PUnit → sProp 𝕄) :
    iprop(owns (c : Thread nD τ) a1 fullShare x ∗ owns (c : Thread nD τ) a2 fullShare b ∗ (∃ d, owns (c : Thread nD τ) a3 fullShare d)
        ∗ (iprop(owns (c : Thread nD τ) a1 fullShare x ∗ owns (c : Thread nD τ) a2 fullShare b
            ∗ owns (c : Thread nD τ) a3 fullShare (out3 x b)) -∗ K ⟨⟩))
      ⊢ wp frame (wpE (defs₀ (F := F)) Variants.none c none) E (cc3__relu_bias_kernel i a1 h1 a2 h2 a3 h3) K := by
  simp only [cc3__relu_bias_kernel_eq_skeleton]; unfold cc3__relu_bias_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-- The body obligation of region 3 at every point: the inputs' buffers hold their blocks, so the run above applies;
    the invariant and what the core owes pass through unread. -/
theorem body_obligation3 (c : Dev nD) : BodyObligation (dat3 (F := F) V c) (defs₀ (F := F)) Variants.none () Set.univ := fun t => by
  rw [bigSep_W3, bigSep_W3]
  show iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d)))
    ⊢ wp frame (wpE (defs₀ (F := F)) Variants.none c none) Set.univ (bodyAt3 t) (fun _ =>
      iprop((dat3 V c).Φ t.succ ∗ (dat3 V c).owesAt () t.succ
        ∗ owns (c : Thread nD τ) (st3_0 t) fullShare ((dat3 V c).after 0 t)
        ∗ owns (c : Thread nD τ) (st3_1 t) fullShare ((dat3 V c).after 1 t)
        ∗ owns (c : Thread nD τ) (st3_2 t) fullShare ((dat3 V c).after 2 t)))
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand

end
-- ==== Proof.KernelIdeal.Region4.lean ====
/-
  Region 4 of @main, the mean pool over graphs. The grid has ten points run in order; two 64 x 128 scratch buffers are
  carried from point to point, one accumulating per graph the sum of the node rows, the other the number of nodes
  (held in every column). At a point the body forms, from the block of 5000 graph ids, the 5000 x 64 table that is one
  where the row's id is the column and zero elsewhere, and adds to the first accumulator that table transposed times
  the block of 5000 node rows, and to the second the table transposed times a column of ones, spread over the columns.
  The first point clears both accumulators first. The last point stores sums / max(counts, 1) into the output's staging
  buffer, which the pipeline writes back there and nowhere else: at the other nine points the window is idle.
  Stated at a parameter `V`, the contents of the unscoped buffers when the region is entered.
-/
import proofs.«418164_j56556129354064_1_alg».proof.Proof.Gen.KernelIdeal.Launch
import proofs.«418164_j56556129354064_1_alg».proof.Proof.Gen.KernelIdeal.Skeleton
import proofs.«418164_j56556129354064_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The accumulation, as pure functions of the blocks -/

/-- The sums accumulator after point `n`, from the blocks the points up to `n` were handed: the first point starts
    from the cleared buffer, each later one from what the point before left. -/
def sAcc (hb : ℕ → Vec F S5000x128 .f32) (bb : ℕ → Vec F S5000x1 .i32) : ℕ → Vec F S64x128 .f32
  | 0 => k4_pay4 (bb 0) (hb 0) (k4_pay1 (F := F))
  | n + 1 => k4_pay4 (bb (n + 1)) (hb (n + 1)) (sAcc hb bb n)

/-- The counts accumulator after point `n`. -/
def cAcc (bb : ℕ → Vec F S5000x1 .i32) : ℕ → Vec F S64x128 .f32
  | 0 => k4_pay5 (bb 0) (k4_pay2 (F := F))
  | n + 1 => k4_pay5 (bb (n + 1)) (cAcc bb n)

/-- What the last point stores: the sums over the counts clamped at one from below. -/
def poolOut (hb : ℕ → Vec F S5000x128 .f32) (bb : ℕ → Vec F S5000x1 .i32) : Vec F S64x128 .f32 :=
  k4_pay6 (sAcc hb bb 9) (cAcc bb 9)

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem N4_pos : 0 < cfg4.N := by rw [show cfg4.N = 10 from N_4]; decide

/-- The node rows' block and the graph ids' block of the point numbered `n` (read modulo the ten points, so that the
    accumulation above is stated over total functions). -/
def hblk (c : Dev nD) (n : ℕ) : Vec F S5000x128 .f32 := iblk4 V c 0 ⟨n % cfg4.N, Nat.mod_lt _ N4_pos⟩
def bblk (c : Dev nD) (n : ℕ) : Vec F S5000x1 .i32 := iblk4 V c 1 ⟨n % cfg4.N, Nat.mod_lt _ N4_pos⟩

/-- The two scratch buffers, whole. -/
abbrev scS : Memref sig .tc .vmem S64x128 .f32 := Memref.whole cc4_scratch0
abbrev scC : Memref sig .tc .vmem S64x128 .f32 := Memref.whole cc4_scratch1

/-- The region's invariant before the point numbered `n`: before the first point every scoped buffer that is no
    staging buffer of this call at anything; afterwards the two accumulators at what the point before left, the other
    such buffers at anything; the generator register at some state throughout. -/
def PhiS (c : Dev nD) : ℕ → sProp 𝕄
  | 0 => Pipeline.ΦA spec4 c
  | n + 1 => iprop(owns (c : Thread nD τ) scS fullShare (sAcc (hblk V c) (bblk V c) n)
      ∗ owns (c : Thread nD τ) scC fullShare (cAcc (bblk V c) n)
      ∗ Pipeline.scopedRestBut (Ix := Unit) (Name := ℕ) (U := UR sig nD τ) (Lvl := ℕ) (Val := Elt F) spec4 c [cc4_scratch0, cc4_scratch1]
      ∗ ∃ r, prngReg c r)

/-- The proof data of pipeline 4 on core `c`. The output's contents are named only at the last point, the one point
    that is not idle for it. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => poolOut (hblk V c) (bblk V c)
  Φ t := PhiS V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = poolOut (hblk V c) (bblk V c) := by dsimp only [dat4]
theorem Phi4 (c : Dev nD) (t : Fin (cfg4.N + 1)) : (dat4 V c).Φ t = PhiS V c t.val := by dsimp only [dat4]

/-! ## The two conditions over the grid; where the output is idle -/

/-- The first conditional's test, from the grid coordinates. -/
abbrev cond4_1 (i : grid4.Coords) : Prop :=
  (Scalar.cmpi .ne (Scalar.extui (Scalar.cmpi .eq (BitVec.ofNat 32 (i 0).val) 0#32)) 0#32) = 1#1
/-- The second conditional's. -/
abbrev cond4_2 (i : grid4.Coords) : Prop := k4_cond2 i = 1#1

theorem hcond4_1 : ∀ t : Fin cfg4.N, cond4_1 (grid4.coords t) ↔ t.val = 0 :=
  (by decide +kernel : ∀ t : Fin grid4.N, cond4_1 (grid4.coords t) ↔ t.val = 0)
theorem hcond4_2 : ∀ t : Fin cfg4.N, cond4_2 (grid4.coords t) ↔ t.val = 9 :=
  (by decide +kernel : ∀ t : Fin grid4.N, cond4_2 (grid4.coords t) ↔ t.val = 9)

theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, ¬cond4_2 (grid4.coords t) → cfg4.idle 2 (grid4.coords t) = true := by decide +kernel
theorem noFlush4_2 : ∀ t : Fin cfg4.N, ¬cond4_2 (grid4.coords t) → (cfg4.win 2).flush t = false := by decide +kernel
theorem liveAt4_2 : ∀ t : Fin cfg4.N, cond4_2 (grid4.coords t) → cfg4.idle 2 (grid4.coords t) = false := by decide +kernel

/-! ## The invariant against the class's -/

theorem scratch_mem4 : ([cc4_scratch0, cc4_scratch1] : List (Ref sig .tc)).Forall fun b =>
    b.isScoped = true ∧ ∀ (w : Fin 3) (s : Fin (spec4 w).nbuf), ((spec4 w).stage s).view.ref ≠ b := by decide

/-- The class's invariant with the two accumulators taken out of the scoped rest as memrefs at some contents. -/
theorem PhiA4_eq (c : Dev nD) :
    (Pipeline.ΦA spec4 c : sProp 𝕄)
      = iprop((((∃ d, owns (c : Thread nD τ) (scS : Memref sig .tc .vmem S64x128 .f32) fullShare d)
          ∗ (∃ d, owns (c : Thread nD τ) (scC : Memref sig .tc .vmem S64x128 .f32) fullShare d))
          ∗ Pipeline.scopedRestBut (Ix := Unit) (Name := ℕ) (U := UR sig nD τ) (Lvl := ℕ) (Val := Elt F) spec4 c [cc4_scratch0, cc4_scratch1])
          ∗ ∃ r, prngReg c r) := by
  unfold Pipeline.ΦA
  rw [Pipeline.scopedRest_split_of_list spec4 c [cc4_scratch0, cc4_scratch1] scratch_mem4 (by decide)]
  simp only [scS, scC, owns_whole, bigSepL_cons_cons, bigSepL_singleton]
  try rfl

/-- The invariant at the region's two ends against the class's: entered from every scoped non-staging buffer at
    anything; left with the same, the accumulators' contents forgotten. -/
theorem hin4 (c : Dev nD) : Pipeline.ΦA spec4 c ⊢ (dat4 V c).Φ 0 := by
  rw [Phi4]
  exact Idealize.SL.BI.Entails.refl _
theorem hout4 (c : Dev nD) : (dat4 V c).Φ (Fin.last cfg4.N) ⊢ Pipeline.ΦA spec4 c := by
  rw [Phi4, Fin.val_last, show cfg4.N = 9 + 1 from N_4, PhiA4_eq]
  unfold PhiS
  iintro ⟨HS, HC, HR, Hg⟩
  isplitr [Hg]
  · isplitr [HR]
    · isplitl [HS]
      · iexists _; iexact HS
      · iexists _; iexact HC
    · iexact HR
  · iexact Hg

/-! ## The body on whole memrefs, case by case -/

/-- The offsets of every access of the body: the origin. -/
theorem hz4 : (![0, 0] : Fin 2 → ℕ) = fun _ => 0 := funext fun a => by fin_cases a <;> rfl

/-- The one rectangle of every access of an accumulator or of the output: the whole buffer. -/
abbrev rA4 : Rect S64x128 := Rect.unit (s := S64x128) ![0, 0] S64x128.size inb_S64x128_S64x128_0_0

theorem mem_rA4 (y : S64x128.Idx) : y ∈ rA4.set :=
  View.mem_set_unit_zero (S := S64x128) hz4 inb_S64x128_S64x128_0_0 y

/-- A store of a whole 64 x 128 buffer, last, leaves its payload, whatever the buffer held and whatever was stored
    before. -/
theorem read_store4 {κ : Kind} {sp : Space} (v : View sig κ sp S64x128 .f32) (f : v.ty.Contents (Elt F))
    (p : Vec F S64x128 .f32) (L : List (View.Piece (Elt F) S64x128 .f32)) :
    v.read (Elt F) (v.writes (Elt F) f ((⟨rA4, p⟩ : View.Piece (Elt F) S64x128 .f32) :: L)) = p := by
  have hc : ∀ y : S64x128.Idx, ∃ pc ∈ ((⟨rA4, p⟩ : View.Piece (Elt F) S64x128 .f32) :: L), y ∈ pc.1.set :=
    fun y => ⟨(⟨rA4, p⟩ : View.Piece (Elt F) S64x128 .f32), List.mem_cons_self, mem_rA4 y⟩
  rw [View.read_writes_eq_canon v f _ hc]
  exact View.canon_cons_unit_zero (S := S64x128) hz4 inb_S64x128_S64x128_0_0 p L

set_option maxHeartbeats 1000000 in
/-- At the first point: both accumulators cleared, then updated from the cleared contents read back; the output untouched. -/
theorem sound_kernel4_first (c : Dev nD) (E : Set ℕ) (i : grid4.Coords) (hc1 : cond4_1 i) (hc2 : ¬cond4_2 i)
    (a1 : Memref sig .tc .vmem S5000x128 .f32) (h1 : a1.IsWhole) (a2 : Memref sig .tc .vmem S5000x1 .i32) (h2 : a2.IsWhole)
    (a3 : Memref sig .tc .vmem S64x128 .f32) (h3 : a3.IsWhole) (a4 : Memref sig .tc .vmem S64x128 .f32) (h4 : a4.IsWhole)
    (a5 : Memref sig .tc .vmem S64x128 .f32) (h5 : a5.IsWhole)
    (x : Vec F S5000x128 .f32) (b : Vec F S5000x1 .i32) (o s n : Vec F S64x128 .f32) (K : PUnit → sProp 𝕄) :
    iprop(owns (c : Thread nD τ) a1 fullShare x ∗ owns (c : Thread nD τ) a2 fullShare b ∗ owns (c : Thread nD τ) a3 fullShare o
        ∗ (∃ d, owns (c : Thread nD τ) a4 fullShare d) ∗ (∃ d, owns (c : Thread nD τ) a5 fullShare d)
        ∗ (iprop(owns (c : Thread nD τ) a1 fullShare x ∗ owns (c : Thread nD τ) a2 fullShare b ∗ owns (c : Thread nD τ) a3 fullShare o
            ∗ owns (c : Thread nD τ) a4 fullShare (k4_pay4 b x (k4_pay1 (F := F))) ∗ owns (c : Thread nD τ) a5 fullShare (k4_pay5 b (k4_pay2 (F := F)))) -∗ K ⟨⟩))
      ⊢ wp frame (wpE (defs₀ (F := F)) Variants.none c none) E (cc4__pool_kernel i a1 h1 a2 h2 a3 h3 a4 h4 a5 h5) K := by
  simp only [cc4__pool_kernel_eq_skeleton]; unfold cc4__pool_kernel_skel
  dsimp only
  rw [dif_pos hc1, dif_neg hc2]
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_store4]
    sl_unfold_words
    simp only [View.readAt_eq_ld, View.readCov_unit_zero (S := S64x128) _ hz4, View.ld_unit_zero (S := S64x128) hz4,
      View.ld_unit_zero (S := S5000x128) hz4, View.ld_unit_zero (S := S5000x1) hz4]
  iexists _; isplitr
  swap; · iexact H5
  ipureintro
  rw [read_store4]
  sl_unfold_words
  simp only [View.readAt_eq_ld, View.readCov_unit_zero (S := S64x128) _ hz4, View.ld_unit_zero (S := S64x128) hz4,
      View.ld_unit_zero (S := S5000x128) hz4, View.ld_unit_zero (S := S5000x1) hz4]

set_option maxHeartbeats 1000000 in
/-- At a point that is neither first nor last: both accumulators updated from what they held, the output untouched. -/
theorem sound_kernel4_mid (c : Dev nD) (E : Set ℕ) (i : grid4.Coords) (hc1 : ¬cond4_1 i) (hc2 : ¬cond4_2 i)
    (a1 : Memref sig .tc .vmem S5000x128 .f32) (h1 : a1.IsWhole) (a2 : Memref sig .tc .vmem S5000x1 .i32) (h2 : a2.IsWhole)
    (a3 : Memref sig .tc .vmem S64x128 .f32) (h3 : a3.IsWhole) (a4 : Memref sig .tc .vmem S64x128 .f32) (h4 : a4.IsWhole)
    (a5 : Memref sig .tc .vmem S64x128 .f32) (h5 : a5.IsWhole)
    (x : Vec F S5000x128 .f32) (b : Vec F S5000x1 .i32) (o s n : Vec F S64x128 .f32) (K : PUnit → sProp 𝕄) :
    iprop(owns (c : Thread nD τ) a1 fullShare x ∗ owns (c : Thread nD τ) a2 fullShare b ∗ owns (c : Thread nD τ) a3 fullShare o
        ∗ owns (c : Thread nD τ) a4 fullShare s ∗ owns (c : Thread nD τ) a5 fullShare n
        ∗ (iprop(owns (c : Thread nD τ) a1 fullShare x ∗ owns (c : Thread nD τ) a2 fullShare b ∗ owns (c : Thread nD τ) a3 fullShare o
            ∗ owns (c : Thread nD τ) a4 fullShare (k4_pay4 b x s) ∗ owns (c : Thread nD τ) a5 fullShare (k4_pay5 b n)) -∗ K ⟨⟩))
      ⊢ wp frame (wpE (defs₀ (F := F)) Variants.none c none) E (cc4__pool_kernel i a1 h1 a2 h2 a3 h3 a4 h4 a5 h5) K := by
  simp only [cc4__pool_kernel_eq_skeleton]; unfold cc4__pool_kernel_skel
  dsimp only
  rw [dif_neg hc1, dif_neg hc2]
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [read_store4]
    simp only [View.readAt_eq_ld, View.readCov_unit_zero (S := S64x128) _ hz4, View.ld_unit_zero (S := S64x128) hz4,
      View.ld_unit_zero (S := S5000x128) hz4, View.ld_unit_zero (S := S5000x1) hz4]
  iexists _; isplitr
  swap; · iexact H5
  ipureintro
  sl_unfold_words
  rw [read_store4]
  simp only [View.readAt_eq_ld, View.readCov_unit_zero (S := S64x128) _ hz4, View.ld_unit_zero (S := S64x128) hz4,
      View.ld_unit_zero (S := S5000x128) hz4, View.ld_unit_zero (S := S5000x1) hz4]

set_option maxHeartbeats 1000000 in
/-- At the last point: both accumulators updated, then read back and their quotient stored into the output. -/
theorem sound_kernel4_last (c : Dev nD) (E : Set ℕ) (i : grid4.Coords) (hc1 : ¬cond4_1 i) (hc2 : cond4_2 i)
    (a1 : Memref sig .tc .vmem S5000x128 .f32) (h1 : a1.IsWhole) (a2 : Memref sig .tc .vmem S5000x1 .i32) (h2 : a2.IsWhole)
    (a3 : Memref sig .tc .vmem S64x128 .f32) (h3 : a3.IsWhole) (a4 : Memref sig .tc .vmem S64x128 .f32) (h4 : a4.IsWhole)
    (a5 : Memref sig .tc .vmem S64x128 .f32) (h5 : a5.IsWhole)
    (x : Vec F S5000x128 .f32) (b : Vec F S5000x1 .i32) (o s n : Vec F S64x128 .f32) (K : PUnit → sProp 𝕄) :
    iprop(owns (c : Thread nD τ) a1 fullShare x ∗ owns (c : Thread nD τ) a2 fullShare b ∗ (∃ d, owns (c : Thread nD τ) a3 fullShare d)
        ∗ owns (c : Thread nD τ) a4 fullShare s ∗ owns (c : Thread nD τ) a5 fullShare n
        ∗ (iprop(owns (c : Thread nD τ) a1 fullShare x ∗ owns (c : Thread nD τ) a2 fullShare b ∗ owns (c : Thread nD τ) a3 fullShare (k4_pay6 (k4_pay4 b x s) (k4_pay5 b n))
            ∗ owns (c : Thread nD τ) a4 fullShare (k4_pay4 b x s) ∗ owns (c : Thread nD τ) a5 fullShare (k4_pay5 b n)) -∗ K ⟨⟩))
      ⊢ wp frame (wpE (defs₀ (F := F)) Variants.none c none) E (cc4__pool_kernel i a1 h1 a2 h2 a3 h3 a4 h4 a5 h5) K := by
  simp only [cc4__pool_kernel_eq_skeleton]; unfold cc4__pool_kernel_skel
  dsimp only
  rw [dif_neg hc1, dif_pos hc2]
  unfold owns
  iintro ⟨⟨%f1, %hf1, H1⟩, ⟨%f2, %hf2, H2⟩, ⟨%d3, %f3, -, H3⟩, ⟨%f4, %hf4, H4⟩, ⟨%f5, %hf5, H5⟩, Hk⟩
  subst hf1; subst hf2; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_store4]
    sl_unfold_words
    simp only [View.readAt_eq_ld, View.readCov_unit_zero (S := S64x128) _ hz4, View.ld_unit_zero (S := S64x128) hz4,
      View.ld_unit_zero (S := S5000x128) hz4, View.ld_unit_zero (S := S5000x1) hz4]
  isplitl [H4]
  · iexists _; isplitr
    swap; · iexact H4
    ipureintro
    sl_unfold_words
    rw [read_store4]
    simp only [View.readAt_eq_ld, View.readCov_unit_zero (S := S64x128) _ hz4, View.ld_unit_zero (S := S64x128) hz4,
      View.ld_unit_zero (S := S5000x128) hz4, View.ld_unit_zero (S := S5000x1) hz4]
  iexists _; isplitr
  swap; · iexact H5
  ipureintro
  sl_unfold_words
  rw [read_store4]
  simp only [View.readAt_eq_ld, View.readCov_unit_zero (S := S64x128) _ hz4, View.ld_unit_zero (S := S64x128) hz4,
      View.ld_unit_zero (S := S5000x128) hz4, View.ld_unit_zero (S := S5000x1) hz4]

/-! ## The accumulation and the invariant, point by point -/

theorem sAcc_zero (hb : ℕ → Vec F S5000x128 .f32) (bb : ℕ → Vec F S5000x1 .i32) (n : ℕ) (hz : n = 0) :
    sAcc hb bb n = k4_pay4 (bb n) (hb n) (k4_pay1 (F := F)) := by subst hz; rfl
theorem sAcc_pos (hb : ℕ → Vec F S5000x128 .f32) (bb : ℕ → Vec F S5000x1 .i32) (n : ℕ) (hz : n ≠ 0) :
    sAcc hb bb n = k4_pay4 (bb n) (hb n) (sAcc hb bb (n - 1)) := by
  cases n with
  | zero => exact absurd rfl hz
  | succ n => rfl
theorem cAcc_zero (bb : ℕ → Vec F S5000x1 .i32) (n : ℕ) (hz : n = 0) :
    cAcc bb n = k4_pay5 (bb n) (k4_pay2 (F := F)) := by subst hz; rfl
theorem cAcc_pos (bb : ℕ → Vec F S5000x1 .i32) (n : ℕ) (hz : n ≠ 0) :
    cAcc bb n = k4_pay5 (bb n) (cAcc bb (n - 1)) := by
  cases n with
  | zero => exact absurd rfl hz
  | succ n => rfl

theorem PhiS_zero (c : Dev nD) (n : ℕ) (hz : n = 0) : PhiS V c n = Pipeline.ΦA spec4 c := by subst hz; rfl
theorem PhiS_succ (c : Dev nD) (n : ℕ) :
    PhiS V c (n + 1) = iprop(owns (c : Thread nD τ) scS fullShare (sAcc (hblk V c) (bblk V c) n)
      ∗ owns (c : Thread nD τ) scC fullShare (cAcc (bblk V c) n)
      ∗ Pipeline.scopedRestBut (Ix := Unit) (Name := ℕ) (U := UR sig nD τ) (Lvl := ℕ) (Val := Elt F) spec4 c [cc4_scratch0, cc4_scratch1]
      ∗ ∃ r, prngReg c r) := rfl
theorem PhiS_pos (c : Dev nD) (n : ℕ) (hz : n ≠ 0) :
    PhiS V c n = iprop(owns (c : Thread nD τ) scS fullShare (sAcc (hblk V c) (bblk V c) (n - 1))
      ∗ owns (c : Thread nD τ) scC fullShare (cAcc (bblk V c) (n - 1))
      ∗ Pipeline.scopedRestBut (Ix := Unit) (Name := ℕ) (U := UR sig nD τ) (Lvl := ℕ) (Val := Elt F) spec4 c [cc4_scratch0, cc4_scratch1]
      ∗ ∃ r, prngReg c r) := by
  cases n with
  | zero => exact absurd rfl hz
  | succ n => rfl

/-- The blocks of the point numbered by a grid point are that point's. -/
theorem hblk_eq (c : Dev nD) (t : Fin cfg4.N) : hblk V c t.val = iblk4 V c 0 t := by
  have e : (⟨t.val % cfg4.N, Nat.mod_lt _ N4_pos⟩ : Fin cfg4.N) = t := Fin.ext (Nat.mod_eq_of_lt t.isLt)
  unfold hblk; rw [e]
theorem bblk_eq (c : Dev nD) (t : Fin cfg4.N) : bblk V c t.val = iblk4 V c 1 t := by
  have e : (⟨t.val % cfg4.N, Nat.mod_lt _ N4_pos⟩ : Fin cfg4.N) = t := Fin.ext (Nat.mod_eq_of_lt t.isLt)
  unfold bblk; rw [e]

/-- An input window's current staging buffer holds its block of the array at every point (both are fetched at every
    point). -/
theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]) t d).trans
    (by unfold Dat.fetched Dat.blockOf iblk4; rw [A_eq4]; try rfl)

/-! ## The body obligation -/

set_option maxHeartbeats 4000000 in
/-- The body at any point: the inputs' buffers hold their blocks; the point is the first, the last, or neither, which
    decides the two conditionals; the invariant hands the body the accumulators at what the point before left (at
    anything at the first point) and takes them back at this point's contents; where the output is idle its buffer
    goes back as found, at the last point it holds the pooled means. -/
theorem sound_body4 (c : Dev nD) (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d)))
    ⊢ wp frame (wpE (defs₀ (F := F)) Variants.none c none) Set.univ (bodyAt4 t) (fun _ =>
      iprop((dat4 V c).Φ t.succ ∗ (dat4 V c).owesAt () t.succ
        ∗ (dat4 V c).leavesExact 0 t ∗ (dat4 V c).leavesExact 1 t ∗ (dat4 V c).leavesExact 2 t)) := by
  simp only [before4_0, before4_1]
  rw [show (dat4 V c).owesAt () t.succ = (dat4 V c).owesAt () t.castSucc from rfl]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [Phi4, Phi4, Fin.coe_castSucc, Fin.val_succ, PhiS_succ]
  have hN : t.val < 10 := lt_of_lt_of_eq t.isLt N_4
  by_cases h0 : t.val = 0
  · have hc1 : cond4_1 (grid4.coords t) := (hcond4_1 t).mpr h0
    have hc2 : ¬cond4_2 (grid4.coords t) := fun h => by have := (hcond4_2 t).mp h; omega
    rw [Dat.leavesExact_idle (dat4 V c) 2 t (idleAt4_2 t hc2) (noFlush4_2 t hc2)]
    rw [PhiS_zero V c _ h0, PhiA4_eq, sAcc_zero _ _ _ h0, cAcc_zero _ _ h0, hblk_eq, bblk_eq]
    iintro ⟨⟨⟨⟨HS, HC⟩, HR⟩, Hg⟩, Ho, ⟨%d0, H0⟩, ⟨%d1, H1⟩, ⟨%d2, H2⟩⟩
    iapply (sound_kernel4_first c Set.univ _ hc1 hc2 _ _ _ _ _ _ _ _ _ _ (iblk4 V c 0 t) (iblk4 V c 1 t) _ (k4_pay1 (F := F)) (k4_pay1 (F := F)) _)
    isplitl [H0]; · iexact H0
    isplitl [H1]; · iexact H1
    isplitl [H2]; · iexact H2
    isplitl [HS]; · iexact HS
    isplitl [HC]; · iexact HC
    iintro ⟨H0, H1, H2, HS, HC⟩
    isplitl [HS HC HR Hg]
    · isplitl [HS]; · iexact HS
      isplitl [HC]; · iexact HC
      isplitl [HR]; · iexact HR
      iexact Hg
    isplitl [Ho]; · iexact Ho
    isplitl [H0]; · iexact H0
    isplitl [H1]; · iexact H1
    iexists _; iexact H2
  · have hc1 : ¬cond4_1 (grid4.coords t) := fun h => h0 ((hcond4_1 t).mp h)
    rw [PhiS_pos V c _ h0, sAcc_pos _ _ _ h0, cAcc_pos _ _ h0, hblk_eq, bblk_eq]
    by_cases h9 : t.val = 9
    · have hc2 : cond4_2 (grid4.coords t) := (hcond4_2 t).mpr h9
      rw [show (dat4 V c).leavesExact 2 t = owns (c : Thread nD τ) (st4_2 t) fullShare ((dat4 V c).after 2 t) from by
        unfold Dat.leavesExact; rw [liveAt4_2 t hc2], after4_2]
      have hp : poolOut (hblk V c) (bblk V c)
          = k4_pay6 (k4_pay4 (iblk4 V c 1 t) (iblk4 V c 0 t) (sAcc (hblk V c) (bblk V c) (t.val - 1)))
              (k4_pay5 (iblk4 V c 1 t) (cAcc (bblk V c) (t.val - 1))) := by
        unfold poolOut; rw [← h9, sAcc_pos _ _ _ h0, cAcc_pos _ _ h0, hblk_eq, bblk_eq]
      rw [hp]
      iintro ⟨⟨HS, HC, HR, Hg⟩, Ho, ⟨%d0, H0⟩, ⟨%d1, H1⟩, ⟨%d2, H2⟩⟩
      iapply (sound_kernel4_last c Set.univ _ hc1 hc2 _ _ _ _ _ _ _ _ _ _ (iblk4 V c 0 t) (iblk4 V c 1 t) (k4_pay1 (F := F)) _ _ _)
      isplitl [H0]; · iexact H0
      isplitl [H1]; · iexact H1
      isplitl [H2]; · iexists _; iexact H2
      isplitl [HS]; · iexact HS
      isplitl [HC]; · iexact HC
      iintro ⟨H0, H1, H2, HS, HC⟩
      isplitl [HS HC HR Hg]
      · isplitl [HS]; · iexact HS
        isplitl [HC]; · iexact HC
        isplitl [HR]; · iexact HR
        iexact Hg
      isplitl [Ho]; · iexact Ho
      isplitl [H0]; · iexact H0
      isplitl [H1]; · iexact H1
      iexact H2
    · have hc2 : ¬cond4_2 (grid4.coords t) := fun h => h9 ((hcond4_2 t).mp h)
      rw [Dat.leavesExact_idle (dat4 V c) 2 t (idleAt4_2 t hc2) (noFlush4_2 t hc2)]
      iintro ⟨⟨HS, HC, HR, Hg⟩, Ho, ⟨%d0, H0⟩, ⟨%d1, H1⟩, ⟨%d2, H2⟩⟩
      iapply (sound_kernel4_mid c Set.univ _ hc1 hc2 _ _ _ _ _ _ _ _ _ _ (iblk4 V c 0 t) (iblk4 V c 1 t) _ _ _ _)
      isplitl [H0]; · iexact H0
      isplitl [H1]; · iexact H1
      isplitl [H2]; · iexact H2
      isplitl [HS]; · iexact HS
      isplitl [HC]; · iexact HC
      iintro ⟨H0, H1, H2, HS, HC⟩
      isplitl [HS HC HR Hg]
      · isplitl [HS]; · iexact HS
        isplitl [HC]; · iexact HC
        isplitl [HR]; · iexact HR
        iexact Hg
      isplitl [Ho]; · iexact Ho
      isplitl [H0]; · iexact H0
      isplitl [H1]; · iexact H1
      iexists _; iexact H2

/-- The body obligation of region 4 at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KernelIdeal.Fold.lean ====
/-
  The contents of core c's unscoped buffers at each boundary between two items of @main, as a fold from the launch
  memory: a stretch of host operations is applied to what the item before left; a region leaves its output's array at
  what its ten write-backs fold to and every other buffer as it found it. Each region's proof data is taken at the
  contents the region is entered from. The unknowns of the program's conditional frame (what each region leaves in
  the one buffer it may change) are instantiated with this fold's values, and the frame's own valuations are then
  this fold.
-/
import proofs.«418164_j56556129354064_1_alg».proof.Proof.Gen.KernelIdeal.Launch
import proofs.«418164_j56556129354064_1_alg».proof.Proof.Gen.KernelIdeal.Skeleton
import proofs.«418164_j56556129354064_1_alg».proof.Proof.Gen.KernelIdeal.Points
import proofs.«418164_j56556129354064_1_alg».proof.Proof.Gen.KernelIdeal.Regions
import proofs.«418164_j56556129354064_1_alg».proof.Proof.KernelIdeal.Region0
import proofs.«418164_j56556129354064_1_alg».proof.Proof.KernelIdeal.Region1
import proofs.«418164_j56556129354064_1_alg».proof.Proof.KernelIdeal.Region2
import proofs.«418164_j56556129354064_1_alg».proof.Proof.KernelIdeal.Region3
import proofs.«418164_j56556129354064_1_alg».proof.Proof.KernelIdeal.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation of core c's buffers read at the TensorCore's own references: the form a region's proof data takes. -/
abbrev tcOf (W : Dev nD → Valuation τ sig (Elt F)) : (c : Dev nD) → (b : Ref sig .tc) → Buf (Elt F) ((c : Thread nD τ).loc b) :=
  fun c b => W c b

/-- Entering region 0: the launch memory through the three first stretches of host operations. -/
abbrev W3 : Dev nD → Valuation τ sig (Elt F) := fun c => Gen.V3 m c
/-- What region 0 leaves in its output's array. -/
def res0 (c : Dev nD) : Buf (Elt F) ((c : Thread nD τ).loc main_v34) := (dat0 (tcOf (W3 m)) c).arrAt 2 cfg0.N
/-- Leaving region 0. -/
def W4 (c : Dev nD) : Valuation τ sig (Elt F) := Function.update (W3 m c) main_v34 (res0 m c)
/-- Entering region 1. -/
def W5 (c : Dev nD) : Valuation τ sig (Elt F) := StableHlo.after hostOps1 (W4 m c)
def res1 (c : Dev nD) : Buf (Elt F) ((c : Thread nD τ).loc main_v47) := (dat1 (tcOf (W5 m)) c).arrAt 3 cfg1.N
def W6 (c : Dev nD) : Valuation τ sig (Elt F) := Function.update (W5 m c) main_v47 (res1 m c)
/-- Entering region 2. -/
def W7 (c : Dev nD) : Valuation τ sig (Elt F) := StableHlo.after hostOps2 (W6 m c)
def res2 (c : Dev nD) : Buf (Elt F) ((c : Thread nD τ).loc main_v60) := (dat2 (tcOf (W7 m)) c).arrAt 3 cfg2.N
def W8 (c : Dev nD) : Valuation τ sig (Elt F) := Function.update (W7 m c) main_v60 (res2 m c)
/-- Entering region 3. -/
def W9 (c : Dev nD) : Valuation τ sig (Elt F) := StableHlo.after hostOps3 (W8 m c)
def res3 (c : Dev nD) : Buf (Elt F) ((c : Thread nD τ).loc main_v73) := (dat3 (tcOf (W9 m)) c).arrAt 2 cfg3.N
def W10 (c : Dev nD) : Valuation τ sig (Elt F) := Function.update (W9 m c) main_v73 (res3 m c)
/-- Entering region 4. -/
def W11 (c : Dev nD) : Valuation τ sig (Elt F) := StableHlo.after hostOps4 (W10 m c)
def res4 (c : Dev nD) : Buf (Elt F) ((c : Thread nD τ).loc main_v75) := (dat4 (tcOf (W11 m)) c).arrAt 2 cfg4.N
/-- At @main's return. -/
def W12 (c : Dev nD) : Valuation τ sig (Elt F) := Function.update (W11 m c) main_v75 (res4 m c)

/-- What the regions leave, for the program's conditional frame: after each region, this fold's contents. -/
def outs : Gen.Outs (F := F) := fun J r c =>
  match J with
  | 4 => W4 m c r
  | 6 => W6 m c r
  | 8 => W8 m c r
  | 10 => W10 m c r
  | 12 => W12 m c r
  | _ => W3 m c r

/-! ## The conditional frame's valuations are this fold -/

theorem V4_eq (c : Dev nD) : Gen.V4 m (outs m) c = W4 m c := by
  show Function.update (Gen.V3 m c) main_v34 (W4 m c main_v34) = W4 m c
  unfold W4; rw [Function.update_self]
theorem V5_eq (c : Dev nD) : Gen.V5 m (outs m) c = W5 m c := by
  show StableHlo.after hostOps1 (Gen.V4 m (outs m) c) = W5 m c
  rw [V4_eq]; rfl
theorem V6_eq (c : Dev nD) : Gen.V6 m (outs m) c = W6 m c := by
  show Function.update (Gen.V5 m (outs m) c) main_v47 (W6 m c main_v47) = W6 m c
  rw [V5_eq]; unfold W6; rw [Function.update_self]
theorem V7_eq (c : Dev nD) : Gen.V7 m (outs m) c = W7 m c := by
  show StableHlo.after hostOps2 (Gen.V6 m (outs m) c) = W7 m c
  rw [V6_eq]; rfl
theorem V8_eq (c : Dev nD) : Gen.V8 m (outs m) c = W8 m c := by
  show Function.update (Gen.V7 m (outs m) c) main_v60 (W8 m c main_v60) = W8 m c
  rw [V7_eq]; unfold W8; rw [Function.update_self]
theorem V9_eq (c : Dev nD) : Gen.V9 m (outs m) c = W9 m c := by
  show StableHlo.after hostOps3 (Gen.V8 m (outs m) c) = W9 m c
  rw [V8_eq]; rfl
theorem V10_eq (c : Dev nD) : Gen.V10 m (outs m) c = W10 m c := by
  show Function.update (Gen.V9 m (outs m) c) main_v73 (W10 m c main_v73) = W10 m c
  rw [V9_eq]; unfold W10; rw [Function.update_self]
theorem V11_eq (c : Dev nD) : Gen.V11 m (outs m) c = W11 m c := by
  show StableHlo.after hostOps4 (Gen.V10 m (outs m) c) = W11 m c
  rw [V10_eq]; rfl
theorem V12_eq (c : Dev nD) : Gen.V12 m (outs m) c = W12 m c := by
  show Function.update (Gen.V11 m (outs m) c) main_v75 (W12 m c main_v75) = W12 m c
  rw [V11_eq]; unfold W12; rw [Function.update_self]

/-! ## Every pipeline's proof data, each at its region's entry contents -/

/-- A literal match on the pipeline's index, so that the launch's pinned configuration at a numeral reduces to the
    printed one. -/
def pdats : (p : Fin 5) → (c : Dev nD) → Dat τ (Elt F) Unit ℕ (UR sig nD τ) ℕ (Pipeline.pin (pcfgs (F := F)) Gen.adm p) c
  | ⟨0, _⟩ => fun c => dat0 (tcOf (W3 m)) c
  | ⟨1, _⟩ => fun c => dat1 (tcOf (W5 m)) c
  | ⟨2, _⟩ => fun c => dat2 (tcOf (W7 m)) c
  | ⟨3, _⟩ => fun c => dat3 (tcOf (W9 m)) c
  | ⟨4, _⟩ => fun c => dat4 (tcOf (W11 m)) c

/-- What rides beside the buffers through every item: the generator register at some state and the core owing nothing. -/
abbrev Rr (c : Dev nD) : sProp 𝕄 := iprop((∃ r, prngReg c r) ∗ ∃ W, owes (c : Thread nD τ) (0 : CellTallies nD τ sig Unit) W)

/-- No core owes another anything: no level is assigned. -/
abbrev Lz : GSem nD τ sig → Finset Unit := fun _ => ∅
abbrev lvz : GSem nD τ sig → Unit → ℕ := fun _ _ => 0

end Cert.KernelIdeal.Hand

end
-- ==== Proof.KernelIdeal.Reg0.lean ====
/-
  Region 0 of @main as a segment of the launch: entered from every unscoped buffer at the contents the fold gives
  before it, left at the contents the fold gives after it.
-/
import proofs.«418164_j56556129354064_1_alg».proof.Proof.Gen.KernelIdeal.Launch
import proofs.«418164_j56556129354064_1_alg».proof.Proof.Gen.KernelIdeal.Skeleton
import proofs.«418164_j56556129354064_1_alg».proof.Proof.Gen.KernelIdeal.Points
import proofs.«418164_j56556129354064_1_alg».proof.Proof.Gen.KernelIdeal.Regions
import proofs.«418164_j56556129354064_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Region 0 -/

/-- Leaving region 0, a buffer other than its output's array holds what it held on entry. -/
theorem W4_of (c : Dev nD) (r : Ref sig .tc) (h : r ∉ ([main_v34] : List (Ref sig .tc))) : W4 m c r = W3 m c r :=
  (congrFun (V4_eq m c).symm _).trans ((Gen.V4_of m (outs m) c r h).trans (rfl))

/-- Each of region 0's arrays, after the region, holds what the fold says. -/
theorem hF0 (c : Dev nD) (w : Fin cfg0.W) :
    (dat0 (tcOf (W3 m)) c).arrAt w cfg0.N = tcOf (W4 m) c (Pipeline.arrRef spec0 w) :=
  match w with
    | ⟨0, _⟩ => (((dat0 (tcOf (W3 m)) c).arrAt_in 0 rfl _).trans (A_eq0 (tcOf (W3 m)) c 0)).trans (W4_of m c main_arg0 (by decide)).symm
    | ⟨1, _⟩ => (((dat0 (tcOf (W3 m)) c).arrAt_in 1 rfl _).trans (A_eq0 (tcOf (W3 m)) c 1)).trans (W4_of m c main_arg3 (by decide)).symm
    | ⟨2, _⟩ => by unfold W4; exact (Function.update_self (Proc.devRef .tc main_v34 : DevRef τ sig) (res0 m c) (W3 m c)).symm

theorem hrest0 (c : Dev nD) : ∀ b, b ∉ Finset.univ.image (Pipeline.arrRef spec0) → tcOf (W4 m) c b = tcOf (W3 m) c b :=
  fun b hb => W4_of m c b fun hmem => hb (by
    rw [List.mem_singleton] at hmem; subst hmem
    exact Finset.mem_image.mpr ⟨2, Finset.mem_univ _, rfl⟩)

set_option backward.isDefEq.respectTransparency.types false in
/-- Region 0 over the thread state "every unscoped buffer at the fold's contents, the generator register at some
    state, nothing owed": its arrays are split out of the unscoped buffers on entry and put back at the exit contents;
    the generator register goes into the region's invariant and comes back; the kernel has no semaphore of its own. -/
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (tcOf (W3 m)) c).loose
  hwaits := Pipeline.hwaits_of_owed_zero _ _ _ _ Lz lvz 0 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec0 c (tcOf (W3 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (tcOf (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (tcOf (W3 m) c) (tcOf (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Reg1.lean ====
/-
  Region 1 of @main as a segment of the launch: entered from every unscoped buffer at the contents the fold gives
  before it, left at the contents the fold gives after it.
-/
import proofs.«418164_j56556129354064_1_alg».proof.Proof.Gen.KernelIdeal.Launch
import proofs.«418164_j56556129354064_1_alg».proof.Proof.Gen.KernelIdeal.Skeleton
import proofs.«418164_j56556129354064_1_alg».proof.Proof.Gen.KernelIdeal.Points
import proofs.«418164_j56556129354064_1_alg».proof.Proof.Gen.KernelIdeal.Regions
import proofs.«418164_j56556129354064_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Region 1 -/

/-- Leaving region 1, a buffer other than its output's array holds what it held on entry. -/
theorem W6_of (c : Dev nD) (r : Ref sig .tc) (h : r ∉ ([main_v47] : List (Ref sig .tc))) : W6 m c r = W5 m c r :=
  (congrFun (V6_eq m c).symm _).trans ((Gen.V6_of m (outs m) c r h).trans (congrFun (V5_eq m c) _))

/-- Each of region 1's arrays, after the region, holds what the fold says. -/
theorem hF1 (c : Dev nD) (w : Fin cfg1.W) :
    (dat1 (tcOf (W5 m)) c).arrAt w cfg1.N = tcOf (W6 m) c (Pipeline.arrRef spec1 w) :=
  match w with
    | ⟨0, _⟩ => (((dat1 (tcOf (W5 m)) c).arrAt_in 0 rfl _).trans (A_eq1 (tcOf (W5 m)) c 0)).trans (W6_of m c main_v46 (by decide)).symm
    | ⟨1, _⟩ => (((dat1 (tcOf (W5 m)) c).arrAt_in 1 rfl _).trans (A_eq1 (tcOf (W5 m)) c 1)).trans (W6_of m c main_v31 (by decide)).symm
    | ⟨2, _⟩ => (((dat1 (tcOf (W5 m)) c).arrAt_in 2 rfl _).trans (A_eq1 (tcOf (W5 m)) c 2)).trans (W6_of m c main_arg5 (by decide)).symm
    | ⟨3, _⟩ => by unfold W6; exact (Function.update_self (Proc.devRef .tc main_v47 : DevRef τ sig) (res1 m c) (W5 m c)).symm

theorem hrest1 (c : Dev nD) : ∀ b, b ∉ Finset.univ.image (Pipeline.arrRef spec1) → tcOf (W6 m) c b = tcOf (W5 m) c b :=
  fun b hb => W6_of m c b fun hmem => hb (by
    rw [List.mem_singleton] at hmem; subst hmem
    exact Finset.mem_image.mpr ⟨3, Finset.mem_univ _, rfl⟩)

set_option backward.isDefEq.respectTransparency.types false in
/-- Region 1 over the thread state "every unscoped buffer at the fold's contents, the generator register at some
    state, nothing owed": its arrays are split out of the unscoped buffers on entry and put back at the exit contents;
    the generator register goes into the region's invariant and comes back; the kernel has no semaphore of its own. -/
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (tcOf (W5 m)) c).loose
  hwaits := Pipeline.hwaits_of_owed_zero _ _ _ _ Lz lvz 1 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec1 c (tcOf (W5 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (tcOf (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (tcOf (W5 m) c) (tcOf (W6 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Reg2.lean ====
/-
  Region 2 of @main as a segment of the launch: entered from every unscoped buffer at the contents the fold gives
  before it, left at the contents the fold gives after it.
-/
import proofs.«418164_j56556129354064_1_alg».proof.Proof.Gen.KernelIdeal.Launch
import proofs.«418164_j56556129354064_1_alg».proof.Proof.Gen.KernelIdeal.Skeleton
import proofs.«418164_j56556129354064_1_alg».proof.Proof.Gen.KernelIdeal.Points
import proofs.«418164_j56556129354064_1_alg».proof.Proof.Gen.KernelIdeal.Regions
import proofs.«418164_j56556129354064_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Region 2 -/

/-- Leaving region 2, a buffer other than its output's array holds what it held on entry. -/
theorem W8_of (c : Dev nD) (r : Ref sig .tc) (h : r ∉ ([main_v60] : List (Ref sig .tc))) : W8 m c r = W7 m c r :=
  (congrFun (V8_eq m c).symm _).trans ((Gen.V8_of m (outs m) c r h).trans (congrFun (V7_eq m c) _))

/-- Each of region 2's arrays, after the region, holds what the fold says. -/
theorem hF2 (c : Dev nD) (w : Fin cfg2.W) :
    (dat2 (tcOf (W7 m)) c).arrAt w cfg2.N = tcOf (W8 m) c (Pipeline.arrRef spec2 w) :=
  match w with
    | ⟨0, _⟩ => (((dat2 (tcOf (W7 m)) c).arrAt_in 0 rfl _).trans (A_eq2 (tcOf (W7 m)) c 0)).trans (W8_of m c main_v59 (by decide)).symm
    | ⟨1, _⟩ => (((dat2 (tcOf (W7 m)) c).arrAt_in 1 rfl _).trans (A_eq2 (tcOf (W7 m)) c 1)).trans (W8_of m c main_v32 (by decide)).symm
    | ⟨2, _⟩ => (((dat2 (tcOf (W7 m)) c).arrAt_in 2 rfl _).trans (A_eq2 (tcOf (W7 m)) c 2)).trans (W8_of m c main_arg7 (by decide)).symm
    | ⟨3, _⟩ => by unfold W8; exact (Function.update_self (Proc.devRef .tc main_v60 : DevRef τ sig) (res2 m c) (W7 m c)).symm

theorem hrest2 (c : Dev nD) : ∀ b, b ∉ Finset.univ.image (Pipeline.arrRef spec2) → tcOf (W8 m) c b = tcOf (W7 m) c b :=
  fun b hb => W8_of m c b fun hmem => hb (by
    rw [List.mem_singleton] at hmem; subst hmem
    exact Finset.mem_image.mpr ⟨3, Finset.mem_univ _, rfl⟩)

set_option backward.isDefEq.respectTransparency.types false in
/-- Region 2 over the thread state "every unscoped buffer at the fold's contents, the generator register at some
    state, nothing owed": its arrays are split out of the unscoped buffers on entry and put back at the exit contents;
    the generator register goes into the region's invariant and comes back; the kernel has no semaphore of its own. -/
def reg2 : Pipeline.RegionSeg (pcfgs (F := F)) Gen.adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (tcOf (W7 m)) c).loose
  hwaits := Pipeline.hwaits_of_owed_zero _ _ _ _ Lz lvz 2 fun _ _ => rfl
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec2 c (tcOf (W7 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (tcOf (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (tcOf (W7 m) c) (tcOf (W8 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Reg3.lean ====
/-
  Region 3 of @main as a segment of the launch: entered from every unscoped buffer at the contents the fold gives
  before it, left at the contents the fold gives after it.
-/
import proofs.«418164_j56556129354064_1_alg».proof.Proof.Gen.KernelIdeal.Launch
import proofs.«418164_j56556129354064_1_alg».proof.Proof.Gen.KernelIdeal.Skeleton
import proofs.«418164_j56556129354064_1_alg».proof.Proof.Gen.KernelIdeal.Points
import proofs.«418164_j56556129354064_1_alg».proof.Proof.Gen.KernelIdeal.Regions
import proofs.«418164_j56556129354064_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Region 3 -/

/-- Leaving region 3, a buffer other than its output's array holds what it held on entry. -/
theorem W10_of (c : Dev nD) (r : Ref sig .tc) (h : r ∉ ([main_v73] : List (Ref sig .tc))) : W10 m c r = W9 m c r :=
  (congrFun (V10_eq m c).symm _).trans ((Gen.V10_of m (outs m) c r h).trans (congrFun (V9_eq m c) _))

/-- Each of region 3's arrays, after the region, holds what the fold says. -/
theorem hF3 (c : Dev nD) (w : Fin cfg3.W) :
    (dat3 (tcOf (W9 m)) c).arrAt w cfg3.N = tcOf (W10 m) c (Pipeline.arrRef spec3 w) :=
  match w with
    | ⟨0, _⟩ => (((dat3 (tcOf (W9 m)) c).arrAt_in 0 rfl _).trans (A_eq3 (tcOf (W9 m)) c 0)).trans (W10_of m c main_v72 (by decide)).symm
    | ⟨1, _⟩ => (((dat3 (tcOf (W9 m)) c).arrAt_in 1 rfl _).trans (A_eq3 (tcOf (W9 m)) c 1)).trans (W10_of m c main_v33 (by decide)).symm
    | ⟨2, _⟩ => by unfold W10; exact (Function.update_self (Proc.devRef .tc main_v73 : DevRef τ sig) (res3 m c) (W9 m c)).symm

theorem hrest3 (c : Dev nD) : ∀ b, b ∉ Finset.univ.image (Pipeline.arrRef spec3) → tcOf (W10 m) c b = tcOf (W9 m) c b :=
  fun b hb => W10_of m c b fun hmem => hb (by
    rw [List.mem_singleton] at hmem; subst hmem
    exact Finset.mem_image.mpr ⟨2, Finset.mem_univ _, rfl⟩)

set_option backward.isDefEq.respectTransparency.types false in
/-- Region 3 over the thread state "every unscoped buffer at the fold's contents, the generator register at some
    state, nothing owed": its arrays are split out of the unscoped buffers on entry and put back at the exit contents;
    the generator register goes into the region's invariant and comes back; the kernel has no semaphore of its own. -/
def reg3 : Pipeline.RegionSeg (pcfgs (F := F)) Gen.adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (tcOf (W9 m)) c).loose
  hwaits := Pipeline.hwaits_of_owed_zero _ _ _ _ Lz lvz 3 fun _ _ => rfl
  pre c := iprop(StableHlo.held (c : Thread nD τ) (Pipeline.ucRefs τ sig) (W9 m c) ∗ Rr c)
  post c := iprop(StableHlo.held (c : Thread nD τ) (Pipeline.ucRefs τ sig) (W10 m c) ∗ Rr c)
  X c := iprop(∃ r, prngReg c r)
  Y c := iprop(∃ r, prngReg c r)
  Z c := Pipeline.unscopedRest (Ix := Unit) (Name := ℕ) (U := UR sig nD τ) (Lvl := ℕ) spec3 c (tcOf (W9 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (tcOf (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (tcOf (W9 m) c) (tcOf (W10 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Reg4.lean ====
/-
  Region 4 of @main as a segment of the launch: entered from every unscoped buffer at the contents the fold gives
  before it, left at the contents the fold gives after it.
-/
import proofs.«418164_j56556129354064_1_alg».proof.Proof.Gen.KernelIdeal.Launch
import proofs.«418164_j56556129354064_1_alg».proof.Proof.Gen.KernelIdeal.Skeleton
import proofs.«418164_j56556129354064_1_alg».proof.Proof.Gen.KernelIdeal.Points
import proofs.«418164_j56556129354064_1_alg».proof.Proof.Gen.KernelIdeal.Regions
import proofs.«418164_j56556129354064_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Region 4 -/

/-- Leaving region 4, a buffer other than its output's array holds what it held on entry. -/
theorem W12_of (c : Dev nD) (r : Ref sig .tc) (h : r ∉ ([main_v75] : List (Ref sig .tc))) : W12 m c r = W11 m c r :=
  (congrFun (V12_eq m c).symm _).trans ((Gen.V12_of m (outs m) c r h).trans (congrFun (V11_eq m c) _))

/-- Each of region 4's arrays, after the region, holds what the fold says. -/
theorem hF4 (c : Dev nD) (w : Fin cfg4.W) :
    (dat4 (tcOf (W11 m)) c).arrAt w cfg4.N = tcOf (W12 m) c (Pipeline.arrRef spec4 w) :=
  match w with
    | ⟨0, _⟩ => (((dat4 (tcOf (W11 m)) c).arrAt_in 0 rfl _).trans (A_eq4 (tcOf (W11 m)) c 0)).trans (W12_of m c main_v73 (by decide)).symm
    | ⟨1, _⟩ => (((dat4 (tcOf (W11 m)) c).arrAt_in 1 rfl _).trans (A_eq4 (tcOf (W11 m)) c 1)).trans (W12_of m c main_v74 (by decide)).symm
    | ⟨2, _⟩ => by unfold W12; exact (Function.update_self (Proc.devRef .tc main_v75 : DevRef τ sig) (res4 m c) (W11 m c)).symm

theorem hrest4 (c : Dev nD) : ∀ b, b ∉ Finset.univ.image (Pipeline.arrRef spec4) → tcOf (W12 m) c b = tcOf (W11 m) c b :=
  fun b hb => W12_of m c b fun hmem => hb (by
    rw [List.mem_singleton] at hmem; subst hmem
    exact Finset.mem_image.mpr ⟨2, Finset.mem_univ _, rfl⟩)

set_option backward.isDefEq.respectTransparency.types false in
/-- Region 4 over the thread state "every unscoped buffer at the fold's contents, the generator register at some
    state, nothing owed": its arrays are split out of the unscoped buffers on entry and put back at the exit contents;
    the generator register goes into the region's invariant and comes back; the kernel has no semaphore of its own. -/
def reg4 : Pipeline.RegionSeg (pcfgs (F := F)) Gen.adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (tcOf (W11 m)) c).loose
  hwaits := Pipeline.hwaits_of_owed_zero _ _ _ _ Lz lvz 4 fun _ _ => rfl
  pre c := iprop(StableHlo.held (c : Thread nD τ) (Pipeline.ucRefs τ sig) (W11 m c) ∗ Rr c)
  post c := iprop(StableHlo.held (c : Thread nD τ) (Pipeline.ucRefs τ sig) (W12 m c) ∗ Rr c)
  X c := iprop(∃ r, prngReg c r)
  Y c := iprop(∃ r, prngReg c r)
  Z c := Pipeline.unscopedRest (Ix := Unit) (Name := ℕ) (U := UR sig nD τ) (Lvl := ℕ) spec4 c (tcOf (W11 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (tcOf (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA (Val := Elt F) (U := UR sig nD τ) spec4 c from ?_).trans (hin4 (tcOf (W11 m)) c)
    unfold Pipeline.ΦA
    iintro ⟨Hp, -, Hr⟩
    isplitl [Hr]; · iexact Hr
    iexact Hp
  hout c := by
    rw [Pipeline.ownSems0_none]
    refine (hout4 (tcOf (W11 m)) c).trans (show Pipeline.ΦA (Val := Elt F) (U := UR sig nD τ) spec4 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (tcOf (W11 m) c) (tcOf (W12 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Run.lean ====
/-
  The run of @main on the TensorCores: from any launch memory with zero counters every weakly fair execution
  terminates, nothing faulting, and at the return every unscoped buffer of every core holds what the fold of @main's
  items gives it: the result's array what region 4 leaves, each argument's array its launch contents.
-/
import proofs.«418164_j56556129354064_1_alg».proof.Proof.Gen.KernelIdeal.Launch
import proofs.«418164_j56556129354064_1_alg».proof.Proof.Gen.KernelIdeal.Skeleton
import proofs.«418164_j56556129354064_1_alg».proof.Proof.Gen.KernelIdeal.Points
import proofs.«418164_j56556129354064_1_alg».proof.Proof.Gen.KernelIdeal.Regions
import proofs.«418164_j56556129354064_1_alg».proof.Proof.KernelIdeal.Fold
import proofs.«418164_j56556129354064_1_alg».proof.Proof.KernelIdeal.Reg0
import proofs.«418164_j56556129354064_1_alg».proof.Proof.KernelIdeal.Reg1
import proofs.«418164_j56556129354064_1_alg».proof.Proof.KernelIdeal.Reg2
import proofs.«418164_j56556129354064_1_alg».proof.Proof.KernelIdeal.Reg3
import proofs.«418164_j56556129354064_1_alg».proof.Proof.KernelIdeal.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Two thread states that differ only in how the buffers' contents are spelt. -/
theorem held_into (c : Dev nD) {A B : Valuation τ sig (Elt F)} (h : A = B) :
    iprop(StableHlo.held (c : Thread nD τ) (Pipeline.ucRefs τ sig) A ∗ Rr (F := F) c)
      ⊢ iprop(StableHlo.held (c : Thread nD τ) (Pipeline.ucRefs τ sig) B ∗ Rr (F := F) c) := by
  subst h; exact .rfl

set_option backward.isDefEq.respectTransparency.types false in
/-- The launch over @main's twelve items: the seven stretches of host operations and the five regions, each entered
    from what the item before left; the last thread state read against the final memory. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W12 m c b) := by
  refine Pipeline.θ_run_regions_kit_dev (pcfgs (F := F)) Gen.adm (pdats m) () cellOf_inj emb₁ defs₀ Variants.none Lz lvz m ρ main
    (Gen.segs m (outs m) Variants.none Lz lvz (fun _ => Rr) () (pdats m) (reg0 m) (reg1 m) (reg2 m) (reg3 m) (reg4 m))
    (fun c Q => by
      rewrite [main_chain c, Seg.run_eq_chain,
        show ((Gen.segs m (outs m) Variants.none Lz lvz (fun _ => Rr) () (pdats m) (reg0 m) (reg1 m) (reg2 m) (reg3 m) (reg4 m)) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [Gen.segs, Seg.pipes_host, Seg.pipes_region, Seg.pipes_nil]; decide)
    (O₀ := 0) (hL := fun _ _ => rfl) (G := fun _ => iprop(emp))
    (u₀ := (initOf (Pipeline.cells cfgs cellOf_inj) (Pipeline.launchToks cfgs cellOf_inj)))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c))
    (Tₙ := fun c => iprop(StableHlo.held (c : Thread nD τ) (Pipeline.ucRefs τ sig) (W12 m c) ∗ ∃ r, prngReg c r))
    (hch := fun c => ⟨.rfl, .rfl, .rfl,
      .rfl, held_into c (V4_eq m c).symm,
      held_into c (V5_eq m c), held_into c (V6_eq m c).symm,
      held_into c (V7_eq m c), held_into c (V8_eq m c).symm,
      held_into c (V9_eq m c), held_into c (V10_eq m c).symm,
      held_into c (V11_eq m c),
      (by
        show iprop(StableHlo.held (c : Thread nD τ) (Pipeline.ucRefs τ sig) (W12 m c) ∗ Rr c)
          ⊢ iprop((StableHlo.held (c : Thread nD τ) (Pipeline.ucRefs τ sig) (W12 m c) ∗ ∃ r, prngReg c r)
              ∗ ∃ W, owes (c : Thread nD τ) (0 : CellTallies nD τ sig Unit) W)
        iintro ⟨Hh, Hp, HO⟩
        isplitl [Hh Hp]
        · isplitl [Hh]; · iexact Hh
          iexact Hp
        iexact HO)⟩)
    (hinit := by
      refine Pipeline.initEach Lz lvz fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun _ h => h)

/-! ## What the run says of the arguments and of the result -/

/-- At the return each argument's array holds its launch contents: no item of @main writes it. -/
theorem W12_arg0 (c : Dev nD) : W12 m c main_arg0 = m ((c : Thread nD τ).loc main_arg0) :=
  (congrFun (V12_eq m c).symm _).trans (Gen.V12_main_arg0 m (outs m) c)
theorem W12_arg1 (c : Dev nD) : W12 m c main_arg1 = m ((c : Thread nD τ).loc main_arg1) :=
  (congrFun (V12_eq m c).symm _).trans (Gen.V12_main_arg1 m (outs m) c)
theorem W12_arg2 (c : Dev nD) : W12 m c main_arg2 = m ((c : Thread nD τ).loc main_arg2) :=
  (congrFun (V12_eq m c).symm _).trans (Gen.V12_main_arg2 m (outs m) c)
theorem W12_arg3 (c : Dev nD) : W12 m c main_arg3 = m ((c : Thread nD τ).loc main_arg3) :=
  (congrFun (V12_eq m c).symm _).trans (Gen.V12_main_arg3 m (outs m) c)
theorem W12_arg4 (c : Dev nD) : W12 m c main_arg4 = m ((c : Thread nD τ).loc main_arg4) :=
  (congrFun (V12_eq m c).symm _).trans (Gen.V12_main_arg4 m (outs m) c)
theorem W12_arg5 (c : Dev nD) : W12 m c main_arg5 = m ((c : Thread nD τ).loc main_arg5) :=
  (congrFun (V12_eq m c).symm _).trans (Gen.V12_main_arg5 m (outs m) c)
theorem W12_arg6 (c : Dev nD) : W12 m c main_arg6 = m ((c : Thread nD τ).loc main_arg6) :=
  (congrFun (V12_eq m c).symm _).trans (Gen.V12_main_arg6 m (outs m) c)
theorem W12_arg7 (c : Dev nD) : W12 m c main_arg7 = m ((c : Thread nD τ).loc main_arg7) :=
  (congrFun (V12_eq m c).symm _).trans (Gen.V12_main_arg7 m (outs m) c)
theorem W12_arg8 (c : Dev nD) : W12 m c main_arg8 = m ((c : Thread nD τ).loc main_arg8) :=
  (congrFun (V12_eq m c).symm _).trans (Gen.V12_main_arg8 m (outs m) c)

/-- The frame: every weakly fair execution terminates, nothing faulting, each argument's array as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W12_arg0 m c),
      (h c _ (mem_uc main_arg1 (by decide))).trans (W12_arg1 m c),
      (h c _ (mem_uc main_arg2 (by decide))).trans (W12_arg2 m c),
      (h c _ (mem_uc main_arg3 (by decide))).trans (W12_arg3 m c),
      (h c _ (mem_uc main_arg4 (by decide))).trans (W12_arg4 m c),
      (h c _ (mem_uc main_arg5 (by decide))).trans (W12_arg5 m c),
      (h c _ (mem_uc main_arg6 (by decide))).trans (W12_arg6 m c),
      (h c _ (mem_uc main_arg7 (by decide))).trans (W12_arg7 m c),
      (h c _ (mem_uc main_arg8 (by decide))).trans (W12_arg8 m c)⟩) (run_all m ρ)

/-- The same run with the result's array named: what region 4 leaves. -/
theorem run_result : θ_run defs (onTc (τ := τ) (main (F := F))) ⟨m, fun _ => 0, ρ⟩ (fun r => ∀ c : Dev nD,
      r.2.mem ((c.tc : Thread nD τ).loc main_v75) = W12 m c main_v75
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v75 (by decide)),
      (h c _ (mem_uc main_arg0 (by decide))).trans (W12_arg0 m c),
      (h c _ (mem_uc main_arg1 (by decide))).trans (W12_arg1 m c),
      (h c _ (mem_uc main_arg2 (by decide))).trans (W12_arg2 m c),
      (h c _ (mem_uc main_arg3 (by decide))).trans (W12_arg3 m c),
      (h c _ (mem_uc main_arg4 (by decide))).trans (W12_arg4 m c),
      (h c _ (mem_uc main_arg5 (by decide))).trans (W12_arg5 m c),
      (h c _ (mem_uc main_arg6 (by decide))).trans (W12_arg6 m c),
      (h c _ (mem_uc main_arg7 (by decide))).trans (W12_arg7 m c),
      (h c _ (mem_uc main_arg8 (by decide))).trans (W12_arg8 m c)⟩) (run_all m ρ)

end Cert.KernelIdeal.Hand

end
-- ==== Proof.RefSpec.lean ====
/-
  The reference's mean pool as one function of the node rows and of the column of graph ids: per graph and feature the
  sum of the rows whose id is that graph, over the number of such rows clamped at one from below. Spelt with the
  reference program's own records and closed stages, so that the reference's last stage is this function of the
  stage before it by unfolding alone.
-/
import proofs.«418164_j56556129354064_1_alg».proof.Proof.RefRead

noncomputable section

namespace Cert.KernelIdeal.Hand

open Idealize.ShloMosaic Cert.ReferenceIdeal Cert.ReferenceIdeal.Facts₀

variable {F : FTy → Type} [FloatOps F]

/-- sums / max(counts, 1), the sums and the counts both scatter-adds at the ids into zeros. -/
def poolRef (h : FVec F S50000x128 .f32) (ids : IVec S50000x1 32) : FVec F S64x128 .f32 :=
  Host.divf
    (Host.scatterAdd scatter_S64x128_S50000x1_S50000x128_1_0_0_1 (Cert.ReferenceIdeal.Read.val_main_v82 (F := F)) ids h)
    (broadcastInDim S64x128 ![0, 1] bcast_S64x1_S64x128_0_1
      (broadcastInDim S64x1 ![0] bcast_S64_S64x1_0
        (maximumf (Host.scatterAdd scatter_S64_S50000x1_S50000_n_0_0_1 (Cert.ReferenceIdeal.Read.val_main_v86 (F := F)) ids (Cert.ReferenceIdeal.Read.val_main_v85 (F := F)))
          (Cert.ReferenceIdeal.Read.val_main_v89 (F := F)))))

/-- The bias row spread over the rows, added, and the clamp at zero from below: the reference's epilogue of a layer. -/
def actRef (a : FVec F S50000x128 .f32) (brow : FVec F S1x128 .f32) : FVec F S50000x128 .f32 :=
  maximumf (addf a (broadcastInDim S50000x128 ![0, 1] bcast_S1x128_S50000x128_0_1 brow))
    (broadcastInDim S50000x128 ![] bcast_S_S50000x128 (constant S_ .f32 0x00000000#32))

/-- One layer's aggregation over the edges and self loops: the rows of `h` gathered at the source ids (a negative id
    counted from the end), scaled by the edge's normalisation, and scatter-added at the destination ids into zeros. -/
def aggRef (src dst : IVec S850000 32) (norm : FVec F S850000x1 .f32) (h : FVec F S50000x128 .f32) : FVec F S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 dst)
    (mulf (Host.gather gather_S50000x128_S850000x1_S850000x128_1_0_n_n_0_1_1128 h
        (broadcastInDim S850000x1 ![0] bcast_S850000_S850000x1_0
          (select (cmpi .slt src (broadcastInDim S850000 ![] bcast_S_S850000 (constantI S_ 32 0#32)))
            (addi src (broadcastInDim S850000 ![] bcast_S_S850000 (constantI S_ 32 50000#32))) src)))
      (broadcastInDim S850000x128 ![0, 1] bcast_S850000x1_S850000x128_0_1 norm))

/-- The reference's projection: the whole matrix product. -/
def linRef (x : FVec F S50000x128 .f32) (w : FVec F S128x128 .f32) : FVec F S50000x128 .f32 :=
  Host.dotGeneral dot_S50000x128_S128x128_S50000x128_1_0_0_1_n_n none x w

end Cert.KernelIdeal.Hand

end
-- ==== Proof.LibPlainDot.lean ====
/-
  A PLAIN MATRIX PRODUCT READ AT AN INDEX, over the extended reals.

  For the dimension numbers of `[M, K] × [K, N] → [M, N]` (contract the left operand's columns with the right
  operand's rows, no batch axis: `DotDims.plain M K N`), a product accumulated into the zero matrix is, at row `p` and
  column `j`, the sum over `k` of `L[p, k] · R[k, j]`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable (M K N : Nat)

/-- The left operand's row is the result's row. -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction index. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction index. -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- THE PRODUCT AT `(p, j)`, accumulated into zero: `∑ₖ L[p, k] · R[k, j]` (stated over `matmul`, the name a printed
    program applies). -/
theorem matmul_zero_apply {φ₁ φ₂ : FTy} (prec : Option ContractPrecision)
    (L : FVec Ideal (⟨2, ![M, K]⟩ : Shape) φ₁) (R : FVec Ideal (⟨2, ![K, N]⟩ : Shape) φ₂) (p : Fin M) (j : Fin N) :
    matmul (F := Ideal) (DotDims.plain M K N) prec L R (constant (⟨2, ![M, N]⟩ : Shape) .f32 0x00000000#32) (ix2 p j)
      = ∑ k : Fin K, L (ix2 p k) * R (ix2 k j) := by
  show FloatOps.matmul (DotDims.plain M K N) prec L R (constant (⟨2, ![M, N]⟩ : Shape) .f32 0x00000000#32) (ix2 p j) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact lhs_0 M K N _ _
      | ⟨1, _⟩ => exact (lhs_1 M K N _ _).trans hk)
  have er : (DotDims.plain M K N).rhsIdx (ix2 p j) ((contrEquiv1 (DotDims.plain M K N) K rfl rfl).symm k) = ix2 k j :=
    funext fun a => Fin.ext (by
      match a with
      | ⟨0, _⟩ => exact (rhs_0 M K N _ _).trans hk
      | ⟨1, _⟩ => exact rhs_1 M K N _ _)
  rw [el, er]

end Idealize.ShloMosaic.PlainDot

end
-- ==== Proof.LibPlainDotRows.lean ====
/-
  A ROW BLOCK OF A PLAIN MATRIX PRODUCT IS THE PRODUCT'S ROWS, over the extended reals.

  For `[M, K] × [K, N] → [M, N]` (`DotDims.plain M K N`) the host's `dot_general` at row `r` and column `j` is the sum over
  `k` of `X[r, k] · W[k, j]` (`dotGeneral_apply`). A kernel that multiplies a block of `Mb` rows of `X` by the whole of `W`,
  accumulating into zero, computes at the block's row `p` the same sum as the whole product at the row of `X` that row `p` of the
  block is (`matmul_zero_rows_eq_dotGeneral`): every term of the two sums is the same product, so nothing of extended-real
  arithmetic beyond `0 + s = s` is used and the fact holds at the infinities too.
-/
import Idealize.ShloMosaic.PureOps.Ideal.Laws
import Idealize.ShloMosaic.Lib.ValueIdx
import Idealize.ShloMosaic.Lib.KernelVsHost
import proofs.«418164_j56556129354064_1_alg».proof.Proof.LibPlainDot

noncomputable section

open scoped BigOperators

namespace Idealize.ShloMosaic.PlainDot

open Idealize.ShloMosaic Idealize.ShloMosaic.ValueIdx

/-- THE HOST'S PRODUCT AT `(r, j)`: `∑ₖ X[r, k] · W[k, j]` (stated over `Host.dotGeneral`, the name a printed reference applies). -/
theorem dotGeneral_apply (M K N : Nat) {φ₁ φ₂ : FTy} (prec : Option ContractPrecision)
    (X : FVec Ideal (⟨2, ![M, K]⟩ : Shape) φ₁) (W : FVec Ideal (⟨2, ![K, N]⟩ : Shape) φ₂) (r : Fin M) (j : Fin N) :
    Host.dotGeneral (F := Ideal) (DotDims.plain M K N) prec X W (ix2 r j) = ∑ k : Fin K, X (ix2 r k) * W (ix2 k j) := by
  rw [← matmul_zero_eq_dotGeneral]
  exact matmul_zero_apply M K N prec X W r j

/-- A BLOCK OF ROWS: if row `p` of the block `Xb` is row `r` of `X` (`hrow`) and the block's right operand is `W` entry by entry
    (`hw`), the block's product accumulated into zero, at `(p, j)`, is the whole product at `(r, j)`. -/
theorem matmul_zero_rows_eq_dotGeneral (Mb M K N : Nat) {φ₁ φ₂ : FTy} (prec : Option ContractPrecision)
    (Xb : FVec Ideal (⟨2, ![Mb, K]⟩ : Shape) φ₁) (Wb : FVec Ideal (⟨2, ![K, N]⟩ : Shape) φ₂)
    (X : FVec Ideal (⟨2, ![M, K]⟩ : Shape) φ₁) (W : FVec Ideal (⟨2, ![K, N]⟩ : Shape) φ₂)
    (p : Fin Mb) (r : Fin M) (j : Fin N)
    (hrow : ∀ k : Fin K, Xb (ix2 p k) = X (ix2 r k)) (hw : ∀ k : Fin K, Wb (ix2 k j) = W (ix2 k j)) :
    matmul (F := Ideal) (DotDims.plain Mb K N) prec Xb Wb (constant (⟨2, ![Mb, N]⟩ : Shape) .f32 0x00000000#32) (ix2 p j)
      = Host.dotGeneral (F := Ideal) (DotDims.plain M K N) prec X W (ix2 r j) := by
  rw [matmul_zero_apply, dotGeneral_apply]
  exact Finset.sum_congr rfl fun k _ => by rw [hrow k, hw k]

end Idealize.ShloMosaic.PlainDot

end
-- ==== Proof.KernelIdeal.Val0.lean ====
/-
  Region 0 over the extended reals: the array the ten write-backs leave is the whole matrix product of the node features and the first weights.
-/
import proofs.«418164_j56556129354064_1_alg».proof.ReferenceIdeal
import proofs.«418164_j56556129354064_1_alg».proof.Proof.Gen.ReferenceIdeal
import proofs.«418164_j56556129354064_1_alg».proof.Proof.RefSpec
import proofs.«418164_j56556129354064_1_alg».proof.Proof.KernelIdeal.Region0
import proofs.«418164_j56556129354064_1_alg».proof.Proof.LibPlainDot
import proofs.«418164_j56556129354064_1_alg».proof.Proof.LibPlainDotRows
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

open scoped BigOperators

/-- The offsets of the one rectangle of each access are all zero. -/
theorem hz0 : (![0, 0] : Fin 2 → Nat) = fun _ => 0 := funext fun a => by fin_cases a <;> rfl

/-- The block's payload at an entry: with the block's rows the rows `n * 5000 + p` of `X` and the block's weights
    the whole of `W`, entry `y` of the block's product is entry `i` of the whole product, where `i` is `y` moved down
    by `n` blocks: both are the same sum over the contraction index of the same products. -/
theorem pay0_apply (xb : Vec Ideal S5000x128 .f32) (wb : Vec Ideal S128x128 .f32)
    (X : FVec Ideal S50000x128 .f32) (W : FVec Ideal S128x128 .f32) (n : Nat)
    (hrow : ∀ (y' : S5000x128.Idx) (i' : S50000x128.Idx), (i' 0).val = n * 5000 + (y' 0).val → (i' 1).val = (y' 1).val → xb y' = X i')
    (hw : ∀ z : S128x128.Idx, wb z = W z)
    (y : S5000x128.Idx) (i : S50000x128.Idx) (hi0 : (i 0).val = n * 5000 + (y 0).val) (hi1 : (i 1).val = (y 1).val) :
    k0_pay1 (F := Ideal) xb wb y = linRef (F := Ideal) X W i := by
  obtain ⟨p, j, rfl⟩ : ∃ (p : Fin 5000) (j : Fin 128), y = ix2 p j := ⟨y 0, y 1, eq_ix2 y⟩
  obtain ⟨r, j', rfl⟩ : ∃ (r : Fin 50000) (j' : Fin 128), i = ix2 r j' := ⟨i 0, i 1, eq_ix2 i⟩
  have hj : j' = j := Fin.ext hi1
  subst hj
  unfold k0_pay1 linRef
  refine (PlainDot.matmul_zero_apply 5000 128 128 none _ _ p j').trans ?_
  refine Eq.trans ?_ (PlainDot.dotGeneral_apply 50000 128 128 none X W r j').symm
  refine Finset.sum_congr rfl fun k _ => ?_
  have h1 : xb (ix2 p k) = X (ix2 r k) := hrow (ix2 p k) (ix2 r k) hi0 rfl
  have h2 : wb (ix2 k j') = W (ix2 k j') := hw (ix2 k j')
  rw [← h1, ← h2]
  rfl

/-- The printed index maps, decided over the grid: the row-block windows sit at block `t` of the rows, the weights at
    their only block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the whole product of the arrays as the region finds them. -/
theorem flushed0_eq (c : Dev nD) (t : Fin cfg0.N) :
    (dat0 (F := Ideal) V c).flushed 2 t
      = ((cfg0.win 2).blk t).view.read (Elt Ideal) (linRef (F := Ideal) (V c main_arg0) (V c main_arg3)) := by
  show (cfg0.win 2).cut (grid0.coords t) ((dat0 (F := Ideal) V c).after 2 t) = _
  rw [after0_2]
  unfold out0
  rw [View.canon_unit_zero hz0]
  simp only [View.ld_unit_zero (S := S5000x128) hz0, View.ld_unit_zero (S := S128x128) hz0]
  obtain ⟨e00, e01, e10, e11, e20, e21⟩ := idx_facts0 t
  funext y
  show k0_pay1 (F := Ideal) (iblk0 V c 0 t) (iblk0 V c 1 t) y
      = linRef (F := Ideal) (V c main_arg0) (V c main_arg3) (((cfg0.win 2).blk t).view.emb y)
  refine pay0_apply (iblk0 V c 0 t) (iblk0 V c 1 t) (V c main_arg0) (V c main_arg3) t.val ?_ ?_ y
    (((cfg0.win 2).blk t).view.emb y) ?_ ?_
  · intro y' i' h0 h1
    show V c main_arg0 (((cfg0.win 0).blk t).view.emb y') = V c main_arg0 i'
    refine congrArg _ (funext fun a => Fin.ext ?_)
    match a with
    | ⟨0, _⟩ => show win0_0.index t (0 : Fin 2) * 5000 + 1 * (y' 0).val = (i' 0).val; omega
    | ⟨1, _⟩ => show win0_0.index t (1 : Fin 2) * 128 + 1 * (y' 1).val = (i' 1).val; omega
  · intro z
    show V c main_arg3 (((cfg0.win 1).blk t).view.emb z) = V c main_arg3 z
    refine congrArg _ (funext fun a => Fin.ext ?_)
    match a with
    | ⟨0, _⟩ => show win0_1.index t (0 : Fin 2) * 128 + 1 * (z 0).val = (z 0).val; omega
    | ⟨1, _⟩ => show win0_1.index t (1 : Fin 2) * 128 + 1 * (z 1).val = (z 1).val; omega
  · show win0_2.index t (0 : Fin 2) * 5000 + 1 * (y 0).val = t.val * 5000 + (y 0).val; omega
  · show win0_2.index t (1 : Fin 2) * 128 + 1 * (y 1).val = (y 1).val; omega

/-- An index of the array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- Every index of the array is in the block of the point its row falls to: row `r` is in block `r / 5000`. -/
theorem rows_covered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < cfg0.N := by show _ < grid0.N; rw [N_0]; omega
  refine ⟨⟨(i 0).val / 5000, hN⟩, flush0_2 _, ?_⟩
  obtain ⟨-, -, -, -, e20, e21⟩ := idx_facts0 ⟨(i 0).val / 5000, hN⟩
  have e20' : win0_2.index ⟨(i 0).val / 5000, hN⟩ (0 : Fin 2) = (i 0).val / 5000 := e20
  rw [mem_blk0]
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    omega
  | ⟨1, _⟩ =>
    show win0_2.index ⟨(i 0).val / 5000, hN⟩ (1 : Fin 2) * 128 ≤ (i 1).val
      ∧ (i 1).val < win0_2.index ⟨(i 0).val / 5000, hN⟩ (1 : Fin 2) * 128 + 128
    omega

theorem arr0_eq (c : Dev nD) :
    @Eq (FVec Ideal S50000x128 .f32) ((dat0 (F := Ideal) V c).arrAt 2 cfg0.N)
      (linRef (F := Ideal) (V c main_arg0) (V c main_arg3)) :=
  (dat0 (F := Ideal) V c).arrAt_eq_of_cover 2 (linRef (F := Ideal) (V c main_arg0) (V c main_arg3))
    (fun t _ => flushed0_eq V c t) rows_covered0

end Cert.KernelIdeal.Hand

end
-- ==== Proof.KernelIdeal.Val1.lean ====
/-
  Region 1 over the extended reals: the array the ten write-backs leave is the whole matrix product of the biased, clamped aggregate and the second weights.
-/
import proofs.«418164_j56556129354064_1_alg».proof.ReferenceIdeal
import proofs.«418164_j56556129354064_1_alg».proof.Proof.Gen.ReferenceIdeal
import proofs.«418164_j56556129354064_1_alg».proof.Proof.RefSpec
import proofs.«418164_j56556129354064_1_alg».proof.Proof.KernelIdeal.Region1
import proofs.«418164_j56556129354064_1_alg».proof.Proof.LibPlainDot
import proofs.«418164_j56556129354064_1_alg».proof.Proof.LibPlainDotRows
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

open scoped BigOperators

/-- The offsets of the one rectangle of each access are all zero. -/
theorem hz1 : (![0, 0] : Fin 2 → Nat) = fun _ => 0 := funext fun a => by fin_cases a <;> rfl

/-- The block's left operand at an entry: the block's entry plus the bias row's entry of that column, clamped at zero
    from below, is the reference's biased, clamped aggregate at the array's entry the block's entry is. -/
theorem act1_apply (xb : Vec Ideal S5000x128 .f32) (bb : Vec Ideal S1x128 .f32)
    (A : FVec Ideal S50000x128 .f32) (B : FVec Ideal S1x128 .f32)
    (p : Fin 5000) (k : Fin 128) (r : Fin 50000)
    (hx : xb (ix2 p k) = A (ix2 r k)) (hb : ∀ z : S1x128.Idx, bb z = B z) :
    maximumf (F := Ideal) (addf (shapeCast S5000x128 xb shapeCasts_S5000x128_S5000x128)
        (broadcastTo S5000x128 (shapeCast S1x128 bb shapeCasts_S1x128_S1x128) broadcasts_S1x128_S5000x128))
      (broadcast S5000x128 (Scalar.ofBits .f32 0x00000000#32)) (ix2 p k)
      = actRef (F := Ideal) A B (ix2 r k) := by
  unfold actRef
  rw [maximumf_apply, maximumf_apply, addf_apply, addf_apply, broadcast_apply, shapeCast_self, shapeCast_self]
  rw [broadcastTo_apply bb broadcasts_S1x128_S5000x128 (ix2 p k) (ix2 (0 : Fin 1) k) (fun a => match a with
      | ⟨0, _⟩ => by show 0 = if (1 : Nat) = 1 then 0 else _; rw [if_pos rfl]
      | ⟨1, _⟩ => by show k.val = if (128 : Nat) = 1 then 0 else k.val; rw [if_neg (by decide)]),
    broadcastInDim_apply _ _ B (ix2 r k) (ix2 (0 : Fin 1) k) (fun a => match a with
      | ⟨0, _⟩ => by show 0 = if (1 : Nat) = 1 then 0 else _; rw [if_pos rfl]
      | ⟨1, _⟩ => by show k.val = if (128 : Nat) = 1 then 0 else k.val; rw [if_neg (by decide)]),
    broadcastInDim_apply _ _ (constant (F := Ideal) _ .f32 0x00000000#32) (ix2 r k) (fun a => a.elim0) (fun a => a.elim0),
    hx, hb]
  rfl

/-- The block's payload at an entry: with the block's rows the rows `n * 5000 + p` of the aggregate, the bias row and
    the weights whole, entry `y` of the block's product is entry `i` of the whole product of the biased, clamped
    aggregate and the weights, where `i` is `y` moved down by `n` blocks: both are the same sum over the contraction
    index of the same products. -/
theorem pay1_apply (xb : Vec Ideal S5000x128 .f32) (bb : Vec Ideal S1x128 .f32) (wb : Vec Ideal S128x128 .f32)
    (A : FVec Ideal S50000x128 .f32) (B : FVec Ideal S1x128 .f32) (W : FVec Ideal S128x128 .f32) (n : Nat)
    (hrow : ∀ (y' : S5000x128.Idx) (i' : S50000x128.Idx), (i' 0).val = n * 5000 + (y' 0).val → (i' 1).val = (y' 1).val → xb y' = A i')
    (hb : ∀ z : S1x128.Idx, bb z = B z) (hw : ∀ z : S128x128.Idx, wb z = W z)
    (y : S5000x128.Idx) (i : S50000x128.Idx) (hi0 : (i 0).val = n * 5000 + (y 0).val) (hi1 : (i 1).val = (y 1).val) :
    k1_pay1 (F := Ideal) xb bb wb y = linRef (F := Ideal) (actRef (F := Ideal) A B) W i := by
  obtain ⟨p, j, rfl⟩ : ∃ (p : Fin 5000) (j : Fin 128), y = ix2 p j := ⟨y 0, y 1, eq_ix2 y⟩
  obtain ⟨r, j', rfl⟩ : ∃ (r : Fin 50000) (j' : Fin 128), i = ix2 r j' := ⟨i 0, i 1, eq_ix2 i⟩
  have hj : j' = j := Fin.ext hi1
  subst hj
  unfold k1_pay1 linRef
  refine (PlainDot.matmul_zero_apply 5000 128 128 none _ _ p j').trans ?_
  refine Eq.trans ?_ (PlainDot.dotGeneral_apply 50000 128 128 none (actRef (F := Ideal) A B) W r j').symm
  refine Finset.sum_congr rfl fun k _ => ?_
  have h1 := act1_apply xb bb A B p k r (hrow (ix2 p k) (ix2 r k) hi0 rfl) hb
  have h2 : wb (ix2 k j') = W (ix2 k j') := hw (ix2 k j')
  rw [← h1, ← h2]
  rfl

/-- The printed index maps, decided over the grid: the row-block windows sit at block `t` of the rows, the bias row and
    the weights at their only block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of the whole product of the biased, clamped aggregate and the weights, of
    the arrays as the region finds them. -/
theorem flushed1_eq (c : Dev nD) (t : Fin cfg1.N) :
    (dat1 (F := Ideal) V c).flushed 3 t
      = ((cfg1.win 3).blk t).view.read (Elt Ideal)
          (linRef (F := Ideal) (actRef (F := Ideal) (V c main_v46) (V c main_v31)) (V c main_arg5)) := by
  show (cfg1.win 3).cut (grid1.coords t) ((dat1 (F := Ideal) V c).after 3 t) = _
  rw [after1_3]
  unfold out1
  rw [View.canon_unit_zero hz1]
  simp only [View.ld_unit_zero (S := S5000x128) hz1, View.ld_unit_zero (S := S1x128) hz1, View.ld_unit_zero (S := S128x128) hz1]
  obtain ⟨e00, e01, e10, e11, e20, e21, e30, e31⟩ := idx_facts1 t
  funext y
  show k1_pay1 (F := Ideal) (iblk1 V c 0 t) (iblk1 V c 1 t) (iblk1 V c 2 t) y
      = linRef (F := Ideal) (actRef (F := Ideal) (V c main_v46) (V c main_v31)) (V c main_arg5) (((cfg1.win 3).blk t).view.emb y)
  refine pay1_apply (iblk1 V c 0 t) (iblk1 V c 1 t) (iblk1 V c 2 t) (V c main_v46) (V c main_v31) (V c main_arg5) t.val ?_ ?_ ?_ y
    (((cfg1.win 3).blk t).view.emb y) ?_ ?_
  · intro y' i' h0 h1
    show V c main_v46 (((cfg1.win 0).blk t).view.emb y') = V c main_v46 i'
    refine congrArg _ (funext fun a => Fin.ext ?_)
    match a with
    | ⟨0, _⟩ => show win1_0.index t (0 : Fin 2) * 5000 + 1 * (y' 0).val = (i' 0).val; omega
    | ⟨1, _⟩ => show win1_0.index t (1 : Fin 2) * 128 + 1 * (y' 1).val = (i' 1).val; omega
  · intro z
    show V c main_v31 (((cfg1.win 1).blk t).view.emb z) = V c main_v31 z
    refine congrArg _ (funext fun a => Fin.ext ?_)
    match a with
    | ⟨0, _⟩ => show win1_1.index t (0 : Fin 2) * 1 + 1 * (z 0).val = (z 0).val; omega
    | ⟨1, _⟩ => show win1_1.index t (1 : Fin 2) * 128 + 1 * (z 1).val = (z 1).val; omega
  · intro z
    show V c main_arg5 (((cfg1.win 2).blk t).view.emb z) = V c main_arg5 z
    refine congrArg _ (funext fun a => Fin.ext ?_)
    match a with
    | ⟨0, _⟩ => show win1_2.index t (0 : Fin 2) * 128 + 1 * (z 0).val = (z 0).val; omega
    | ⟨1, _⟩ => show win1_2.index t (1 : Fin 2) * 128 + 1 * (z 1).val = (z 1).val; omega
  · show win1_3.index t (0 : Fin 2) * 5000 + 1 * (y 0).val = t.val * 5000 + (y 0).val; omega
  · show win1_3.index t (1 : Fin 2) * 128 + 1 * (y 1).val = (y 1).val; omega

/-- An index of the array is in point `t`'s block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v47).slice (win1_3.rect t)).set ↔ _
  rw [View.set_slice_whole, Rect.mem_set_unit]
  exact Iff.rfl

/-- Every index of the array is in the block of the point its row falls to: row `r` is in block `r / 5000`. -/
theorem rows_covered1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : (i 0).val / 5000 < cfg1.N := by show _ < grid1.N; rw [N_1]; omega
  refine ⟨⟨(i 0).val / 5000, hN⟩, flush1_3 _, ?_⟩
  obtain ⟨-, -, -, -, -, -, e30, e31⟩ := idx_facts1 ⟨(i 0).val / 5000, hN⟩
  have e30' : win1_3.index ⟨(i 0).val / 5000, hN⟩ (0 : Fin 2) = (i 0).val / 5000 := e30
  rw [mem_blk1]
  intro a
  match a with
  | ⟨0, _⟩ =>
    show win1_3.index ⟨(i 0).val / 5000, hN⟩ (0 : Fin 2) * 5000 ≤ (i 0).val
      ∧ (i 0).val < win1_3.index ⟨(i 0).val / 5000, hN⟩ (0 : Fin 2) * 5000 + 5000
    omega
  | ⟨1, _⟩ =>
    show win1_3.index ⟨(i 0).val / 5000, hN⟩ (1 : Fin 2) * 128 ≤ (i 1).val
      ∧ (i 1).val < win1_3.index ⟨(i 0).val / 5000, hN⟩ (1 : Fin 2) * 128 + 128
    omega

theorem arr1_eq (c : Dev nD) :
    @Eq (FVec Ideal S50000x128 .f32) ((dat1 (F := Ideal) V c).arrAt 3 cfg1.N)
      (linRef (F := Ideal) (actRef (F := Ideal) (V c main_v46) (V c main_v31)) (V c main_arg5)) :=
  (dat1 (F := Ideal) V c).arrAt_eq_of_cover 3
    (linRef (F := Ideal) (actRef (F := Ideal) (V c main_v46) (V c main_v31)) (V c main_arg5))
    (fun t _ => flushed1_eq V c t) rows_covered1

end Cert.KernelIdeal.Hand

end
-- ==== Proof.KernelIdeal.Val2.lean ====
/-
  Region 2 over the extended reals: the array the ten write-backs leave is the whole matrix product of the biased, clamped aggregate and the third weights.
-/
import proofs.«418164_j56556129354064_1_alg».proof.ReferenceIdeal
import proofs.«418164_j56556129354064_1_alg».proof.Proof.Gen.ReferenceIdeal
import proofs.«418164_j56556129354064_1_alg».proof.Proof.RefSpec
import proofs.«418164_j56556129354064_1_alg».proof.Proof.KernelIdeal.Region2
import proofs.«418164_j56556129354064_1_alg».proof.Proof.LibPlainDot
import proofs.«418164_j56556129354064_1_alg».proof.Proof.LibPlainDotRows
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

open scoped BigOperators

/-- The offsets of the one rectangle of each access are all zero. -/
theorem hz2 : (![0, 0] : Fin 2 → Nat) = fun _ => 0 := funext fun a => by fin_cases a <;> rfl

/-- The block's left operand at an entry: the block's entry plus the bias row's entry of that column, clamped at zero
    from below, is the reference's biased, clamped aggregate at the array's entry the block's entry is. -/
theorem act2_apply (xb : Vec Ideal S5000x128 .f32) (bb : Vec Ideal S1x128 .f32)
    (A : FVec Ideal S50000x128 .f32) (B : FVec Ideal S1x128 .f32)
    (p : Fin 5000) (k : Fin 128) (r : Fin 50000)
    (hx : xb (ix2 p k) = A (ix2 r k)) (hb : ∀ z : S1x128.Idx, bb z = B z) :
    maximumf (F := Ideal) (addf (shapeCast S5000x128 xb shapeCasts_S5000x128_S5000x128)
        (broadcastTo S5000x128 (shapeCast S1x128 bb shapeCasts_S1x128_S1x128) broadcasts_S1x128_S5000x128))
      (broadcast S5000x128 (Scalar.ofBits .f32 0x00000000#32)) (ix2 p k)
      = actRef (F := Ideal) A B (ix2 r k) := by
  unfold actRef
  rw [maximumf_apply, maximumf_apply, addf_apply, addf_apply, broadcast_apply, shapeCast_self, shapeCast_self]
  rw [broadcastTo_apply bb broadcasts_S1x128_S5000x128 (ix2 p k) (ix2 (0 : Fin 1) k) (fun a => match a with
      | ⟨0, _⟩ => by show 0 = if (1 : Nat) = 1 then 0 else _; rw [if_pos rfl]
      | ⟨1, _⟩ => by show k.val = if (128 : Nat) = 1 then 0 else k.val; rw [if_neg (by decide)]),
    broadcastInDim_apply _ _ B (ix2 r k) (ix2 (0 : Fin 1) k) (fun a => match a with
      | ⟨0, _⟩ => by show 0 = if (1 : Nat) = 1 then 0 else _; rw [if_pos rfl]
      | ⟨1, _⟩ => by show k.val = if (128 : Nat) = 1 then 0 else k.val; rw [if_neg (by decide)]),
    broadcastInDim_apply _ _ (constant (F := Ideal) _ .f32 0x00000000#32) (ix2 r k) (fun a => a.elim0) (fun a => a.elim0),
    hx, hb]
  rfl

/-- The block's payload at an entry: with the block's rows the rows `n * 5000 + p` of the aggregate, the bias row and
    the weights whole, entry `y` of the block's product is entry `i` of the whole product of the biased, clamped
    aggregate and the weights, where `i` is `y` moved down by `n` blocks: both are the same sum over the contraction
    index of the same products. -/
theorem pay2_apply (xb : Vec Ideal S5000x128 .f32) (bb : Vec Ideal S1x128 .f32) (wb : Vec Ideal S128x128 .f32)
    (A : FVec Ideal S50000x128 .f32) (B : FVec Ideal S1x128 .f32) (W : FVec Ideal S128x128 .f32) (n : Nat)
    (hrow : ∀ (y' : S5000x128.Idx) (i' : S50000x128.Idx), (i' 0).val = n * 5000 + (y' 0).val → (i' 1).val = (y' 1).val → xb y' = A i')
    (hb : ∀ z : S1x128.Idx, bb z = B z) (hw : ∀ z : S128x128.Idx, wb z = W z)
    (y : S5000x128.Idx) (i : S50000x128.Idx) (hi0 : (i 0).val = n * 5000 + (y 0).val) (hi1 : (i 1).val = (y 1).val) :
    k2_pay1 (F := Ideal) xb bb wb y = linRef (F := Ideal) (actRef (F := Ideal) A B) W i := by
  obtain ⟨p, j, rfl⟩ : ∃ (p : Fin 5000) (j : Fin 128), y = ix2 p j := ⟨y 0, y 1, eq_ix2 y⟩
  obtain ⟨r, j', rfl⟩ : ∃ (r : Fin 50000) (j' : Fin 128), i = ix2 r j' := ⟨i 0, i 1, eq_ix2 i⟩
  have hj : j' = j := Fin.ext hi1
  subst hj
  unfold k2_pay1 linRef
  refine (PlainDot.matmul_zero_apply 5000 128 128 none _ _ p j').trans ?_
  refine Eq.trans ?_ (PlainDot.dotGeneral_apply 50000 128 128 none (actRef (F := Ideal) A B) W r j').symm
  refine Finset.sum_congr rfl fun k _ => ?_
  have h1 := act2_apply xb bb A B p k r (hrow (ix2 p k) (ix2 r k) hi0 rfl) hb
  have h2 : wb (ix2 k j') = W (ix2 k j') := hw (ix2 k j')
  rw [← h1, ← h2]
  rfl

/-- The printed index maps, decided over the grid: the row-block windows sit at block `t` of the rows, the bias row and
    the weights at their only block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT `t` WRITES BACK is block `t` of the whole product of the biased, clamped aggregate and the weights, of
    the arrays as the region finds them. -/
theorem flushed2_eq (c : Dev nD) (t : Fin cfg2.N) :
    (dat2 (F := Ideal) V c).flushed 3 t
      = ((cfg2.win 3).blk t).view.read (Elt Ideal)
          (linRef (F := Ideal) (actRef (F := Ideal) (V c main_v59) (V c main_v32)) (V c main_arg7)) := by
  show (cfg2.win 3).cut (grid2.coords t) ((dat2 (F := Ideal) V c).after 3 t) = _
  rw [after2_3]
  unfold out2
  rw [View.canon_unit_zero hz2]
  simp only [View.ld_unit_zero (S := S5000x128) hz2, View.ld_unit_zero (S := S1x128) hz2, View.ld_unit_zero (S := S128x128) hz2]
  obtain ⟨e00, e01, e10, e11, e20, e21, e30, e31⟩ := idx_facts2 t
  funext y
  show k2_pay1 (F := Ideal) (iblk2 V c 0 t) (iblk2 V c 1 t) (iblk2 V c 2 t) y
      = linRef (F := Ideal) (actRef (F := Ideal) (V c main_v59) (V c main_v32)) (V c main_arg7) (((cfg2.win 3).blk t).view.emb y)
  refine pay2_apply (iblk2 V c 0 t) (iblk2 V c 1 t) (iblk2 V c 2 t) (V c main_v59) (V c main_v32) (V c main_arg7) t.val ?_ ?_ ?_ y
    (((cfg2.win 3).blk t).view.emb y) ?_ ?_
  · intro y' i' h0 h1
    show V c main_v59 (((cfg2.win 0).blk t).view.emb y') = V c main_v59 i'
    refine congrArg _ (funext fun a => Fin.ext ?_)
    match a with
    | ⟨0, _⟩ => show win2_0.index t (0 : Fin 2) * 5000 + 1 * (y' 0).val = (i' 0).val; omega
    | ⟨1, _⟩ => show win2_0.index t (1 : Fin 2) * 128 + 1 * (y' 1).val = (i' 1).val; omega
  · intro z
    show V c main_v32 (((cfg2.win 1).blk t).view.emb z) = V c main_v32 z
    refine congrArg _ (funext fun a => Fin.ext ?_)
    match a with
    | ⟨0, _⟩ => show win2_1.index t (0 : Fin 2) * 1 + 1 * (z 0).val = (z 0).val; omega
    | ⟨1, _⟩ => show win2_1.index t (1 : Fin 2) * 128 + 1 * (z 1).val = (z 1).val; omega
  · intro z
    show V c main_arg7 (((cfg2.win 2).blk t).view.emb z) = V c main_arg7 z
    refine congrArg _ (funext fun a => Fin.ext ?_)
    match a with
    | ⟨0, _⟩ => show win2_2.index t (0 : Fin 2) * 128 + 1 * (z 0).val = (z 0).val; omega
    | ⟨1, _⟩ => show win2_2.index t (1 : Fin 2) * 128 + 1 * (z 1).val = (z 1).val; omega
  · show win2_3.index t (0 : Fin 2) * 5000 + 1 * (y 0).val = t.val * 5000 + (y 0).val; omega
  · show win2_3.index t (1 : Fin 2) * 128 + 1 * (y 1).val = (y 1).val; omega

/-- An index of the array is in point `t`'s block iff each coordinate is in the block's range on its axis. -/
theorem mem_blk2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v47).slice (win2_3.rect t)).set ↔ _
  rw [View.set_slice_whole, Rect.mem_set_unit]
  exact Iff.rfl

/-- Every index of the array is in the block of the point its row falls to: row `r` is in block `r / 5000`. -/
theorem rows_covered2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : (i 0).val / 5000 < cfg2.N := by show _ < grid2.N; rw [N_2]; omega
  refine ⟨⟨(i 0).val / 5000, hN⟩, flush2_3 _, ?_⟩
  obtain ⟨-, -, -, -, -, -, e30, e31⟩ := idx_facts2 ⟨(i 0).val / 5000, hN⟩
  have e30' : win2_3.index ⟨(i 0).val / 5000, hN⟩ (0 : Fin 2) = (i 0).val / 5000 := e30
  rw [mem_blk2]
  intro a
  match a with
  | ⟨0, _⟩ =>
    show win2_3.index ⟨(i 0).val / 5000, hN⟩ (0 : Fin 2) * 5000 ≤ (i 0).val
      ∧ (i 0).val < win2_3.index ⟨(i 0).val / 5000, hN⟩ (0 : Fin 2) * 5000 + 5000
    omega
  | ⟨1, _⟩ =>
    show win2_3.index ⟨(i 0).val / 5000, hN⟩ (1 : Fin 2) * 128 ≤ (i 1).val
      ∧ (i 1).val < win2_3.index ⟨(i 0).val / 5000, hN⟩ (1 : Fin 2) * 128 + 128
    omega

theorem arr2_eq (c : Dev nD) :
    @Eq (FVec Ideal S50000x128 .f32) ((dat2 (F := Ideal) V c).arrAt 3 cfg2.N)
      (linRef (F := Ideal) (actRef (F := Ideal) (V c main_v59) (V c main_v32)) (V c main_arg7)) :=
  (dat2 (F := Ideal) V c).arrAt_eq_of_cover 3
    (linRef (F := Ideal) (actRef (F := Ideal) (V c main_v59) (V c main_v32)) (V c main_arg7))
    (fun t _ => flushed2_eq V c t) rows_covered2

end Cert.KernelIdeal.Hand

end
-- ==== Proof.KernelIdeal.Val3.lean ====
/-
  Region 3 over the extended reals: the array the ten write-backs leave is the biased, clamped aggregate.
-/
import proofs.«418164_j56556129354064_1_alg».proof.ReferenceIdeal
import proofs.«418164_j56556129354064_1_alg».proof.Proof.Gen.ReferenceIdeal
import proofs.«418164_j56556129354064_1_alg».proof.Proof.RefSpec
import proofs.«418164_j56556129354064_1_alg».proof.Proof.KernelIdeal.Region3
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The offsets of a whole-buffer rectangle are zero on both axes. -/
theorem zero_off3 : (![0, 0] : Fin 2 → Nat) = fun _ => 0 := funext fun a => by fin_cases a <;> rfl

/-- The body's payload at an entry: the block's entry plus the bias row's entry of the same column, clamped at zero
    from below. -/
theorem k3_pay1_apply (x : Vec Ideal S5000x128 .f32) (b : Vec Ideal S1x128 .f32) (y : S5000x128.Idx) (k : S1x128.Idx)
    (hk0 : (k 0).val = 0) (hk1 : (k 1).val = (y 1).val) :
    k3_pay1 (F := Ideal) x b y = max (x y + b k) (Ideal.ofBits .f32 0x00000000#32) := by
  unfold k3_pay1
  show max (shapeCast S5000x128 x shapeCasts_S5000x128_S5000x128 y
      + broadcastTo S5000x128 (shapeCast S1x128 b shapeCasts_S1x128_S1x128) broadcasts_S1x128_S5000x128 y) _ = _
  rw [shapeCast_self, shapeCast_self]
  rw [broadcastTo_apply b broadcasts_S1x128_S5000x128 y k (fun a => match a with
    | ⟨0, _⟩ => by show (k 0).val = if (1 : Nat) = 1 then 0 else _; rw [if_pos rfl, hk0]
    | ⟨1, _⟩ => by show (k 1).val = if (128 : Nat) = 1 then 0 else (y 1).val; rw [if_neg (by decide), hk1])]
  rfl

/-- The reference's epilogue at an entry: the same sum and clamp. -/
theorem actRef_apply (a : FVec Ideal S50000x128 .f32) (brow : FVec Ideal S1x128 .f32) (i : S50000x128.Idx) (k : S1x128.Idx)
    (hk0 : (k 0).val = 0) (hk1 : (k 1).val = (i 1).val) :
    actRef (F := Ideal) a brow i = max (a i + brow k) (Ideal.ofBits .f32 0x00000000#32) := by
  unfold actRef
  rw [maximumf_apply, addf_apply]
  rw [broadcastInDim_apply _ _ brow i k (fun a => match a with
    | ⟨0, _⟩ => by show (k 0).val = if (1 : Nat) = 1 then 0 else (i 0).val; rw [if_pos rfl, hk0]
    | ⟨1, _⟩ => by show (k 1).val = if (128 : Nat) = 1 then 0 else (i 1).val; rw [if_neg (by decide), hk1])]
  rfl

/-- The printed index maps over the grid: the row blocks move with the point, the bias row's one block stays. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point `t` writes back is block `t` of the biased, clamped aggregate. -/
theorem flushed3_eq (c : Dev nD) (t : Fin cfg3.N) :
    (dat3 (F := Ideal) V c).flushed 2 t
      = ((cfg3.win 2).blk t).view.read (Elt Ideal) (actRef (F := Ideal) (V c main_v72) (V c main_v33)) := by
  show (cfg3.win 2).cut (grid3.coords t) ((dat3 V c).after 2 t) = _
  rw [after3_2]
  unfold out3
  rw [View.canon_unit_zero zero_off3]
  simp only [View.ld_unit_zero (S := S5000x128) zero_off3, View.ld_unit_zero (S := S1x128) zero_off3]
  obtain ⟨e0, e1, e2, e3, e4, e5⟩ := idx_facts3 t
  funext j
  -- the entry's column, as an index of the bias row's one block
  let k : S1x128.Idx := fun a => match a with
    | ⟨0, _⟩ => ⟨0, Nat.one_pos⟩
    | ⟨1, _⟩ => ⟨(j 1).val, (j 1).isLt⟩
  show k3_pay1 (F := Ideal) (iblk3 V c 0 t) (iblk3 V c 1 t) ((win3 2).xinj (grid3.coords t) j)
    = actRef (F := Ideal) (V c main_v72) (V c main_v33) (((cfg3.win 2).blk t).view.emb j)
  refine (k3_pay1_apply _ _ _ k rfl rfl).trans ?_
  refine Eq.trans ?_ (actRef_apply _ _ (((cfg3.win 2).blk t).view.emb j) (((cfg3.win 1).blk t).view.emb k) ?_ ?_).symm
  · -- the row block's entry is the aggregate's entry of the same place in the array
    have hx : iblk3 V c 0 t ((win3 2).xinj (grid3.coords t) j) = V c main_v72 (((cfg3.win 2).blk t).view.emb j) := by
      show V c main_v72 (((cfg3.win 0).blk t).view.emb _) = _
      refine congrArg _ (funext fun a => Fin.ext ?_)
      match a with
      | ⟨0, _⟩ =>
        show win3_0.index t (0 : Fin 2) * 5000 + 1 * (j 0).val = win3_2.index t (0 : Fin 2) * 5000 + 1 * (j 0).val
        rw [e0, e4]
      | ⟨1, _⟩ =>
        show win3_0.index t (1 : Fin 2) * 128 + 1 * (j 1).val = win3_2.index t (1 : Fin 2) * 128 + 1 * (j 1).val
        rw [e1, e5]
    rw [hx]
    rfl
  · show win3_1.index t (0 : Fin 2) * 1 + 1 * 0 = 0
    rw [e2]
  · show win3_1.index t (1 : Fin 2) * 128 + 1 * (j 1).val = win3_2.index t (1 : Fin 2) * 128 + 1 * (j 1).val
    rw [e3, e5]

/-- An entry of the array is in point `t`'s block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v73).slice (win3_2.rect t)).set ↔ _
  rw [View.set_slice_whole, Rect.mem_set_unit]
  exact Iff.rfl

/-- Row `r` of the array is in the block of point `r / 5000`: the ten blocks fill the array. -/
theorem covered3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 :=
    ⟨⟨(i 0).val / 5000, lt_of_lt_of_eq (by omega) hN.symm⟩, rfl⟩
  obtain ⟨e0, e1, e2, e3, e4, e5⟩ := idx_facts3 t
  refine ⟨t, flush3_2 t, ?_⟩
  rw [mem_blk3]
  intro a
  match a with
  | ⟨0, _⟩ =>
    show win3_2.index t (0 : Fin 2) * 5000 ≤ (i 0).val ∧ (i 0).val < win3_2.index t (0 : Fin 2) * 5000 + 5000
    rw [e4, ht]; omega
  | ⟨1, _⟩ =>
    show win3_2.index t (1 : Fin 2) * 128 ≤ (i 1).val ∧ (i 1).val < win3_2.index t (1 : Fin 2) * 128 + 128
    rw [e5]; omega

/-- The array after the ten write-backs: every entry the aggregate's entry plus the bias row's entry of its column,
    clamped at zero from below. -/
theorem arr3_eq (c : Dev nD) :
    @Eq (FVec Ideal S50000x128 .f32) ((dat3 (F := Ideal) V c).arrAt 2 cfg3.N)
      (actRef (F := Ideal) (V c main_v72) (V c main_v33)) :=
  (dat3 (F := Ideal) V c).arrAt_eq_of_cover 2 (actRef (F := Ideal) (V c main_v72) (V c main_v33))
    (fun t _ => flushed3_eq V c t) covered3

end Cert.KernelIdeal.Hand

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.KernelIdeal.Pool.lean ====
/-
  The mean pool as pure mathematics over the extended reals. A product contracted on the rows of both operands, read at
  an index; the table that is one where a row's id word, read signed, is the column; the two accumulators after a point
  as double sums over the points and their rows; the stored quotient; the reference's two accumulating scatters read at
  an index; and the two sides joined when the blocks are consecutive runs of rows of the arrays.
-/
import proofs.«418164_j56556129354064_1_alg».proof.Proof.RefSpec
import proofs.«418164_j56556129354064_1_alg».proof.Proof.KernelIdeal.Region4
import proofs.«418164_j56556129354064_1_alg».proof.Proof.LibGatherScatter
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

set_option maxRecDepth 16384

noncomputable section

open scoped BigOperators

namespace Idealize.ShloMosaic.TransposedLeftDot

open Idealize.ShloMosaic Idealize.ShloMosaic.ValueIdx

/-- The dimension numbers of `[K, M]ᵀ × [K, N] → [M, N]`: both operands contracted on their rows. -/
abbrev tlDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable {K M N : Nat} (wf : DotDims.WF ⟨2, ![K, M]⟩ ⟨2, ![K, N]⟩ ⟨2, ![M, N]⟩ [0] [0] [1] [1] [] [])

theorem lhs_0 (i : (⟨2, ![M, N]⟩ : Shape).Idx) (q : (tlDims K M N wf).contr.Idx) :
    ((tlDims K M N wf).lhsIdx i q 0).val = (q ⟨0, Nat.one_pos⟩).val :=
  (tlDims K M N wf).lhsIdx_val_of_single rfl i q

theorem lhs_1 (i : (⟨2, ![M, N]⟩ : Shape).Idx) (q : (tlDims K M N wf).contr.Idx) :
    ((tlDims K M N wf).lhsIdx i q 1).val = (i 0).val := by
  unfold DotDims.lhsIdx
  rw [dif_neg (show ¬(1 : Fin 2) ∈ (tlDims K M N wf).lhsBatch from List.not_mem_nil),
    dif_pos (show (1 : Fin 2) ∈ (tlDims K M N wf).lhsNonContracting from List.mem_singleton.mpr rfl)]
  rfl

theorem rhs_0 (i : (⟨2, ![M, N]⟩ : Shape).Idx) (q : (tlDims K M N wf).contr.Idx) :
    ((tlDims K M N wf).rhsIdx i q 0).val = (q ⟨0, Nat.one_pos⟩).val :=
  (tlDims K M N wf).rhsIdx_val_of_single rfl i q

theorem rhs_1 (i : (⟨2, ![M, N]⟩ : Shape).Idx) (q : (tlDims K M N wf).contr.Idx) :
    ((tlDims K M N wf).rhsIdx i q 1).val = (i 1).val := by
  unfold DotDims.rhsIdx
  rw [dif_neg (show ¬(1 : Fin 2) ∈ (tlDims K M N wf).rhsBatch from List.not_mem_nil),
    dif_pos (show (1 : Fin 2) ∈ (tlDims K M N wf).rhsNonContracting from List.mem_singleton.mpr rfl)]
  rfl

/-- THE PRODUCT AT `(g, j)`: the accumulator plus `∑ₖ L[k, g] · R[k, j]`. -/
theorem matmul_apply {φ₁ φ₂ : FTy} (prec : Option ContractPrecision)
    (L : FVec Ideal (⟨2, ![K, M]⟩ : Shape) φ₁) (R : FVec Ideal (⟨2, ![K, N]⟩ : Shape) φ₂)
    (acc : FVec Ideal (⟨2, ![M, N]⟩ : Shape) .f32) (g : Fin M) (j : Fin N) :
    matmul (F := Ideal) (tlDims K M N wf) prec L R acc (ix2 g j)
      = acc (ix2 g j) + ∑ k : Fin K, L (ix2 k g) * R (ix2 k j) := by
  show FloatOps.matmul (tlDims K M N wf) prec L R acc (ix2 g j) = _
  rw [Ideal.matmul_apply, ← Equiv.sum_comp (contrEquiv1 (tlDims K M N wf) K rfl rfl).symm]
  congr 1
  refine Finset.sum_congr rfl fun k _ => ?_
  have hk := contrEquiv1_symm_val (tlDims K M N wf) K rfl rfl k
  have el : (tlDims K M N wf).lhsIdx (ix2 g j) ((contrEquiv1 (tlDims K M N wf) K rfl rfl).symm k) = ix2 k g :=
    funext fun a => Fin.ext (by
      match a with
      | ⟨0, _⟩ => exact (lhs_0 wf _ _).trans hk
      | ⟨1, _⟩ => exact lhs_1 wf _ _)
  have er : (tlDims K M N wf).rhsIdx (ix2 g j) ((contrEquiv1 (tlDims K M N wf) K rfl rfl).symm k) = ix2 k j :=
    funext fun a => Fin.ext (by
      match a with
      | ⟨0, _⟩ => exact (rhs_0 wf _ _).trans hk
      | ⟨1, _⟩ => exact rhs_1 wf _ _)
  rw [el, er]

/-- A word compared for equality with a small number, widened and converted: one where the word read signed is the
    number, zero elsewhere. -/
theorem indicator_word (x : BitVec 32) (g : Nat) (hg : g < 2 ^ 31) :
    ((((IntOp.cmpi .eq x (BitVec.ofNat 32 g)).setWidth 32).toInt : ℝ) : EReal)
      = if x.toInt = (g : Int) then 1 else 0 := by
  have hgi : (BitVec.ofNat 32 g).toInt = (g : Int) := by
    have e := BitVec.toInt_eq_toNat_cond (BitVec.ofNat 32 g)
    rw [BitVec.toNat_ofNat, Nat.mod_eq_of_lt (by omega : g < 2 ^ 32)] at e
    rw [e, if_pos (by omega)]
  by_cases h : x = BitVec.ofNat 32 g
  · subst h
    rw [if_pos hgi]
    have : IntOp.cmpi .eq (BitVec.ofNat 32 g) (BitVec.ofNat 32 g) = 1#1 := by
      unfold IntOp.cmpi; simp
    rw [this]
    simp
  · have hne : x.toInt ≠ (g : Int) := fun e => h (BitVec.eq_of_toInt_eq (e.trans hgi.symm))
    rw [if_neg hne]
    have : IntOp.cmpi .eq x (BitVec.ofNat 32 g) = 0#1 := by
      unfold IntOp.cmpi
      show BitVec.ofBool (x == BitVec.ofNat 32 g) = 0#1
      rw [beq_eq_false_iff_ne.mpr h]; rfl
    rw [this]
    simp

end Idealize.ShloMosaic.TransposedLeftDot

namespace Cert.KernelIdeal.Hand

open Cert.KernelIdeal Cert.KernelIdeal.Gen
open Idealize.ShloMosaic Idealize.ShloMosaic.TcCoe Idealize.ShloMosaic.ValueIdx
open Idealize.ShloMosaic.TransposedLeftDot

/-! ## The body's arithmetic at an index -/

/-- The table of a block of ids at row `p` and column `g`: one where the row's id, read signed, is `g`, else zero. -/
theorem onehot_apply (bb : IVec S5000x1 32) (p : Fin 5000) (g : Fin 64) :
    k4_pay3 (F := Ideal) bb (ix2 p g) = if (bb (ix2 p 0)).toInt = (g.val : Int) then (1 : EReal) else 0 := by
  have hbc : broadcastTo S5000x64 (shapeCast S5000x1 bb shapeCasts_S5000x1_S5000x1) broadcasts_S5000x1_S5000x64 (ix2 p g)
      = bb (ix2 p 0) := by
    refine (broadcastTo_apply _ _ (ix2 p g) (ix2 p 0) ?_).trans ?_
    · intro a
      match a with
      | ⟨0, _⟩ => show p.val = if (5000 : Nat) = 1 then 0 else p.val; rw [if_neg (by decide)]
      | ⟨1, _⟩ => show 0 = if (1 : Nat) = 1 then 0 else g.val; rw [if_pos rfl]
    · rw [shapeCast_self]
  have hio : iota .tc S5000x64 32 [1] iota_S5000x64_d1_w32 (ix2 p g) = BitVec.ofNat 32 g.val :=
    iota_single_apply .tc S5000x64 32 1 iota_S5000x64_d1_w32 (ix2 p g)
  show ((((IntOp.cmpi .eq
      (broadcastTo S5000x64 (shapeCast S5000x1 bb shapeCasts_S5000x1_S5000x1) broadcasts_S5000x1_S5000x64 (ix2 p g))
      (iota .tc S5000x64 32 [1] iota_S5000x64_d1_w32 (ix2 p g))).setWidth 32).toInt : ℝ) : EReal) = _
  rw [hbc, hio]
  exact indicator_word _ _ (by have := g.isLt; omega)

/-- The cleared accumulators. -/
theorem zeroSums_apply (i : S64x128.Idx) : k4_pay1 (F := Ideal) i = (0 : EReal) := by
  show Ideal.ofBits .f32 0x00000000#32 = 0
  exact Ideal.ofBits_zero_f32
theorem zeroCounts_apply (i : S64x128.Idx) : k4_pay2 (F := Ideal) i = (0 : EReal) := by
  show Ideal.ofBits .f32 0x00000000#32 = 0
  exact Ideal.ofBits_zero_f32

/-- The sums' update at `(g, d)`: what the accumulator held plus the sum of column `d` of the block's rows whose id is `g`. -/
theorem pay4_apply (bb : IVec S5000x1 32) (hb : FVec Ideal S5000x128 .f32) (acc : FVec Ideal S64x128 .f32)
    (g : Fin 64) (d : Fin 128) :
    k4_pay4 (F := Ideal) bb hb acc (ix2 g d)
      = acc (ix2 g d) + ∑ p : Fin 5000, (if (bb (ix2 p 0)).toInt = (g.val : Int) then hb (ix2 p d) else (0 : EReal)) := by
  show (shapeCast S64x128 (addf acc (matmul (F := Ideal)
      (tlDims 5000 64 128 dot_S5000x64_S5000x128_S64x128_0_0_1_1_n_n_wf) none (k4_pay3 (F := Ideal) bb)
      (shapeCast S5000x128 hb shapeCasts_S5000x128_S5000x128) (constant (F := Ideal) S64x128 .f32 0x00000000#32)))
      shapeCasts_S64x128_S64x128) (ix2 g d) = _
  rw [shapeCast_self, shapeCast_self]
  show acc (ix2 g d) + matmul (F := Ideal)
      (tlDims 5000 64 128 dot_S5000x64_S5000x128_S64x128_0_0_1_1_n_n_wf) none (k4_pay3 (F := Ideal) bb) hb
      (constant (F := Ideal) S64x128 .f32 0x00000000#32) (ix2 g d) = _
  rw [TransposedLeftDot.matmul_apply]
  show acc (ix2 g d) + (Ideal.ofBits .f32 0x00000000#32 + _) = _
  rw [Ideal.ofBits_zero_f32, zero_add]
  refine congrArg (fun z : EReal => acc (ix2 g d) + z) ?_
  refine Finset.sum_congr rfl fun p _ => ?_
  rw [onehot_apply]
  by_cases h : (bb (ix2 p 0)).toInt = (g.val : Int)
  · rw [if_pos h, if_pos h, one_mul]
  · rw [if_neg h, if_neg h, zero_mul]

/-- The counts' update at `(g, d)`: what the accumulator held plus the number of the block's rows whose id is `g`. -/
theorem pay5_apply (bb : IVec S5000x1 32) (acc : FVec Ideal S64x128 .f32) (g : Fin 64) (d : Fin 128) :
    k4_pay5 (F := Ideal) bb acc (ix2 g d)
      = acc (ix2 g d) + ∑ p : Fin 5000, (if (bb (ix2 p 0)).toInt = (g.val : Int) then (1 : EReal) else 0) := by
  have hbc : ∀ v : FVec Ideal S64x1 .f32,
      broadcastTo S64x128 (shapeCast S64x1 v shapeCasts_S64x1_S64x1) broadcasts_S64x1_S64x128 (ix2 g d) = v (ix2 g 0) := by
    intro v
    refine (broadcastTo_apply _ _ (ix2 g d) (ix2 g 0) ?_).trans ?_
    · intro a
      match a with
      | ⟨0, _⟩ => show g.val = if (64 : Nat) = 1 then 0 else g.val; rw [if_neg (by decide)]
      | ⟨1, _⟩ => show 0 = if (1 : Nat) = 1 then 0 else d.val; rw [if_pos rfl]
    · rw [shapeCast_self]
  show (shapeCast S64x128 (addf acc (broadcastTo S64x128 (shapeCast S64x1 (matmul (F := Ideal)
      (tlDims 5000 64 1 dot_S5000x64_S5000x1_S64x1_0_0_1_1_n_n_wf) none (k4_pay3 (F := Ideal) bb)
      (broadcast S5000x1 (Scalar.ofBits (F := Ideal) .f32 0x3F800000#32)) (constant (F := Ideal) S64x1 .f32 0x00000000#32))
      shapeCasts_S64x1_S64x1) broadcasts_S64x1_S64x128)) shapeCasts_S64x128_S64x128) (ix2 g d) = _
  rw [shapeCast_self]
  show acc (ix2 g d) + broadcastTo S64x128 (shapeCast S64x1 (matmul (F := Ideal)
      (tlDims 5000 64 1 dot_S5000x64_S5000x1_S64x1_0_0_1_1_n_n_wf) none (k4_pay3 (F := Ideal) bb)
      (broadcast S5000x1 (Scalar.ofBits (F := Ideal) .f32 0x3F800000#32)) (constant (F := Ideal) S64x1 .f32 0x00000000#32))
      shapeCasts_S64x1_S64x1) broadcasts_S64x1_S64x128 (ix2 g d) = _
  rw [hbc, TransposedLeftDot.matmul_apply]
  show acc (ix2 g d) + (Ideal.ofBits .f32 0x00000000#32 + _) = _
  rw [Ideal.ofBits_zero_f32, zero_add]
  refine congrArg (fun z : EReal => acc (ix2 g d) + z) ?_
  refine Finset.sum_congr rfl fun p _ => ?_
  rw [onehot_apply]
  show _ * Ideal.ofBits .f32 0x3F800000#32 = _
  rw [Ideal.ofBits_one_f32, mul_one]

end Cert.KernelIdeal.Hand

namespace Cert.KernelIdeal.Hand

open Cert.KernelIdeal Cert.KernelIdeal.Gen
open Idealize.ShloMosaic Idealize.ShloMosaic.TcCoe Idealize.ShloMosaic.ValueIdx
open Idealize.ShloMosaic.TransposedLeftDot Idealize.ShloMosaic.GatherScatter

/-! ## The accumulators after a point, and the stored quotient -/

/-- The sums accumulator after point `n` at `(g, d)`: over the points up to `n` and the rows of each one's block whose id
    is `g`, the sum of column `d`. -/
theorem sAcc_apply (hb : ℕ → FVec Ideal S5000x128 .f32) (bb : ℕ → IVec S5000x1 32) (g : Fin 64) (d : Fin 128) :
    ∀ n : ℕ, @Eq EReal (sAcc (F := Ideal) hb bb n (ix2 g d))
      (∑ t ∈ Finset.range (n + 1), ∑ p : Fin 5000,
        (if (bb t (ix2 p 0)).toInt = (g.val : Int) then hb t (ix2 p d) else (0 : EReal)))
  | 0 => by
    show k4_pay4 (F := Ideal) (bb 0) (hb 0) (k4_pay1 (F := Ideal)) (ix2 g d) = _
    rw [pay4_apply, zeroSums_apply, zero_add, Finset.sum_range_one]
  | n + 1 => by
    show k4_pay4 (F := Ideal) (bb (n + 1)) (hb (n + 1)) (sAcc (F := Ideal) hb bb n) (ix2 g d) = _
    rw [pay4_apply, sAcc_apply hb bb g d n, Finset.sum_range_succ _ (n + 1)]

/-- The counts accumulator after point `n` at `(g, d)`: the number of rows, over the points up to `n`, whose id is `g`. -/
theorem cAcc_apply (bb : ℕ → IVec S5000x1 32) (g : Fin 64) (d : Fin 128) :
    ∀ n : ℕ, @Eq EReal (cAcc (F := Ideal) bb n (ix2 g d))
      (∑ t ∈ Finset.range (n + 1), ∑ p : Fin 5000,
        (if (bb t (ix2 p 0)).toInt = (g.val : Int) then (1 : EReal) else 0))
  | 0 => by
    show k4_pay5 (F := Ideal) (bb 0) (k4_pay2 (F := Ideal)) (ix2 g d) = _
    rw [pay5_apply, zeroCounts_apply, zero_add, Finset.sum_range_one]
  | n + 1 => by
    show k4_pay5 (F := Ideal) (bb (n + 1)) (cAcc (F := Ideal) bb n) (ix2 g d) = _
    rw [pay5_apply, cAcc_apply bb g d n, Finset.sum_range_succ _ (n + 1)]

/-- The stored quotient at an index. -/
theorem pay6_apply (s c : FVec Ideal S64x128 .f32) (g : Fin 64) (d : Fin 128) :
    @Eq EReal (k4_pay6 (F := Ideal) s c (ix2 g d)) (Ideal.div (s (ix2 g d)) (max (c (ix2 g d)) 1)) := by
  show Ideal.div (s (ix2 g d)) (max (c (ix2 g d)) (Ideal.ofBits .f32 0x3F800000#32)) = _
  rw [Ideal.ofBits_one_f32]

/-- What the last point stores, at `(g, d)`: the sums over the counts clamped at one from below. -/
theorem poolOut_apply (hb : ℕ → FVec Ideal S5000x128 .f32) (bb : ℕ → IVec S5000x1 32) (g : Fin 64) (d : Fin 128) :
    @Eq EReal (poolOut (F := Ideal) hb bb (ix2 g d))
      (Ideal.div
        (∑ t ∈ Finset.range 10, ∑ p : Fin 5000,
          (if (bb t (ix2 p 0)).toInt = (g.val : Int) then hb t (ix2 p d) else (0 : EReal)))
        (max (∑ t ∈ Finset.range 10, ∑ p : Fin 5000,
          (if (bb t (ix2 p 0)).toInt = (g.val : Int) then (1 : EReal) else 0)) 1)) := by
  rw [← sAcc_apply hb bb g d 9, ← cAcc_apply bb g d 9]
  exact pay6_apply _ _ g d

/-! ## The reference at an index -/

/-- The reference's pool at `(g, d)`: the sum of column `d` of the rows whose id is `g` over their number clamped at one. -/
theorem poolRef_apply (H : FVec Ideal Cert.ReferenceIdeal.S50000x128 .f32) (ids : IVec Cert.ReferenceIdeal.S50000x1 32)
    (g : Fin 64) (d : Fin 128) :
    @Eq EReal (poolRef (F := Ideal) H ids (ix2 g d))
      (Ideal.div
        (∑ r : Fin 50000, (if (ids (ix2 r 0)).toInt = (g.val : Int) then H (ix2 r d) else (0 : EReal)))
        (max (∑ r : Fin 50000, (if (ids (ix2 r 0)).toInt = (g.val : Int) then (1 : EReal) else 0)) 1)) := by
  have hs : Host.scatterAdd (F := Ideal) Cert.ReferenceIdeal.scatter_S64x128_S50000x1_S50000x128_1_0_0_1
      (Cert.ReferenceIdeal.Read.val_main_v82 (F := Ideal)) ids H (ix2 g d)
      = ∑ r : Fin 50000, (if (ids (ix2 r 0)).toInt = (g.val : Int) then H (ix2 r d) else (0 : EReal)) := by
    refine (rowScatterAdd_apply (φ := .f32) Cert.ReferenceIdeal.Facts₀.scatter_S64x128_S50000x1_S50000x128_1_0_0_1_wf
      (Cert.ReferenceIdeal.Read.val_main_v82 (F := Ideal)) ids H g d).trans ?_
    rw [Finset.sum_filter]
    show Ideal.ofBits .f32 0x00000000#32 + _ = _
    rw [Ideal.ofBits_zero_f32, zero_add]
  have hc : Host.scatterAdd (F := Ideal) (φ := .f32) Cert.ReferenceIdeal.scatter_S64_S50000x1_S50000_n_0_0_1
      (Cert.ReferenceIdeal.Read.val_main_v86 (F := Ideal)) ids (Cert.ReferenceIdeal.Read.val_main_v85 (F := Ideal)) (ix1 g)
      = ∑ r : Fin 50000, (if (ids (ix2 r 0)).toInt = (g.val : Int) then (1 : EReal) else 0) := by
    refine (vecScatterAdd_apply (φ := .f32) Cert.ReferenceIdeal.Facts₀.scatter_S64_S50000x1_S50000_n_0_0_1_wf
      (Cert.ReferenceIdeal.Read.val_main_v86 (F := Ideal)) ids (Cert.ReferenceIdeal.Read.val_main_v85 (F := Ideal)) g).trans ?_
    rw [Finset.sum_filter]
    show Ideal.ofBits .f32 0x00000000#32 + _ = _
    rw [Ideal.ofBits_zero_f32, zero_add]
    refine Finset.sum_congr rfl fun r _ => ?_
    show (if _ then Ideal.ofBits .f32 0x3F800000#32 else 0) = _
    rw [Ideal.ofBits_one_f32]
  unfold poolRef
  refine (hostDivf_apply _ _ (ix2 g d)).trans ?_
  rw [hs]
  refine congrArg (Ideal.div _) ?_
  refine (broadcastInDim_apply _ _ _ (ix2 g d) (ix2 g 0) ?_).trans ?_
  · intro a
    match a with
    | ⟨0, _⟩ => show g.val = if (64 : Nat) = 1 then 0 else g.val; rw [if_neg (by decide)]
    | ⟨1, _⟩ => show 0 = if (1 : Nat) = 1 then 0 else d.val; rw [if_pos rfl]
  refine (broadcastInDim_apply _ _ _ (ix2 g 0) (ix1 g) ?_).trans ?_
  · intro a
    match a with
    | ⟨0, _⟩ => show g.val = if (64 : Nat) = 1 then 0 else g.val; rw [if_neg (by decide)]
  refine (maximumf_apply _ _ (ix1 g)).trans ?_
  rw [hc]
  show max _ (Ideal.ofBits .f32 0x3F800000#32) = _
  rw [Ideal.ofBits_one_f32]

/-! ## Ten runs of rows are all the rows -/

/-- A sum over `T` consecutive runs of `P` rows is the sum over all `T · P` rows. -/
theorem sum_runs {A : Type*} [AddCommMonoid A] (T P R : ℕ) (hR : T * P = R) (φ : Fin R → A) :
    ∑ t : Fin T, ∑ p : Fin P, φ ⟨P * t.val + p.val, by
      have := t.isLt; have := p.isLt
      calc P * t.val + p.val < P * t.val + P := by omega
        _ = P * (t.val + 1) := by ring
        _ ≤ P * T := Nat.mul_le_mul_left _ (by omega)
        _ = R := by rw [Nat.mul_comm]; exact hR⟩ = ∑ r, φ r := by
  subst hR
  rw [← Equiv.sum_comp finProdFinEquiv φ, Fintype.sum_prod_type]
  refine Finset.sum_congr rfl fun t _ => Finset.sum_congr rfl fun p _ => congrArg φ (Fin.ext ?_)
  show P * t.val + p.val = p.val + P * t.val
  omega

/-! ## The two sides joined -/

/-- When the blocks of the ten points are the ten consecutive runs of 5000 rows of the node array and of the id column,
    what the last point stores is the reference's pool of the two arrays. -/
theorem poolOut_eq_poolRef (H : FVec Ideal Cert.ReferenceIdeal.S50000x128 .f32) (ids : IVec Cert.ReferenceIdeal.S50000x1 32)
    (hb : ℕ → FVec Ideal S5000x128 .f32) (bb : ℕ → IVec S5000x1 32)
    (hH : ∀ (t : Fin 10) (p : Fin 5000) (d : Fin 128),
      hb t.val (ix2 p d) = H (ix2 (⟨5000 * t.val + p.val, by have := t.isLt; have := p.isLt; omega⟩ : Fin 50000) d))
    (hI : ∀ (t : Fin 10) (p : Fin 5000),
      bb t.val (ix2 p 0) = ids (ix2 (⟨5000 * t.val + p.val, by have := t.isLt; have := p.isLt; omega⟩ : Fin 50000) 0)) :
    @Eq (FVec Ideal S64x128 .f32) (poolOut (F := Ideal) hb bb) (poolRef (F := Ideal) H ids) := by
  funext i
  obtain ⟨g, d, rfl⟩ : ∃ (g : Fin 64) (d : Fin 128), i = ix2 g d := ⟨i 0, i 1, eq_ix2 i⟩
  refine (poolOut_apply hb bb g d).trans (Eq.trans ?_ (poolRef_apply H ids g d).symm)
  rw [Finset.sum_range, Finset.sum_range]
  rw [← sum_runs 10 5000 50000 (by decide)
      (fun r : Fin 50000 => if (ids (ix2 r 0)).toInt = (g.val : Int) then H (ix2 r d) else (0 : EReal)),
    ← sum_runs 10 5000 50000 (by decide)
      (fun r : Fin 50000 => if (ids (ix2 r 0)).toInt = (g.val : Int) then (1 : EReal) else 0)]
  refine congrArg₂ Ideal.div ?_ (congrArg (fun z : EReal => max z 1) ?_)
  · refine Finset.sum_congr rfl fun t _ => Finset.sum_congr rfl fun p _ => ?_
    rw [hH t p d, hI t p]
  · refine Finset.sum_congr rfl fun t _ => Finset.sum_congr rfl fun p _ => ?_
    rw [hI t p]

end Cert.KernelIdeal.Hand

end
-- ==== Proof.KernelIdeal.Val4.lean ====
/-
  Region 4 over the extended reals: the array the one write-back leaves is the reference's mean pool of the node rows by graph id.
-/
import proofs.«418164_j56556129354064_1_alg».proof.ReferenceIdeal
import proofs.«418164_j56556129354064_1_alg».proof.Proof.Gen.ReferenceIdeal
import proofs.«418164_j56556129354064_1_alg».proof.Proof.RefSpec
import proofs.«418164_j56556129354064_1_alg».proof.Proof.KernelIdeal.Region4
import proofs.«418164_j56556129354064_1_alg».proof.Proof.LibGatherScatter
import proofs.«418164_j56556129354064_1_alg».proof.Proof.KernelIdeal.Pool
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The blocks are runs of rows of the arrays -/

/-- The printed index maps over the grid: the two inputs' blocks move down the rows with the point, the output's block
    stays at the origin. -/
theorem idx4 : ∀ t : Fin cfg4.N, win4_0.index t 0 = t.val ∧ win4_0.index t 1 = 0
    ∧ win4_1.index t 0 = t.val ∧ win4_1.index t 1 = 0
    ∧ win4_2.index t 0 = 0 ∧ win4_2.index t 1 = 0 :=
  (by decide +kernel : ∀ t : Fin grid4.N, _)

/-- The node rows' block at point `t` is rows `5000 t … 5000 t + 4999` of the node array. -/
theorem iblk4_0_apply (c : Dev nD) (t : Fin cfg4.N) (p : Fin 5000) (d : Fin 128) (r : Fin 50000)
    (hr : r.val = 5000 * t.val + p.val) :
    (iblk4 (F := Ideal) V c 0 t : FVec Ideal S5000x128 .f32) (ix2 p d)
      = (V c main_v73 : FVec Ideal S50000x128 .f32) (ix2 r d) := by
  obtain ⟨e0, e1, -⟩ := idx4 t
  unfold iblk4
  rw [View.read_apply]
  show V c main_v73 _ = V c main_v73 _
  congr 1
  funext a
  apply Fin.ext
  match a with
  | ⟨0, _⟩ => show win4_0.index t 0 * 5000 + 1 * p.val = r.val; rw [e0, hr]; omega
  | ⟨1, _⟩ => show win4_0.index t 1 * 128 + 1 * d.val = d.val; rw [e1]; omega

/-- The ids' block at point `t` is rows `5000 t … 5000 t + 4999` of the id column. -/
theorem iblk4_1_apply (c : Dev nD) (t : Fin cfg4.N) (p : Fin 5000) (r : Fin 50000)
    (hr : r.val = 5000 * t.val + p.val) :
    (iblk4 (F := Ideal) V c 1 t : IVec S5000x1 32) (ix2 p 0)
      = (V c main_v74 : IVec S50000x1 32) (ix2 r 0) := by
  obtain ⟨-, -, e2, e3, -⟩ := idx4 t
  unfold iblk4
  rw [View.read_apply]
  show V c main_v74 _ = V c main_v74 _
  congr 1
  funext a
  apply Fin.ext
  match a with
  | ⟨0, _⟩ => show win4_1.index t 0 * 5000 + 1 * p.val = r.val; rw [e2, hr]; omega
  | ⟨1, _⟩ => show win4_1.index t 1 * 1 + 1 * 0 = 0; rw [e3]

/-! ## The one write-back -/

/-- What a point writes back is the stored quotient read through its block: the output's one block starts at the origin
    and is the whole array. -/
theorem flushed4_eq (c : Dev nD) (t : Fin cfg4.N) :
    (dat4 (F := Ideal) V c).flushed 2 t
      = ((cfg4.win 2).blk t).view.read (Elt Ideal) (poolOut (F := Ideal) (hblk V c) (bblk V c)) := by
  obtain ⟨-, -, -, -, e4, e5⟩ := idx4 t
  show (cfg4.win 2).cut (grid4.coords t) ((dat4 (F := Ideal) V c).after 2 t) = _
  rw [after4_2]
  generalize poolOut (F := Ideal) (hblk V c) (bblk V c) = G
  funext j
  show G ((win4 2).xinj (grid4.coords t) j) = G (((cfg4.win 2).blk t).view.emb j)
  refine congrArg G (funext fun a => Fin.ext ?_)
  match a with
  | ⟨0, _⟩ => show (j 0).val = win4_2.index t 0 * 64 + 1 * (j 0).val; rw [e4]; omega
  | ⟨1, _⟩ => show (j 1).val = win4_2.index t 1 * 128 + 1 * (j 1).val; rw [e5]; omega

/-- Every index of the output array is in the last point's block, which flushes. -/
theorem covered4 (i : S64x128.Idx) :
    ∃ t : Fin cfg4.N, (cfg4.win 2).flush t = true ∧ i ∈ ((cfg4.win 2).blk t).view.set := by
  refine ⟨t4_9, (flush4_2 t4_9).mpr rfl, ?_⟩
  obtain ⟨-, -, -, -, e4, e5⟩ := idx4 t4_9
  show i ∈ ((View.whole main_v75).slice (win4_2.rect t4_9)).set
  rw [View.set_slice_whole, Rect.mem_set_unit]
  intro a
  have h0 : (i 0 : Nat) < 64 := (i 0).isLt
  have h1 : (i 1 : Nat) < 128 := (i 1).isLt
  match a with
  | ⟨0, _⟩ =>
    show win4_2.index t4_9 0 * win4_2.size 0 ≤ (i 0 : Nat)
      ∧ (i 0 : Nat) < win4_2.index t4_9 0 * win4_2.size 0 + win4_2.xsize (grid4.coords t4_9) 0
    rw [e4, show win4_2.xsize (grid4.coords t4_9) 0 = 64 from by decide +kernel]; omega
  | ⟨1, _⟩ =>
    show win4_2.index t4_9 1 * win4_2.size 1 ≤ (i 1 : Nat)
      ∧ (i 1 : Nat) < win4_2.index t4_9 1 * win4_2.size 1 + win4_2.xsize (grid4.coords t4_9) 1
    rw [e5, show win4_2.xsize (grid4.coords t4_9) 1 = 128 from by decide +kernel]; omega

/-- So the output array ends holding the stored quotient. -/
theorem arr4_poolOut (c : Dev nD) :
    @Eq (FVec Ideal S64x128 .f32) ((dat4 (F := Ideal) V c).arrAt 2 cfg4.N)
      (poolOut (F := Ideal) (hblk V c) (bblk V c)) :=
  (dat4 (F := Ideal) V c).arrAt_eq_of_cover 2 (poolOut (F := Ideal) (hblk V c) (bblk V c))
    (fun t _ => flushed4_eq V c t) covered4

/-! ## The region's result -/

theorem arr4_eq (c : Dev nD) :
    @Eq (FVec Ideal S64x128 .f32) ((dat4 (F := Ideal) V c).arrAt 2 cfg4.N)
      (poolRef (F := Ideal) (V c main_v73) (V c main_v74)) := by
  have hN : cfg4.N = 10 := N_4
  refine (arr4_poolOut V c).trans ?_
  refine poolOut_eq_poolRef (V c main_v73) (V c main_v74) (hblk V c) (bblk V c) ?_ ?_
  · intro t p d
    exact iblk4_0_apply V c ⟨t.val % cfg4.N, Nat.mod_lt _ N4_pos⟩ p d _
      (by show 5000 * t.val + p.val = 5000 * (t.val % cfg4.N) + p.val
          rw [hN, Nat.mod_eq_of_lt t.isLt])
  · intro t p
    exact iblk4_1_apply V c ⟨t.val % cfg4.N, Nat.mod_lt _ N4_pos⟩ p _
      (by show 5000 * t.val + p.val = 5000 * (t.val % cfg4.N) + p.val
          rw [hN, Nat.mod_eq_of_lt t.isLt])

end Cert.KernelIdeal.Hand

end
-- ==== Proof.LibKeepdimsColumn.lean ====
/-
  A sum over the last axis kept as a column (jnp.sum(x, axis=1, keepdims=True)), read at an index.

  A lane sum of an [a, b] array along its second axis leaves an [a] vector; keepdims casts it to an [a, 1] column,
  which is then broadcast over b columns, or (on the host) transposed to a [1, a] row. Each of these re-layings reads its
  operand at the evident index, for any extents a and b:
    the lane sum at row p is the sum over the row,
    the [a] vector cast to [a, 1], at (i, u), is the vector at i,
    the [a, 1] column broadcast to [a, b], at (p, c), is the column at row p,
    the [a, 1] column transposed to [1, a], at (u, i), is the column at row i.
-/
import Idealize.ShloMosaic.Lib.Pipeline.Value
import Idealize.ShloMosaic.Lib.ValueIdx
import Idealize.ShloMosaic.PureOps.Ideal.Laws

noncomputable section

namespace Idealize.ShloMosaic.KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1]` column transposed to a `[1, a]` row reads, at `(u, i)`, the column at row `i`. -/
theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_apply _ x h _ _ fun c => match c with | ⟨0, _⟩ => rfl | ⟨1, _⟩ => rfl

/-- On the extended reals a lane sum of an `[a, b]` array along its second axis, from the neutral accumulator, reads at
    row `p` as the sum over `d` of the array at `(p, d)`. -/
theorem laneSum_ab_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ d : Fin b, v (ix2 p d) := by
  rw [Ideal.multiReduction_add_single]
  refine Finset.sum_congr rfl fun d _ => congrArg v (funext fun c => Fin.ext ?_)
  match c with
  | ⟨0, _⟩ => rfl
  | ⟨1, _⟩ => rfl

end Idealize.ShloMosaic.KeepdimsColumn

end
-- ==== Proof.LibVectorAsColumnRow.lean ====
/-
  A VECTOR LAID OUT AS A COLUMN OR AS A ROW, BY A CAST OR BY A BROADCAST, IS ONE ARRAY.

  jnp's `v.reshape(n, 1)` prints as a shape cast of the [n] vector to [n, 1]; `v[:, None]` prints as a broadcast of the
  vector along a new trailing axis (`broadcast_in_dim` with dims [0]). Both read, at (i, 0), the vector at i, so the two
  [n, 1] arrays are equal; likewise `v.reshape(1, n)` and `v[None, :]` (dims [1]) read, at (0, j), the vector at j. Stated
  as equations between whole arrays, for any extent and any element type, so that a term built with one spelling can be
  rewritten into the other under further array operations.
-/
import Idealize.ShloMosaic.Lib.Pipeline.Value
import Idealize.ShloMosaic.Lib.ValueIdx
import Idealize.ShloMosaic.Lib.ValueLayout
import proofs.«418164_j56556129354064_1_alg».proof.Proof.LibKeepdimsColumn

noncomputable section

namespace Idealize.ShloMosaic.VectorLayout

open Idealize.ShloMosaic Idealize.ShloMosaic.ValueIdx

/-- A vector laid out as a column — by a cast, or by a broadcast along a new trailing axis — is one array. -/
theorem column_cast_eq_broadcast {α : Type} {a : ℕ} (v : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ v h = broadcastInDim ⟨2, ![a, 1]⟩ ![0] h' v := by
  funext i
  obtain ⟨p, u, rfl⟩ : ∃ (p : Fin a) (u : Fin 1), i = ix2 p u := ⟨i 0, i 1, eq_ix2 i⟩
  rw [KeepdimsColumn.shapeCast_a_a1_apply v h p u]
  refine (broadcastInDim_apply _ h' v (ix2 p u) (ix1 p) fun x => ?_).symm
  match x with
  | ⟨0, _⟩ =>
    show p.val = if a = 1 then 0 else p.val
    split
    · have := p.isLt; omega
    · rfl

/-- A vector laid out as a row — by a cast, or by a broadcast along a new leading axis — is one array. -/
theorem row_cast_eq_broadcast {α : Type} {b : ℕ} (v : (⟨1, ![b]⟩ : Shape).Idx → α)
    (h : (⟨1, ![b]⟩ : Shape).ShapeCasts ⟨2, ![1, b]⟩)
    (h' : (⟨1, ![b]⟩ : Shape).BroadcastsInDim ⟨2, ![1, b]⟩ (![1] : Fin 1 → Fin 2)) :
    shapeCast ⟨2, ![1, b]⟩ v h = broadcastInDim ⟨2, ![1, b]⟩ ![1] h' v := by
  funext i
  obtain ⟨u, q, rfl⟩ : ∃ (u : Fin 1) (q : Fin b), i = ix2 u q := ⟨i 0, i 1, eq_ix2 i⟩
  rw [shapeCast_a_1a_apply v h u q]
  refine (broadcastInDim_apply _ h' v (ix2 u q) (ix1 q) fun x => ?_).symm
  match x with
  | ⟨0, _⟩ =>
    show q.val = if b = 1 then 0 else q.val
    split
    · have := q.isLt; omega
    · rfl

end Idealize.ShloMosaic.VectorLayout

end
-- ==== Proof.LibTRefCast.lean ====
/-
  A VALUE STORED THROUGH A TYPED REFERENCE AND READ BACK IS ITSELF.

  The operations of a module-local function (a `func.call` of the program: jnp.take's `_take`, jnp.where's `_where`, …) are
  built over typed references, and each moves its function's operands and result between the value's type and the
  buffer's own along the reference's type equation (`TRef.ofBuf`, `TRef.toBuf`). Read back after a run of such
  operations (the `*_result` lemmas, `after_results`, `after_results_simp`), every intermediate value therefore sits
  under a pair `x.ofBuf (x.toBuf v)` of the SAME reference, and the term, though equal to the plain composition of the
  operations' functions, is not syntactically so; closing it by `rfl` sends the elaborator through every transport.
  `simp only [TRef.ofBuf_toBuf]` removes the pairs without evaluating any buffer type; what is left is the outermost
  `toBuf` and the `ofBuf` of each buffer the stretch reads, each the identity at a literal reference by `rfl`.
-/
import Idealize.ShloMosaic.Lib.StableHlo

namespace Idealize.ShloMosaic.StableHlo.TRef

variable {sig : RefSig} {Val : EltTy → Type} {T : BufTy}

/-- Storing a value at a typed reference's buffer type and reading it back at the value's type gives the value. -/
theorem ofBuf_toBuf (x : TRef sig T) (v : T.Contents Val) : x.ofBuf (x.toBuf v) = v := by
  obtain ⟨r, h, _, _⟩ := x
  subst h
  rfl

/-- Reading a buffer's contents at the value's type and storing them back gives the contents. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.KernelIdeal.Chain0.lean ====
/-
  The buffers the three first stretches of host operations leave for the rest of @main, read as the reference's own
  stages of the arguments: the source and destination ids of the edges with the self loops appended, the edges'
  normalisation, and the three bias vectors laid out as rows.
-/
import proofs.«418164_j56556129354064_1_alg».proof.Proof.Gen.KernelIdeal.Regions
import proofs.«418164_j56556129354064_1_alg».proof.Proof.RefRead
import proofs.«418164_j56556129354064_1_alg».proof.Proof.LibKeepdimsColumn
import proofs.«418164_j56556129354064_1_alg».proof.Proof.LibVectorAsColumnRow
import proofs.«418164_j56556129354064_1_alg».proof.Proof.LibTRefCast
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-! ## The first stretch: the edges' ids with the self loops appended, the degrees, their inverse roots -/

set_option maxHeartbeats 2000000 in
theorem stretch0_src (U : Valuation τ sig (Elt F)) : @Eq (IVec S850000 32) (StableHlo.after hostOps0 U main_v3)
    (Cert.ReferenceIdeal.Read.val_main_v3 (F := F) (U main_arg1)) := by
  show StableHlo.after hostOps0 U (Proc.devRef .tc main_v3) = _
  dsimp only [hostOps0]
  after_results
  unfold Cert.ReferenceIdeal.Read.val_main_v3 Cert.ReferenceIdeal.Read.val_main_v2 Cert.ReferenceIdeal.Read.val_main_v1
    Cert.ReferenceIdeal.Read.val_main_v0
  rfl

set_option maxHeartbeats 2000000 in
theorem stretch0_dst (U : Valuation τ sig (Elt F)) : @Eq (IVec S850000 32) (StableHlo.after hostOps0 U main_v6)
    (Cert.ReferenceIdeal.Read.val_main_v6 (F := F) (U main_arg1)) := by
  show StableHlo.after hostOps0 U (Proc.devRef .tc main_v6) = _
  dsimp only [hostOps0]
  after_results
  unfold Cert.ReferenceIdeal.Read.val_main_v6 Cert.ReferenceIdeal.Read.val_main_v5 Cert.ReferenceIdeal.Read.val_main_v4
    Cert.ReferenceIdeal.Read.val_main_v0
  rfl

set_option maxHeartbeats 2000000 in
theorem stretch0_pos (U : Valuation τ sig (Elt F)) :
    @Eq ((⟨S50000, .i1⟩ : BufTy).Contents (Elt F)) (StableHlo.after hostOps0 U main_v12)
      (Cert.ReferenceIdeal.Read.val_main_v12 (F := F) (U main_arg1)) := by
  show StableHlo.after hostOps0 U (Proc.devRef .tc main_v12) = _
  dsimp only [hostOps0]
  after_results
  unfold Cert.ReferenceIdeal.Read.val_main_v12 Cert.ReferenceIdeal.Read.val_main_v11 Cert.ReferenceIdeal.Read.val_main_cst_1 Cert.ReferenceIdeal.Read.val_main_v10 Cert.ReferenceIdeal.Read.val_main_v9 Cert.ReferenceIdeal.Read.val_main_v8 Cert.ReferenceIdeal.Read.val_main_cst_0 Cert.ReferenceIdeal.Read.val_main_v7 Cert.ReferenceIdeal.Read.val_main_cst Cert.ReferenceIdeal.Read.val_main_v6 Cert.ReferenceIdeal.Read.val_main_v5 Cert.ReferenceIdeal.Read.val_main_v4 Cert.ReferenceIdeal.Read.val_main_v0
  rfl

set_option maxHeartbeats 2000000 in
theorem stretch0_rsqrt (U : Valuation τ sig (Elt F)) :
    @Eq ((⟨S50000, .f32⟩ : BufTy).Contents (Elt F)) (StableHlo.after hostOps0 U main_v13)
      (Cert.ReferenceIdeal.Read.val_main_v13 (F := F) (U main_arg1)) := by
  show StableHlo.after hostOps0 U (Proc.devRef .tc main_v13) = _
  dsimp only [hostOps0]
  after_results
  unfold Cert.ReferenceIdeal.Read.val_main_v13 Cert.ReferenceIdeal.Read.val_main_v10 Cert.ReferenceIdeal.Read.val_main_v9 Cert.ReferenceIdeal.Read.val_main_v8 Cert.ReferenceIdeal.Read.val_main_cst_0 Cert.ReferenceIdeal.Read.val_main_v7 Cert.ReferenceIdeal.Read.val_main_cst Cert.ReferenceIdeal.Read.val_main_v6 Cert.ReferenceIdeal.Read.val_main_v5 Cert.ReferenceIdeal.Read.val_main_v4 Cert.ReferenceIdeal.Read.val_main_v0
  rfl

set_option maxHeartbeats 2000000 in
theorem stretch0_zero (U : Valuation τ sig (Elt F)) :
    @Eq ((⟨S_, .f32⟩ : BufTy).Contents (Elt F)) (StableHlo.after hostOps0 U main_cst_2)
      (Cert.ReferenceIdeal.Read.val_main_cst_2 (F := F)) := by
  show StableHlo.after hostOps0 U (Proc.devRef .tc main_cst_2) = _
  dsimp only [hostOps0]
  after_results
  unfold Cert.ReferenceIdeal.Read.val_main_cst_2
  rfl

/-! ## The second stretch: the inverse roots where the degree is positive, zero elsewhere -/

set_option maxHeartbeats 2000000 in
theorem stretch1_w (U : Valuation τ sig (Elt F)) (x1 : IVec S2x800000 32)
    (h12 : @Eq ((⟨S50000, .i1⟩ : BufTy).Contents (Elt F)) (U main_v12) (Cert.ReferenceIdeal.Read.val_main_v12 (F := F) x1))
    (h13 : @Eq ((⟨S50000, .f32⟩ : BufTy).Contents (Elt F)) (U main_v13) (Cert.ReferenceIdeal.Read.val_main_v13 (F := F) x1))
    (hc : @Eq ((⟨S_, .f32⟩ : BufTy).Contents (Elt F)) (U main_cst_2) (Cert.ReferenceIdeal.Read.val_main_cst_2 (F := F))) :
    @Eq (FVec F S50000 .f32) (StableHlo.after hostOps0_1 U main_v14) (Cert.ReferenceIdeal.Read.val_main_v14 (F := F) x1) := by
  show StableHlo.after hostOps0_1 U (Proc.devRef .tc main_v14) = _
  dsimp only [hostOps0_1]
  after_results
  simp only [TRef.ofBuf_toBuf, TRef.toBuf_ofBuf]
  rw [h12, h13, hc]
  unfold Cert.ReferenceIdeal.Read.val_main_v14 Cert.ReferenceIdeal.Read.val_main_call0_v1 Cert.ReferenceIdeal.Read.val_main_call0_v0
  rfl

/-! ## The third stretch: the edges' normalisation as a column, and the bias vectors laid out as rows -/

set_option maxHeartbeats 4000000 in
theorem stretch2_norm (U : Valuation τ sig (Elt F)) (x1 : IVec S2x800000 32)
    (h3 : @Eq ((⟨S850000, .i32⟩ : BufTy).Contents (Elt F)) (U main_v3) (Cert.ReferenceIdeal.Read.val_main_v3 (F := F) x1))
    (h6 : @Eq ((⟨S850000, .i32⟩ : BufTy).Contents (Elt F)) (U main_v6) (Cert.ReferenceIdeal.Read.val_main_v6 (F := F) x1))
    (h14 : @Eq ((⟨S50000, .f32⟩ : BufTy).Contents (Elt F)) (U main_v14) (Cert.ReferenceIdeal.Read.val_main_v14 (F := F) x1)) :
    @Eq (FVec F S850000x1 .f32) (StableHlo.after hostOps0_2 U main_v30) (Cert.ReferenceIdeal.Read.val_main_v30 (F := F) x1) := by
  show StableHlo.after hostOps0_2 U (Proc.devRef .tc main_v30) = _
  dsimp only [hostOps0_2]
  after_results
  rw [h3, h6, h14]
  unfold Cert.ReferenceIdeal.Read.val_main_v30 Cert.ReferenceIdeal.Read.val_main_v29 Cert.ReferenceIdeal.Read.val_main_v28 Cert.ReferenceIdeal.Read.val_main_v27 Cert.ReferenceIdeal.Read.val_main_v26 Cert.ReferenceIdeal.Read.val_main_v25 Cert.ReferenceIdeal.Read.val_main_v24 Cert.ReferenceIdeal.Read.val_main_c_5 Cert.ReferenceIdeal.Read.val_main_v23 Cert.ReferenceIdeal.Read.val_main_v22 Cert.ReferenceIdeal.Read.val_main_c_4 Cert.ReferenceIdeal.Read.val_main_v21 Cert.ReferenceIdeal.Read.val_main_v20 Cert.ReferenceIdeal.Read.val_main_v19 Cert.ReferenceIdeal.Read.val_main_v18 Cert.ReferenceIdeal.Read.val_main_v17 Cert.ReferenceIdeal.Read.val_main_c_3 Cert.ReferenceIdeal.Read.val_main_v16 Cert.ReferenceIdeal.Read.val_main_v15 Cert.ReferenceIdeal.Read.val_main_c
  rfl

set_option maxHeartbeats 2000000 in
theorem stretch2_b0 (U : Valuation τ sig (Elt F)) (x : FVec F S128 .f32)
    (h : @Eq ((⟨S128, .f32⟩ : BufTy).Contents (Elt F)) (U main_arg4) x) :
    @Eq (FVec F S1x128 .f32) (StableHlo.after hostOps0_2 U main_v31) (Cert.ReferenceIdeal.Read.val_main_v44 (F := F) x) := by
  show StableHlo.after hostOps0_2 U (Proc.devRef .tc main_v31) = _
  dsimp only [hostOps0_2]
  after_results
  rw [h]
  unfold Cert.ReferenceIdeal.Read.val_main_v44
  exact VectorLayout.row_cast_eq_broadcast x _ _

set_option maxHeartbeats 2000000 in
theorem stretch2_b1 (U : Valuation τ sig (Elt F)) (x : FVec F S128 .f32)
    (h : @Eq ((⟨S128, .f32⟩ : BufTy).Contents (Elt F)) (U main_arg6) x) :
    @Eq (FVec F S1x128 .f32) (StableHlo.after hostOps0_2 U main_v32) (Cert.ReferenceIdeal.Read.val_main_v61 (F := F) x) := by
  show StableHlo.after hostOps0_2 U (Proc.devRef .tc main_v32) = _
  dsimp only [hostOps0_2]
  after_results
  rw [h]
  unfold Cert.ReferenceIdeal.Read.val_main_v61
  exact VectorLayout.row_cast_eq_broadcast x _ _

set_option maxHeartbeats 2000000 in
theorem stretch2_b2 (U : Valuation τ sig (Elt F)) (x : FVec F S128 .f32)
    (h : @Eq ((⟨S128, .f32⟩ : BufTy).Contents (Elt F)) (U main_arg8) x) :
    @Eq (FVec F S1x128 .f32) (StableHlo.after hostOps0_2 U main_v33) (Cert.ReferenceIdeal.Read.val_main_v78 (F := F) x) := by
  show StableHlo.after hostOps0_2 U (Proc.devRef .tc main_v33) = _
  dsimp only [hostOps0_2]
  after_results
  rw [h]
  unfold Cert.ReferenceIdeal.Read.val_main_v78
  exact VectorLayout.row_cast_eq_broadcast x _ _

/-! ## The three stretches chained from the launch contents -/

variable (m : (ℓ : Loc nD τ sig) → Buf (Elt F) ℓ) (c : Dev nD)

theorem chain_src : @Eq (IVec S850000 32) (Gen.V3 m c main_v3)
    (Cert.ReferenceIdeal.Read.val_main_v3 (F := F) (m ((c : Thread nD τ).loc main_arg1))) :=
  (Gen.V3_of m c main_v3 (by decide)).trans <| (Gen.V2_of m c main_v3 (by decide)).trans <| stretch0_src (Gen.V0 m c)

theorem chain_dst : @Eq (IVec S850000 32) (Gen.V3 m c main_v6)
    (Cert.ReferenceIdeal.Read.val_main_v6 (F := F) (m ((c : Thread nD τ).loc main_arg1))) :=
  (Gen.V3_of m c main_v6 (by decide)).trans <| (Gen.V2_of m c main_v6 (by decide)).trans <| stretch0_dst (Gen.V0 m c)

/-- After the second stretch: the inverse roots of the positive degrees, zero elsewhere, as the reference has them. -/
theorem chain_w : @Eq (FVec F S50000 .f32) (Gen.V2 m c main_v14)
    (Cert.ReferenceIdeal.Read.val_main_v14 (F := F) (m ((c : Thread nD τ).loc main_arg1))) :=
  stretch1_w (Gen.V1 m c) _ (stretch0_pos (Gen.V0 m c)) (stretch0_rsqrt (Gen.V0 m c)) (stretch0_zero (Gen.V0 m c))

theorem chain_norm : @Eq (FVec F S850000x1 .f32) (Gen.V3 m c main_v30)
    (Cert.ReferenceIdeal.Read.val_main_v30 (F := F) (m ((c : Thread nD τ).loc main_arg1))) :=
  stretch2_norm (Gen.V2 m c) _
    ((Gen.V2_of m c main_v3 (by decide)).trans (stretch0_src (Gen.V0 m c)))
    ((Gen.V2_of m c main_v6 (by decide)).trans (stretch0_dst (Gen.V0 m c)))
    (chain_w m c)

theorem chain_b0 : @Eq (FVec F S1x128 .f32) (Gen.V3 m c main_v31)
    (Cert.ReferenceIdeal.Read.val_main_v44 (F := F) (m ((c : Thread nD τ).loc main_arg4))) :=
  stretch2_b0 (Gen.V2 m c) _ ((Gen.V2_of m c main_arg4 (by decide)).trans (Gen.V1_of m c main_arg4 (by decide)))

theorem chain_b1 : @Eq (FVec F S1x128 .f32) (Gen.V3 m c main_v32)
    (Cert.ReferenceIdeal.Read.val_main_v61 (F := F) (m ((c : Thread nD τ).loc main_arg6))) :=
  stretch2_b1 (Gen.V2 m c) _ ((Gen.V2_of m c main_arg6 (by decide)).trans (Gen.V1_of m c main_arg6 (by decide)))

theorem chain_b2 : @Eq (FVec F S1x128 .f32) (Gen.V3 m c main_v33)
    (Cert.ReferenceIdeal.Read.val_main_v78 (F := F) (m ((c : Thread nD τ).loc main_arg8))) :=
  stretch2_b2 (Gen.V2 m c) _ ((Gen.V2_of m c main_arg8 (by decide)).trans (Gen.V1_of m c main_arg8 (by decide)))

/-- The last stretch lays the graph ids out as a column, which is the reference's broadcast of them. -/
theorem chain_ids (U : Valuation τ sig (Elt F)) : @Eq (IVec S50000x1 32) (StableHlo.after hostOps4 U main_v74)
    (Cert.ReferenceIdeal.Read.val_main_v83 (F := F) (U main_arg2)) := by
  show StableHlo.after hostOps4 U (Proc.devRef .tc main_v74) = _
  dsimp only [hostOps4]
  after_results
  unfold Cert.ReferenceIdeal.Read.val_main_v83
  exact VectorLayout.column_cast_eq_broadcast _ _ _

end Cert.KernelIdeal.Hand

end
-- ==== Proof.KernelIdeal.Chain1.lean ====
/-
  The three stretches of host operations that aggregate a layer over the edges, each as one function of four buffers;
  and the reference's stages, layer by layer, as the same functions of the stages before them.
-/
import proofs.«418164_j56556129354064_1_alg».proof.Proof.Gen.KernelIdeal.Launch
import proofs.«418164_j56556129354064_1_alg».proof.Proof.RefSpec
import proofs.«418164_j56556129354064_1_alg».proof.Proof.LibTRefCast
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-! ## The kernel's aggregation stretches -/

set_option maxHeartbeats 2000000 in
theorem stretch1 (U : Valuation τ sig (Elt F)) :
    @Eq (FVec F S50000x128 .f32) (StableHlo.after hostOps1 U main_v46)
      (aggRef (F := F) (U main_v3) (U main_v6) (U main_v30) (U main_v34)) := by
  show StableHlo.after hostOps1 U (Proc.devRef .tc main_v46) = _
  dsimp only [hostOps1]
  after_results
  unfold aggRef
  rfl

set_option maxHeartbeats 2000000 in
theorem stretch2 (U : Valuation τ sig (Elt F)) :
    @Eq (FVec F S50000x128 .f32) (StableHlo.after hostOps2 U main_v59)
      (aggRef (F := F) (U main_v3) (U main_v6) (U main_v30) (U main_v47)) := by
  show StableHlo.after hostOps2 U (Proc.devRef .tc main_v59) = _
  dsimp only [hostOps2]
  after_results
  unfold aggRef
  rfl

set_option maxHeartbeats 2000000 in
theorem stretch3 (U : Valuation τ sig (Elt F)) :
    @Eq (FVec F S50000x128 .f32) (StableHlo.after hostOps3 U main_v72)
      (aggRef (F := F) (U main_v3) (U main_v6) (U main_v30) (U main_v60)) := by
  show StableHlo.after hostOps3 U (Proc.devRef .tc main_v72) = _
  dsimp only [hostOps3]
  after_results
  unfold aggRef
  rfl

/-! ## The reference's stages as those functions -/

section Ref
open Cert.ReferenceIdeal

variable (x0 : FVec F S50000x128 .f32) (x1 : IVec S2x800000 32) (x2 : IVec S50000 32) (x3 : FVec F S128x128 .f32) (x4 : FVec F S128 .f32)
  (x5 : FVec F S128x128 .f32) (x6 : FVec F S128 .f32) (x7 : FVec F S128x128 .f32) (x8 : FVec F S128 .f32)

theorem ref_v31 : Cert.ReferenceIdeal.Read.val_main_v31 (F := F) x0 x3 = linRef x0 x3 := by
  unfold Read.val_main_v31 linRef
  rfl
theorem ref_v43 : Cert.ReferenceIdeal.Read.val_main_v43 (F := F) x0 x1 x3
    = aggRef (Cert.ReferenceIdeal.Read.val_main_v3 (F := F) x1) (Cert.ReferenceIdeal.Read.val_main_v6 (F := F) x1) (Cert.ReferenceIdeal.Read.val_main_v30 (F := F) x1) (Cert.ReferenceIdeal.Read.val_main_v31 (F := F) x0 x3) := by
  unfold Read.val_main_v43 Read.val_main_v42 Read.val_main_v41 Read.val_main_v40 Read.val_main_v39 Read.val_main_v38 Read.val_main_v37 Read.val_main_v36 Read.val_main_v35 Read.val_main_v34 Read.val_main_v33 Read.val_main_v32 Read.val_main_c_7 Read.val_main_c_6 Read.val_main_cst_8 aggRef
  rfl
theorem ref_v47 : Cert.ReferenceIdeal.Read.val_main_v47 (F := F) x0 x1 x3 x4
    = actRef (Cert.ReferenceIdeal.Read.val_main_v43 (F := F) x0 x1 x3) (Cert.ReferenceIdeal.Read.val_main_v44 (F := F) x4) := by
  unfold Read.val_main_v47 Read.val_main_v46 Read.val_main_v45 Read.val_main_call1_v0 Read.val_main_call1_cst actRef
  rfl
theorem ref_v48 : Cert.ReferenceIdeal.Read.val_main_v48 (F := F) x0 x1 x3 x4 x5 = linRef (Cert.ReferenceIdeal.Read.val_main_v47 (F := F) x0 x1 x3 x4) x5 := by
  unfold Read.val_main_v48 linRef
  rfl
theorem ref_v60 : Cert.ReferenceIdeal.Read.val_main_v60 (F := F) x0 x1 x3 x4 x5
    = aggRef (Cert.ReferenceIdeal.Read.val_main_v3 (F := F) x1) (Cert.ReferenceIdeal.Read.val_main_v6 (F := F) x1) (Cert.ReferenceIdeal.Read.val_main_v30 (F := F) x1) (Cert.ReferenceIdeal.Read.val_main_v48 (F := F) x0 x1 x3 x4 x5) := by
  unfold Read.val_main_v60 Read.val_main_v59 Read.val_main_v58 Read.val_main_v57 Read.val_main_v56 Read.val_main_v55 Read.val_main_v54 Read.val_main_v53 Read.val_main_v52 Read.val_main_v51 Read.val_main_v50 Read.val_main_v49 Read.val_main_c_10 Read.val_main_c_9 Read.val_main_cst_11 aggRef
  rfl
theorem ref_v64 : Cert.ReferenceIdeal.Read.val_main_v64 (F := F) x0 x1 x3 x4 x5 x6
    = actRef (Cert.ReferenceIdeal.Read.val_main_v60 (F := F) x0 x1 x3 x4 x5) (Cert.ReferenceIdeal.Read.val_main_v61 (F := F) x6) := by
  unfold Read.val_main_v64 Read.val_main_v63 Read.val_main_v62 Read.val_main_call2_v0 Read.val_main_call2_cst actRef
  rfl
theorem ref_v65 : Cert.ReferenceIdeal.Read.val_main_v65 (F := F) x0 x1 x3 x4 x5 x6 x7 = linRef (Cert.ReferenceIdeal.Read.val_main_v64 (F := F) x0 x1 x3 x4 x5 x6) x7 := by
  unfold Read.val_main_v65 linRef
  rfl
theorem ref_v77 : Cert.ReferenceIdeal.Read.val_main_v77 (F := F) x0 x1 x3 x4 x5 x6 x7
    = aggRef (Cert.ReferenceIdeal.Read.val_main_v3 (F := F) x1) (Cert.ReferenceIdeal.Read.val_main_v6 (F := F) x1) (Cert.ReferenceIdeal.Read.val_main_v30 (F := F) x1) (Cert.ReferenceIdeal.Read.val_main_v65 (F := F) x0 x1 x3 x4 x5 x6 x7) := by
  unfold Read.val_main_v77 Read.val_main_v76 Read.val_main_v75 Read.val_main_v74 Read.val_main_v73 Read.val_main_v72 Read.val_main_v71 Read.val_main_v70 Read.val_main_v69 Read.val_main_v68 Read.val_main_v67 Read.val_main_v66 Read.val_main_c_13 Read.val_main_c_12 Read.val_main_cst_14 aggRef
  rfl
theorem ref_v81 : Cert.ReferenceIdeal.Read.val_main_v81 (F := F) x0 x1 x3 x4 x5 x6 x7 x8
    = actRef (Cert.ReferenceIdeal.Read.val_main_v77 (F := F) x0 x1 x3 x4 x5 x6 x7) (Cert.ReferenceIdeal.Read.val_main_v78 (F := F) x8) := by
  unfold Read.val_main_v81 Read.val_main_v80 Read.val_main_v79 Read.val_main_call3_v0 Read.val_main_call3_cst actRef
  rfl
theorem ref_v93 : Cert.ReferenceIdeal.Read.val_main_v93 (F := F) x0 x1 x2 x3 x4 x5 x6 x7 x8
    = poolRef (Cert.ReferenceIdeal.Read.val_main_v81 (F := F) x0 x1 x3 x4 x5 x6 x7 x8) (Cert.ReferenceIdeal.Read.val_main_v83 (F := F) x2) := by
  unfold Read.val_main_v93 Read.val_main_v92 Read.val_main_v91 Read.val_main_v90 Read.val_main_v88 Read.val_main_v87 Read.val_main_v84 Read.val_main_v83 poolRef
  rfl

end Ref

end Cert.KernelIdeal.Hand

end
-- ==== Proof.KernelIdeal.Bridge.lean ====
/-
  Over the extended reals the kernel's program computes the reference's stages: walking @main item by item, the
  output array of each region and the result of each aggregation stretch is the reference's stage of the nine
  arguments — the projections as whole matrix products, the epilogues pointwise, the aggregations the same host
  operations on equal operands, the mean pool the reference's scatter-adds and quotient. At the return the result's
  array is the reference's last stage.
-/
import proofs.«418164_j56556129354064_1_alg».proof.Proof.Gen.KernelIdeal.Launch
import proofs.«418164_j56556129354064_1_alg».proof.Proof.Gen.KernelIdeal.Skeleton
import proofs.«418164_j56556129354064_1_alg».proof.Proof.Gen.KernelIdeal.Points
import proofs.«418164_j56556129354064_1_alg».proof.Proof.Gen.KernelIdeal.Regions
import proofs.«418164_j56556129354064_1_alg».proof.Proof.KernelIdeal.Fold
import proofs.«418164_j56556129354064_1_alg».proof.Proof.KernelIdeal.Reg0
import proofs.«418164_j56556129354064_1_alg».proof.Proof.KernelIdeal.Reg1
import proofs.«418164_j56556129354064_1_alg».proof.Proof.KernelIdeal.Reg2
import proofs.«418164_j56556129354064_1_alg».proof.Proof.KernelIdeal.Reg3
import proofs.«418164_j56556129354064_1_alg».proof.Proof.KernelIdeal.Reg4
import proofs.«418164_j56556129354064_1_alg».proof.Proof.KernelIdeal.Val0
import proofs.«418164_j56556129354064_1_alg».proof.Proof.KernelIdeal.Val1
import proofs.«418164_j56556129354064_1_alg».proof.Proof.KernelIdeal.Val2
import proofs.«418164_j56556129354064_1_alg».proof.Proof.KernelIdeal.Val3
import proofs.«418164_j56556129354064_1_alg».proof.Proof.KernelIdeal.Val4
import proofs.«418164_j56556129354064_1_alg».proof.Proof.KernelIdeal.Chain0
import proofs.«418164_j56556129354064_1_alg».proof.Proof.KernelIdeal.Chain1
import proofs.«418164_j56556129354064_1_alg».proof.Proof.RefRead
import proofs.«418164_j56556129354064_1_alg».proof.Proof.RefSpec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Keep

variable {F : FTy → Type} [FloatOps F] (m : (ℓ : Loc nD τ sig) → Buf (Elt F) ℓ) (c : Dev nD)

/-- A stretch of host operations leaves a buffer it does not write as it found it. -/
theorem W5_of (r : Ref sig .tc) (h : r ∉ Gen.hostOps1_W) : W5 m c r = W4 m c r :=
  (congrFun (V5_eq m c).symm _).trans ((Gen.V5_of m (outs m) c r h).trans (congrFun (V4_eq m c) _))
theorem W7_of (r : Ref sig .tc) (h : r ∉ Gen.hostOps2_W) : W7 m c r = W6 m c r :=
  (congrFun (V7_eq m c).symm _).trans ((Gen.V7_of m (outs m) c r h).trans (congrFun (V6_eq m c) _))
theorem W9_of (r : Ref sig .tc) (h : r ∉ Gen.hostOps3_W) : W9 m c r = W8 m c r :=
  (congrFun (V9_eq m c).symm _).trans ((Gen.V9_of m (outs m) c r h).trans (congrFun (V8_eq m c) _))
theorem W11_of (r : Ref sig .tc) (h : r ∉ Gen.hostOps4_W) : W11 m c r = W10 m c r :=
  (congrFun (V11_eq m c).symm _).trans ((Gen.V11_of m (outs m) c r h).trans (congrFun (V10_eq m c) _))

/-- An argument's array holds its launch contents when region 0 is entered. -/
theorem W3_arg (r : Ref sig .tc) (h0 : r ∉ Gen.hostOps0_W) (h1 : r ∉ Gen.hostOps0_1_W) (h2 : r ∉ Gen.hostOps0_2_W) :
    W3 m c r = m ((c : Thread nD τ).loc r) :=
  (Gen.V3_of m c r h2).trans ((Gen.V2_of m c r h1).trans (Gen.V1_of m c r h0))

end Keep

section Bridge

variable (m : (ℓ : Loc nD τ sig) → Buf (Elt Ideal) ℓ) (c : Dev nD)

set_option quotPrecheck false

local notation "a0" => (m ((c : Thread nD τ).loc main_arg0) : FVec Ideal S50000x128 .f32)
local notation "a1" => (m ((c : Thread nD τ).loc main_arg1) : IVec S2x800000 32)
local notation "a2" => (m ((c : Thread nD τ).loc main_arg2) : IVec S50000 32)
local notation "a3" => (m ((c : Thread nD τ).loc main_arg3) : FVec Ideal S128x128 .f32)
local notation "a4" => (m ((c : Thread nD τ).loc main_arg4) : FVec Ideal S128 .f32)
local notation "a5" => (m ((c : Thread nD τ).loc main_arg5) : FVec Ideal S128x128 .f32)
local notation "a6" => (m ((c : Thread nD τ).loc main_arg6) : FVec Ideal S128 .f32)
local notation "a7" => (m ((c : Thread nD τ).loc main_arg7) : FVec Ideal S128x128 .f32)
local notation "a8" => (m ((c : Thread nD τ).loc main_arg8) : FVec Ideal S128 .f32)

/-- Region 0 leaves the first projection. -/
theorem at_v34 : @Eq (FVec Ideal S50000x128 .f32) (W4 m c main_v34) (Cert.ReferenceIdeal.Read.val_main_v31 (F := Ideal) a0 a3) := by
  have h : W4 m c main_v34 = res0 m c := by unfold W4; exact Function.update_self _ _ _
  rw [h]; unfold res0
  rw [arr0_eq (tcOf (W3 m)) c, ref_v31]
  show linRef (F := Ideal) (W3 m c main_arg0) (W3 m c main_arg3) = _
  rw [W3_arg m c main_arg0 (by decide) (by decide) (by decide), W3_arg m c main_arg3 (by decide) (by decide) (by decide)]

/-- The ids and the normalisation reach every aggregation stretch as the first stretches left them. -/
theorem src_at5 : W5 m c main_v3 = W3 m c main_v3 := (W5_of m c main_v3 (by decide)).trans (W4_of m c main_v3 (by decide))
theorem dst_at5 : W5 m c main_v6 = W3 m c main_v6 := (W5_of m c main_v6 (by decide)).trans (W4_of m c main_v6 (by decide))
theorem norm_at5 : W5 m c main_v30 = W3 m c main_v30 := (W5_of m c main_v30 (by decide)).trans (W4_of m c main_v30 (by decide))

/-- The first aggregation. -/
theorem at_v46 : @Eq (FVec Ideal S50000x128 .f32) (W5 m c main_v46) (Cert.ReferenceIdeal.Read.val_main_v43 (F := Ideal) a0 a1 a3) := by
  unfold W5
  rw [stretch1 (W4 m c), ref_v43]
  rw [W4_of m c main_v3 (by decide), W4_of m c main_v6 (by decide), W4_of m c main_v30 (by decide), at_v34 m c]
  show aggRef (F := Ideal) (Gen.V3 m c main_v3) (Gen.V3 m c main_v6) (Gen.V3 m c main_v30) _ = _
  rw [chain_src m c, chain_dst m c, chain_norm m c]

/-- The first layer's bias row and the second layer's weights as region 1 finds them. -/
theorem b0_at5 : @Eq (FVec Ideal S1x128 .f32) (W5 m c main_v31) (Cert.ReferenceIdeal.Read.val_main_v44 (F := Ideal) a4) :=
  (W5_of m c main_v31 (by decide)).trans ((W4_of m c main_v31 (by decide)).trans (chain_b0 m c))
theorem arg5_at5 : W5 m c main_arg5 = m ((c : Thread nD τ).loc main_arg5) :=
  (W5_of m c main_arg5 (by decide)).trans ((W4_of m c main_arg5 (by decide)).trans
    (W3_arg m c main_arg5 (by decide) (by decide) (by decide)))

/-- Region 1 leaves the second projection of the first layer's activation. -/
theorem at_v47 : @Eq (FVec Ideal S50000x128 .f32) (W6 m c main_v47) (Cert.ReferenceIdeal.Read.val_main_v48 (F := Ideal) a0 a1 a3 a4 a5) := by
  have h : W6 m c main_v47 = res1 m c := by unfold W6; exact Function.update_self _ _ _
  rw [h]; unfold res1
  rw [arr1_eq (tcOf (W5 m)) c, ref_v48, ref_v47]
  show linRef (F := Ideal) (actRef (F := Ideal) (W5 m c main_v46) (W5 m c main_v31)) (W5 m c main_arg5) = _
  rw [at_v46 m c, b0_at5 m c, arg5_at5 m c]

/-- The ids and the normalisation as the second aggregation stretch finds them. -/
theorem src_at6 : W6 m c main_v3 = W3 m c main_v3 := (W6_of m c main_v3 (by decide)).trans (src_at5 m c)
theorem dst_at6 : W6 m c main_v6 = W3 m c main_v6 := (W6_of m c main_v6 (by decide)).trans (dst_at5 m c)
theorem norm_at6 : W6 m c main_v30 = W3 m c main_v30 := (W6_of m c main_v30 (by decide)).trans (norm_at5 m c)

/-- The second aggregation. -/
theorem at_v59 : @Eq (FVec Ideal S50000x128 .f32) (W7 m c main_v59) (Cert.ReferenceIdeal.Read.val_main_v60 (F := Ideal) a0 a1 a3 a4 a5) := by
  unfold W7
  rw [stretch2 (W6 m c), ref_v60]
  rw [src_at6 m c, dst_at6 m c, norm_at6 m c, at_v47 m c]
  show aggRef (F := Ideal) (Gen.V3 m c main_v3) (Gen.V3 m c main_v6) (Gen.V3 m c main_v30) _ = _
  rw [chain_src m c, chain_dst m c, chain_norm m c]

/-- The second layer's bias row and the third layer's weights as region 2 finds them. -/
theorem b1_at7 : @Eq (FVec Ideal S1x128 .f32) (W7 m c main_v32) (Cert.ReferenceIdeal.Read.val_main_v61 (F := Ideal) a6) :=
  (W7_of m c main_v32 (by decide)).trans ((W6_of m c main_v32 (by decide)).trans ((W5_of m c main_v32 (by decide)).trans
    ((W4_of m c main_v32 (by decide)).trans (chain_b1 m c))))
theorem arg7_at7 : W7 m c main_arg7 = m ((c : Thread nD τ).loc main_arg7) :=
  (W7_of m c main_arg7 (by decide)).trans ((W6_of m c main_arg7 (by decide)).trans ((W5_of m c main_arg7 (by decide)).trans
    ((W4_of m c main_arg7 (by decide)).trans (W3_arg m c main_arg7 (by decide) (by decide) (by decide)))))

/-- Region 2 leaves the third projection of the second layer's activation. -/
theorem at_v60 : @Eq (FVec Ideal S50000x128 .f32) (W8 m c main_v60) (Cert.ReferenceIdeal.Read.val_main_v65 (F := Ideal) a0 a1 a3 a4 a5 a6 a7) := by
  have h : W8 m c main_v60 = res2 m c := by unfold W8; exact Function.update_self _ _ _
  rw [h]; unfold res2
  rw [arr2_eq (tcOf (W7 m)) c, ref_v65, ref_v64]
  show linRef (F := Ideal) (actRef (F := Ideal) (W7 m c main_v59) (W7 m c main_v32)) (W7 m c main_arg7) = _
  rw [at_v59 m c, b1_at7 m c, arg7_at7 m c]

/-- The ids and the normalisation as the third aggregation stretch finds them. -/
theorem src_at8 : W8 m c main_v3 = W3 m c main_v3 :=
  (W8_of m c main_v3 (by decide)).trans ((W7_of m c main_v3 (by decide)).trans (src_at6 m c))
theorem dst_at8 : W8 m c main_v6 = W3 m c main_v6 :=
  (W8_of m c main_v6 (by decide)).trans ((W7_of m c main_v6 (by decide)).trans (dst_at6 m c))
theorem norm_at8 : W8 m c main_v30 = W3 m c main_v30 :=
  (W8_of m c main_v30 (by decide)).trans ((W7_of m c main_v30 (by decide)).trans (norm_at6 m c))

/-- The third aggregation. -/
theorem at_v72 : @Eq (FVec Ideal S50000x128 .f32) (W9 m c main_v72) (Cert.ReferenceIdeal.Read.val_main_v77 (F := Ideal) a0 a1 a3 a4 a5 a6 a7) := by
  unfold W9
  rw [stretch3 (W8 m c), ref_v77]
  rw [src_at8 m c, dst_at8 m c, norm_at8 m c, at_v60 m c]
  show aggRef (F := Ideal) (Gen.V3 m c main_v3) (Gen.V3 m c main_v6) (Gen.V3 m c main_v30) _ = _
  rw [chain_src m c, chain_dst m c, chain_norm m c]

/-- The third layer's bias row as region 3 finds it. -/
theorem b2_at9 : @Eq (FVec Ideal S1x128 .f32) (W9 m c main_v33) (Cert.ReferenceIdeal.Read.val_main_v78 (F := Ideal) a8) :=
  (W9_of m c main_v33 (by decide)).trans ((W8_of m c main_v33 (by decide)).trans ((W7_of m c main_v33 (by decide)).trans
    ((W6_of m c main_v33 (by decide)).trans ((W5_of m c main_v33 (by decide)).trans
      ((W4_of m c main_v33 (by decide)).trans (chain_b2 m c))))))

/-- Region 3 leaves the third layer's activation. -/
theorem at_v73 : @Eq (FVec Ideal S50000x128 .f32) (W10 m c main_v73) (Cert.ReferenceIdeal.Read.val_main_v81 (F := Ideal) a0 a1 a3 a4 a5 a6 a7 a8) := by
  have h : W10 m c main_v73 = res3 m c := by unfold W10; exact Function.update_self _ _ _
  rw [h]; unfold res3
  rw [arr3_eq (tcOf (W9 m)) c, ref_v81]
  show actRef (F := Ideal) (W9 m c main_v72) (W9 m c main_v33) = _
  rw [at_v72 m c, b2_at9 m c]

/-- The graph ids reach the last stretch as launched. -/
theorem arg2_at10 : W10 m c main_arg2 = m ((c : Thread nD τ).loc main_arg2) :=
  (W10_of m c main_arg2 (by decide)).trans ((W9_of m c main_arg2 (by decide)).trans ((W8_of m c main_arg2 (by decide)).trans
    ((W7_of m c main_arg2 (by decide)).trans ((W6_of m c main_arg2 (by decide)).trans ((W5_of m c main_arg2 (by decide)).trans
      ((W4_of m c main_arg2 (by decide)).trans (W3_arg m c main_arg2 (by decide) (by decide) (by decide))))))))

/-- The last stretch leaves the graph ids as a column. -/
theorem at_v74 : @Eq (IVec S50000x1 32) (W11 m c main_v74) (Cert.ReferenceIdeal.Read.val_main_v83 (F := Ideal) a2) := by
  unfold W11
  rw [chain_ids (W10 m c), arg2_at10 m c]

/-- At the return the result's array is the reference's last stage. -/
theorem result_eq : @Eq (FVec Ideal S64x128 .f32) (W12 m c main_v75)
    (Cert.ReferenceIdeal.Read.val_main_v93 (F := Ideal) a0 a1 a2 a3 a4 a5 a6 a7 a8) := by
  have h : W12 m c main_v75 = res4 m c := by unfold W12; exact Function.update_self _ _ _
  rw [h]; unfold res4
  rw [arr4_eq (tcOf (W11 m)) c, ref_v93]
  show poolRef (F := Ideal) (W11 m c main_v73) (W11 m c main_v74) = _
  rw [W11_of m c main_v73 (by decide), at_v73 m c, at_v74 m c]

end Bridge

end Cert.KernelIdeal.Hand

end
-- ==== Proof.lean ====
/-
  The certificate of kernel j56556129354064/1 (a three-layer graph convolution with a mean pool over graphs, five
  Pallas calls among host operations) against its jnp reference.

  Frames. Each kernel program's @main is run item by item: a stretch of host operations takes every unscoped buffer
  from one valuation to the next; a region is entered from those buffers, its pipeline's ten points run the body on
  the staged blocks, and it leaves its output's array at what the write-backs fold to and every other buffer as it
  found it. Regions 0 to 3 store their block whole at every point; region 4 carries two accumulators from point to
  point and stores its output at the last point only. No item writes an argument. The reference is one line of host
  operations.

  Value, over the extended reals. Walking @main, each region's output array and each aggregation stretch's result is
  the reference's stage of the nine arguments: a block of 5000 rows of a matrix product is those rows of the whole
  product (every term of the two sums is the same product); the bias row spread over the rows and the clamp at zero are
  pointwise; the aggregations are the same host operations applied to equal operands; and the mean pool — per graph
  and feature the sum over the ten blocks of the rows whose id is the graph, the table of ones and zeros times the
  block, over the count of such rows clamped at one — is the reference's two scatter-adds into zeros and their quotient,
  since 0 * x = 0 and 1 * x = x for every extended real and sums of extended reals regroup freely. Nothing asks the
  inputs to be finite.
-/
import proofs.«418164_j56556129354064_1_alg».proof.Defs
import proofs.«418164_j56556129354064_1_alg».proof.Proof.Gen.Kernel
import proofs.«418164_j56556129354064_1_alg».proof.Proof.Gen.KernelIdeal
import proofs.«418164_j56556129354064_1_alg».proof.Proof.Gen.ReferenceIdeal
import proofs.«418164_j56556129354064_1_alg».proof.Proof.Gen.Pre_finite_inputs
import proofs.«418164_j56556129354064_1_alg».proof.Proof.Kernel.Run
import proofs.«418164_j56556129354064_1_alg».proof.Proof.KernelIdeal.Run
import proofs.«418164_j56556129354064_1_alg».proof.Proof.KernelIdeal.Bridge
import proofs.«418164_j56556129354064_1_alg».proof.Proof.RefRun
import proofs.«418164_j56556129354064_1_alg».proof.Proof.RefRead
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame_all (F := Bits) m ρ

/-- So does the idealized one. -/
theorem frame_ki : Cert.frame_KernelIdeal := fun m ρ _ => Cert.KernelIdeal.Hand.frame_all (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- From memories agreeing on the arguments the two idealized programs end with equal results: the kernel's result
    array is the reference's last stage of its own arguments, which are the reference's. -/
theorem algebraic : Cert.algebraic_KernelIdeal_ReferenceIdeal := by
  intro m ρ m' ρ' _ hagree
  refine ⟨fun c => Cert.KernelIdeal.Hand.W12 m c Cert.KernelIdeal.main_v75, Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v93_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2]
  exact (Cert.KernelIdeal.Hand.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
